-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2048x28 : Shape := ⟨2, ![2048, 28]⟩
abbrev S28x28 : Shape := ⟨2, ![28, 28]⟩
abbrev S_ : Shape := ⟨0, ![]⟩
abbrev S2048 : Shape := ⟨1, ![2048]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S2048x28 : S_.BroadcastsInDim S2048x28 (![] : Fin 0 → Fin S2048x28.rank)
  reducesTo_S2048x28_S_d0_1 : S2048x28.ReducesTo [0, 1] S_
  bcast_S_S28x28 : S_.BroadcastsInDim S28x28 (![] : Fin 0 → Fin S28x28.rank)
  reducesTo_S28x28_S_d0_1 : S28x28.ReducesTo [0, 1] S_
  reducesTo_S2048x28_S2048_d1 : S2048x28.ReducesTo [1] S2048
  bcast_S_S2048 : S_.BroadcastsInDim S2048 (![] : Fin 0 → Fin S2048.rank)
  reducesTo_S2048_S_d0 : S2048.ReducesTo [0] S_

variable [Facts]

def fn_part1 {F : FTy → Type} [FloatOps F] (main_arg2 : FVec F S2048x28 .f32) (main_v13 : IVec S_ 1) (main_v16 : IVec S28x28 1) : IVec S_ 1 :=
  let main_c_5 : IVec S_ 1 := constantI S_ 1 1#1
  let main_v17 : IVec S_ 1 := (fun x v => Host.reduce IntOp.andi x v reducesTo_S28x28_S_d0_1 h_S_) main_v16 main_c_5
  let main_v18 : IVec S_ 1 := andi main_v13 main_v17
  let main_cst_6 : FVec F S_ .f32 := constant S_ .f32 0x00000000#32
  let main_v19 : FVec F S2048x28 .f32 := broadcastInDim S2048x28 ![] bcast_S_S2048x28 main_cst_6
  let main_v20 : IVec S2048x28 1 := cmpf .oeq main_arg2 main_v19
  let main_cst_7 : FVec F S_ .f32 := constant S_ .f32 0x3F800000#32
  let main_v21 : FVec F S2048x28 .f32 := broadcastInDim S2048x28 ![] bcast_S_S2048x28 main_cst_7
  let main_v22 : IVec S2048x28 1 := cmpf .oeq main_arg2 main_v21
  let main_v23 : IVec S2048x28 1 := ori main_v20 main_v22
  let main_c_8 : IVec S_ 1 := constantI S_ 1 1#1
  let main_v24 : IVec S_ 1 := (fun x v => Host.reduce IntOp.andi x v reducesTo_S2048x28_S_d0_1 h_S_) main_v23 main_c_8
  let main_v25 : IVec S_ 1 := andi main_v18 main_v24
  let main_cst_9 : FVec F S_ .f32 := constant S_ .f32 0x00000000#32
  let main_v26 : FVec F S2048 .f32 := (fun x v => Host.reduceAdd x v reducesTo_S2048x28_S2048_d1 h_S_) main_arg2 main_cst_9
  let main_cst_10 : FVec F S_ .f32 := constant S_ .f32 0x3F800000#32
  let main_v27 : FVec F S2048 .f32 := broadcastInDim S2048 ![] bcast_S_S2048 main_cst_10
  let main_v28 : IVec S2048 1 := cmpf .oge main_v26 main_v27
  let main_c_11 : IVec S_ 1 := constantI S_ 1 1#1
  let main_v29 : IVec S_ 1 := (fun x v => Host.reduce IntOp.andi x v reducesTo_S2048_S_d0 h_S_) main_v28 main_c_11
  let main_v30 : IVec S_ 1 := andi main_v25 main_v29
  main_v30

def fn {F : FTy → Type} [FloatOps F] (main_arg0 : FVec F S2048x256 .f32) (main_arg1 : FVec F S2048x28 .f32) (main_arg2 : FVec F S2048x28 .f32) (main_arg3 : FVec F S28x28 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x28 .f32 := Host.absf main_arg1
  let main_cst_0 : FVec F S_ .f32 := constant S_ .f32 0x7F800000#32
  let main_v5 : FVec F S2048x28 .f32 := broadcastInDim S2048x28 ![] bcast_S_S2048x28 main_cst_0
  let main_v6 : IVec S2048x28 1 := cmpf .olt main_v4 main_v5
  let main_c_1 : IVec S_ 1 := constantI S_ 1 1#1
  let main_v7 : IVec S_ 1 := (fun x v => Host.reduce IntOp.andi x v reducesTo_S2048x28_S_d0_1 h_S_) main_v6 main_c_1
  let main_v8 : IVec S_ 1 := andi main_v3 main_v7
  let main_v9 : FVec F S2048x28 .f32 := Host.absf main_arg2
  let main_cst_2 : FVec F S_ .f32 := constant S_ .f32 0x7F800000#32
  let main_v10 : FVec F S2048x28 .f32 := broadcastInDim S2048x28 ![] bcast_S_S2048x28 main_cst_2
  let main_v11 : IVec S2048x28 1 := cmpf .olt main_v9 main_v10
  let main_c_3 : IVec S_ 1 := constantI S_ 1 1#1
  let main_v12 : IVec S_ 1 := (fun x v => Host.reduce IntOp.andi x v reducesTo_S2048x28_S_d0_1 h_S_) main_v11 main_c_3
  let main_v13 : IVec S_ 1 := andi main_v8 main_v12
  let main_v14 : FVec F S28x28 .f32 := Host.absf main_arg3
  let main_cst_4 : FVec F S_ .f32 := constant S_ .f32 0x7F800000#32
  let main_v15 : FVec F S28x28 .f32 := broadcastInDim S28x28 ![] bcast_S_S28x28 main_cst_4
  let main_v16 : IVec S28x28 1 := cmpf .olt main_v14 main_v15
  fn_part1 (F := F) main_arg2 main_v13 main_v16
-- ==== Kernel.lean ====
abbrev S2048x256 : Shape := ⟨2, ![2048, 256]⟩
abbrev S2048x28 : Shape := ⟨2, ![2048, 28]⟩
abbrev S28x28 : Shape := ⟨2, ![28, 28]⟩
abbrev S_ : Shape := ⟨0, ![]⟩
abbrev S2048 : Shape := ⟨1, ![2048]⟩
abbrev S2048x1x28 : Shape := ⟨3, ![2048, 1, 28]⟩
abbrev S1x28x28 : Shape := ⟨3, ![1, 28, 28]⟩
abbrev S2048x28x28 : Shape := ⟨3, ![2048, 28, 28]⟩
abbrev S28x2048 : Shape := ⟨2, ![28, 2048]⟩
abbrev S256x2048 : Shape := ⟨2, ![256, 2048]⟩
abbrev S512 : Shape := ⟨1, ![512]⟩
abbrev S512x256 : Shape := ⟨2, ![512, 256]⟩
abbrev S512x28 : Shape := ⟨2, ![512, 28]⟩
abbrev S512x2048 : Shape := ⟨2, ![512, 2048]⟩
abbrev S512x1 : Shape := ⟨2, ![512, 1]⟩
abbrev S1x2048 : Shape := ⟨2, ![1, 2048]⟩

abbrev nBuf : Space → Nat
  | .hbm => 90
  | .vmem => 11
  | .smem => 0
  | _ => 0

abbrev bufTy : (tb : Table) → Fin (tcTables nBuf tb) → BufTy
  | .hbm, ⟨0, _⟩ => ⟨S2048x256, .f32⟩
  | .hbm, ⟨1, _⟩ => ⟨S2048x28, .f32⟩
  | .hbm, ⟨2, _⟩ => ⟨S2048x28, .f32⟩
  | .hbm, ⟨3, _⟩ => ⟨S28x28, .f32⟩
  | .hbm, ⟨4, _⟩ => ⟨S2048x28, .f32⟩
  | .hbm, ⟨5, _⟩ => ⟨S2048x28, .f32⟩
  | .hbm, ⟨6, _⟩ => ⟨S_, .f32⟩
  | .hbm, ⟨7, _⟩ => ⟨S2048x28, .f32⟩
  | .hbm, ⟨8, _⟩ => ⟨S2048x28, .f32⟩
  | .hbm, ⟨9, _⟩ => ⟨S_, .f32⟩
  | .hbm, ⟨10, _⟩ => ⟨S2048x28, .f32⟩
  | .hbm, ⟨11, _⟩ => ⟨S2048x28, .f32⟩
  | .hbm, ⟨12, _⟩ => ⟨S_, .f32⟩
  | .hbm, ⟨13, _⟩ => ⟨S2048x28, .f32⟩
  | .hbm, ⟨14, _⟩ => ⟨S2048x28, .f32⟩
  | .hbm, ⟨15, _⟩ => ⟨S2048x28, .f32⟩
  | .hbm, ⟨16, _⟩ => ⟨S2048x28, .f32⟩
  | .hbm, ⟨17, _⟩ => ⟨S_, .f32⟩
  | .hbm, ⟨18, _⟩ => ⟨S2048x28, .f32⟩
  | .hbm, ⟨19, _⟩ => ⟨S2048x28, .f32⟩
  | .hbm, ⟨20, _⟩ => ⟨S_, .f32⟩
  | .hbm, ⟨21, _⟩ => ⟨S2048x28, .f32⟩
  | .hbm, ⟨22, _⟩ => ⟨S2048x28, .f32⟩
  | .hbm, ⟨23, _⟩ => ⟨S_, .f32⟩
  | .hbm, ⟨24, _⟩ => ⟨S2048x28, .f32⟩
  | .hbm, ⟨25, _⟩ => ⟨S2048x28, .f32⟩
  | .hbm, ⟨26, _⟩ => ⟨S2048x28, .f32⟩
  | .hbm, ⟨27, _⟩ => ⟨S2048x28, .f32⟩
  | .hbm, ⟨28, _⟩ => ⟨S2048x28, .f32⟩
  | .hbm, ⟨29, _⟩ => ⟨S2048x28, .f32⟩
  | .hbm, ⟨30, _⟩ => ⟨S_, .f32⟩
  | .hbm, ⟨31, _⟩ => ⟨S2048, .f32⟩
  | .hbm, ⟨32, _⟩ => ⟨S2048x28, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S_, .f32⟩
  | .hbm, ⟨56, _⟩ => ⟨S2048x28, .f32⟩
  | .hbm, ⟨57, _⟩ => ⟨S2048x28, .i1⟩
  | .hbm, ⟨58, _⟩ => ⟨S2048x1x28, .i1⟩
  | .hbm, ⟨59, _⟩ => ⟨S1x28x28, .f32⟩
  | .hbm, ⟨60, _⟩ => ⟨S_, .f32⟩
  | .hbm, ⟨61, _⟩ => ⟨S2048x28x28, .i1⟩
  | .hbm, ⟨62, _⟩ => ⟨S2048x28x28, .f32⟩
  | .hbm, ⟨63, _⟩ => ⟨S2048x28x28, .f32⟩
  | .hbm, ⟨64, _⟩ => ⟨S2048x28x28, .f32⟩
  | .hbm, ⟨65, _⟩ => ⟨S_, .f32⟩
  | .hbm, ⟨66, _⟩ => ⟨S2048x28, .f32⟩
  | .hbm, ⟨67, _⟩ => ⟨S2048x28, .bf16⟩
  | .hbm, ⟨68, _⟩ => ⟨S28x2048, .bf16⟩
  | .hbm, ⟨69, _⟩ => ⟨S256x2048, .f32⟩
  | .hbm, ⟨70, _⟩ => ⟨S2048x28, .bf16⟩
  | .hbm, ⟨71, _⟩ => ⟨S28x2048, .bf16⟩
  | .hbm, ⟨72, _⟩ => ⟨S2048, .f32⟩
  | .hbm, ⟨73, _⟩ => ⟨S2048, .f32⟩
  | .hbm, ⟨74, _⟩ => ⟨S_, .f32⟩
  | .hbm, ⟨75, _⟩ => ⟨S2048, .f32⟩
  | .hbm, ⟨76, _⟩ => ⟨S2048, .i1⟩
  | .hbm, ⟨77, _⟩ => ⟨S2048, .i32⟩
  | .hbm, ⟨78, _⟩ => ⟨S_, .i32⟩
  | .hbm, ⟨79, _⟩ => ⟨S_, .i32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S2048, .f32⟩
  | .hbm, ⟨86, _⟩ => ⟨S2048, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S2048x256, .f32⟩
  | .local _ .vmem, ⟨1, _⟩ => ⟨S256x2048, .f32⟩
  | .local _ .vmem, ⟨2, _⟩ => ⟨S2048x28, .bf16⟩
  | .local _ .vmem, ⟨3, _⟩ => ⟨S28x2048, .bf16⟩
  | .local _ .vmem, ⟨4, _⟩ => ⟨S28x2048, .bf16⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_cst_2 : Ref sig .tc := ⟨.hbm, 17, rfl⟩
abbrev main_call0_v10 : Ref sig .tc := ⟨.hbm, 18, rfl⟩
abbrev main_call0_v11 : Ref sig .tc := ⟨.hbm, 19, rfl⟩
abbrev main_call0_cst_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst_4 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_cst_5 : Ref sig .tc := ⟨.hbm, 30, rfl⟩
abbrev main_call0_v20 : Ref sig .tc := ⟨.hbm, 31, rfl⟩
abbrev main_call0_v21 : Ref sig .tc := ⟨.hbm, 32, rfl⟩
abbrev main_call0_cst_6 : Ref sig .tc := ⟨.hbm, 33, rfl⟩
abbrev main_call0_v22 : Ref sig .tc := ⟨.hbm, 34, rfl⟩
abbrev main_call0_cst_7 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_cst_8 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_cst_9 : Ref sig .tc := ⟨.hbm, 44, rfl⟩
abbrev main_call0_v30 : Ref sig .tc := ⟨.hbm, 45, rfl⟩
abbrev main_call0_v31 : Ref sig .tc := ⟨.hbm, 46, rfl⟩
abbrev main_call0_cst_10 : Ref sig .tc := ⟨.hbm, 47, rfl⟩
abbrev main_call0_cst_11 : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_v32 : Ref sig .tc := ⟨.hbm, 54, rfl⟩
abbrev main_call0_cst_12 : Ref sig .tc := ⟨.hbm, 55, rfl⟩
abbrev main_call0_v33 : Ref sig .tc := ⟨.hbm, 56, rfl⟩
abbrev main_call0_v34 : Ref sig .tc := ⟨.hbm, 57, rfl⟩
abbrev main_call0_v35 : Ref sig .tc := ⟨.hbm, 58, rfl⟩
abbrev main_call0_v36 : Ref sig .tc := ⟨.hbm, 59, rfl⟩
abbrev main_call0_cst_13 : Ref sig .tc := ⟨.hbm, 60, rfl⟩
abbrev main_call0_call1_v0 : Ref sig .tc := ⟨.hbm, 61, rfl⟩
abbrev main_call0_call1_v1 : Ref sig .tc := ⟨.hbm, 62, rfl⟩
abbrev main_call0_call1_v2 : Ref sig .tc := ⟨.hbm, 63, rfl⟩
abbrev main_call0_v37 : Ref sig .tc := ⟨.hbm, 64, rfl⟩
abbrev main_call0_cst_14 : Ref sig .tc := ⟨.hbm, 65, rfl⟩
abbrev main_call0_v38 : Ref sig .tc := ⟨.hbm, 66, rfl⟩
abbrev main_call0_v39 : Ref sig .tc := ⟨.hbm, 67, rfl⟩
abbrev main_call0_v40 : Ref sig .tc := ⟨.hbm, 68, rfl⟩
abbrev main_call0_v41 : Ref sig .tc := ⟨.hbm, 69, rfl⟩
abbrev main_call0_v42 : Ref sig .tc := ⟨.hbm, 70, rfl⟩
abbrev main_call0_v43 : Ref sig .tc := ⟨.hbm, 71, rfl⟩
abbrev main_call0_v44_0 : Ref sig .tc := ⟨.hbm, 72, rfl⟩
abbrev main_call0_v44_1 : Ref sig .tc := ⟨.hbm, 73, rfl⟩
abbrev main_call0_cst_15 : Ref sig .tc := ⟨.hbm, 74, rfl⟩
abbrev main_call0_v45 : Ref sig .tc := ⟨.hbm, 75, rfl⟩
abbrev main_call0_v46 : Ref sig .tc := ⟨.hbm, 76, rfl⟩
abbrev main_call0_v47 : Ref sig .tc := ⟨.hbm, 77, rfl⟩
abbrev main_call0_c : Ref sig .tc := ⟨.hbm, 78, rfl⟩
abbrev main_call0_v48 : Ref sig .tc := ⟨.hbm, 79, rfl⟩
abbrev main_call0_v49 : Ref sig .tc := ⟨.hbm, 80, rfl⟩
abbrev main_call0_cst_16 : Ref sig .tc := ⟨.hbm, 81, rfl⟩
abbrev main_call0_v50 : Ref sig .tc := ⟨.hbm, 82, rfl⟩
abbrev main_call0_cst_17 : Ref sig .tc := ⟨.hbm, 83, rfl⟩
abbrev main_call0_call2_v0 : Ref sig .tc := ⟨.hbm, 84, rfl⟩
abbrev main_call0_call2_v1 : Ref sig .tc := ⟨.hbm, 85, rfl⟩
abbrev main_call0_v51 : Ref sig .tc := ⟨.hbm, 86, rfl⟩
abbrev main_call0_cst_18 : Ref sig .tc := ⟨.hbm, 87, rfl⟩
abbrev main_call0_v52 : Ref sig .tc := ⟨.hbm, 88, rfl⟩
abbrev main_v0 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  let c0 : Index := 0#32
  ![v2.toNat, 0]
def k0_off2 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v4 : Index := Scalar.indexCast v1
  let c0_0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x28 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S28x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S28x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S2048x28 : S_.BroadcastsInDim S2048x28 (![] : Fin 0 → Fin S2048x28.rank)
  reducesTo_S2048x28_S2048_d1 : S2048x28.ReducesTo [1] S2048
  h_S_ : 0 < S_.numel
  bcast_S_S2048 : S_.BroadcastsInDim S2048 (![] : Fin 0 → Fin S2048.rank)
  bcast_S2048x28_S2048x1x28_0_2 : S2048x28.BroadcastsInDim S2048x1x28 (![0, 2] : Fin 2 → Fin S2048x1x28.rank)
  bcast_S28x28_S1x28x28_1_2 : S28x28.BroadcastsInDim S1x28x28 (![1, 2] : Fin 2 → Fin S1x28x28.rank)
  bcast_S2048x1x28_S2048x28x28_0_1_2 : S2048x1x28.BroadcastsInDim S2048x28x28 (![0, 1, 2] : Fin 3 → Fin S2048x28x28.rank)
  bcast_S1x28x28_S2048x28x28_0_1_2 : S1x28x28.BroadcastsInDim S2048x28x28 (![0, 1, 2] : Fin 3 → Fin S2048x28x28.rank)
  bcast_S_S2048x28x28 : S_.BroadcastsInDim S2048x28x28 (![] : Fin 0 → Fin S2048x28x28.rank)
  reducesTo_S2048x28x28_S2048x28_d2 : S2048x28x28.ReducesTo [2] S2048x28
  bitsLt_bf16_f32 : FTy.bits .bf16 < FTy.bits .f32
  transposes_S2048x28_S28x2048_1_0 : S2048x28.Transposes [1, 0] S28x2048
  transposes_S2048x256_S256x2048_1_0 : S2048x256.Transposes [1, 0] S256x2048
  natLt_1_32 : 1 < 32
  reducesTo_S2048_S_d0 : S2048.ReducesTo [0] S_
  h_S512x256 : 0 < S512x256.numel
  h_S512x28 : 0 < S512x28.numel
  shapeCasts_S512x28_S512x28 : S512x28.ShapeCasts S512x28
  inb_S512_S512_0 : ∀ a, (![0] : Fin 1 → Nat) a + S512.size a ≤ S512.size a
  h_S512 : 0 < S512.numel
  shapeCasts_S512_S512 : S512.ShapeCasts S512
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S28x2048_S28x2048_0_0 : ∀ a, (![0, 0] : Fin 2 → Nat) a + S28x2048.size a ≤ S28x2048.size a
  h_S28x2048 : 0 < S28x2048.numel
  shapeCasts_S28x2048_S28x2048 : S28x2048.ShapeCasts S28x2048
  iota_S512x2048_d0_w32 : S512x2048.Iotas .tc 32 [0]
  iota_S512x2048_d1_w32 : S512x2048.Iotas .tc 32 [1]
  slices_S512x28_o0_0_S512x1 : S512x28.Slices ![0, 0] S512x1
  slices_S28x2048_o0_0_S1x2048 : S28x2048.Slices ![0, 0] S1x2048
  shapeCasts_S1x2048_S2048 : S1x2048.ShapeCasts S2048
  shapeCasts_S2048_S1x2048 : S2048.ShapeCasts S1x2048
  broadcasts_S512x1_S512x2048 : S512x1.Broadcasts S512x2048
  broadcasts_S1x2048_S512x2048 : S1x2048.Broadcasts S512x2048
  slices_S512x28_o0_1_S512x1 : S512x28.Slices ![0, 1] S512x1
  slices_S28x2048_o1_0_S1x2048 : S28x2048.Slices ![1, 0] S1x2048
  slices_S512x28_o0_2_S512x1 : S512x28.Slices ![0, 2] S512x1
  slices_S28x2048_o2_0_S1x2048 : S28x2048.Slices ![2, 0] S1x2048
  slices_S512x28_o0_3_S512x1 : S512x28.Slices ![0, 3] S512x1
  slices_S28x2048_o3_0_S1x2048 : S28x2048.Slices ![3, 0] S1x2048
  slices_S512x28_o0_4_S512x1 : S512x28.Slices ![0, 4] S512x1
  slices_S28x2048_o4_0_S1x2048 : S28x2048.Slices ![4, 0] S1x2048
  slices_S512x28_o0_5_S512x1 : S512x28.Slices ![0, 5] S512x1
  slices_S28x2048_o5_0_S1x2048 : S28x2048.Slices ![5, 0] S1x2048
  slices_S512x28_o0_6_S512x1 : S512x28.Slices ![0, 6] S512x1
  slices_S28x2048_o6_0_S1x2048 : S28x2048.Slices ![6, 0] S1x2048
  slices_S512x28_o0_7_S512x1 : S512x28.Slices ![0, 7] S512x1
  slices_S28x2048_o7_0_S1x2048 : S28x2048.Slices ![7, 0] S1x2048
  slices_S512x28_o0_8_S512x1 : S512x28.Slices ![0, 8] S512x1
  slices_S28x2048_o8_0_S1x2048 : S28x2048.Slices ![8, 0] S1x2048
  slices_S512x28_o0_9_S512x1 : S512x28.Slices ![0, 9] S512x1
  slices_S28x2048_o9_0_S1x2048 : S28x2048.Slices ![9, 0] S1x2048
  slices_S512x28_o0_10_S512x1 : S512x28.Slices ![0, 10] S512x1
  slices_S28x2048_o10_0_S1x2048 : S28x2048.Slices ![10, 0] S1x2048
  slices_S512x28_o0_11_S512x1 : S512x28.Slices ![0, 11] S512x1
  slices_S28x2048_o11_0_S1x2048 : S28x2048.Slices ![11, 0] S1x2048
  slices_S512x28_o0_12_S512x1 : S512x28.Slices ![0, 12] S512x1
  slices_S28x2048_o12_0_S1x2048 : S28x2048.Slices ![12, 0] S1x2048
  slices_S512x28_o0_13_S512x1 : S512x28.Slices ![0, 13] S512x1
  slices_S28x2048_o13_0_S1x2048 : S28x2048.Slices ![13, 0] S1x2048
  slices_S512x28_o0_14_S512x1 : S512x28.Slices ![0, 14] S512x1
  slices_S28x2048_o14_0_S1x2048 : S28x2048.Slices ![14, 0] S1x2048
  slices_S512x28_o0_15_S512x1 : S512x28.Slices ![0, 15] S512x1
  slices_S28x2048_o15_0_S1x2048 : S28x2048.Slices ![15, 0] S1x2048
  slices_S512x28_o0_16_S512x1 : S512x28.Slices ![0, 16] S512x1
  slices_S28x2048_o16_0_S1x2048 : S28x2048.Slices ![16, 0] S1x2048
  slices_S512x28_o0_17_S512x1 : S512x28.Slices ![0, 17] S512x1
  slices_S28x2048_o17_0_S1x2048 : S28x2048.Slices ![17, 0] S1x2048
  slices_S512x28_o0_18_S512x1 : S512x28.Slices ![0, 18] S512x1
  slices_S28x2048_o18_0_S1x2048 : S28x2048.Slices ![18, 0] S1x2048
  slices_S512x28_o0_19_S512x1 : S512x28.Slices ![0, 19] S512x1
  slices_S28x2048_o19_0_S1x2048 : S28x2048.Slices ![19, 0] S1x2048
  slices_S512x28_o0_20_S512x1 : S512x28.Slices ![0, 20] S512x1
  slices_S28x2048_o20_0_S1x2048 : S28x2048.Slices ![20, 0] S1x2048
  slices_S512x28_o0_21_S512x1 : S512x28.Slices ![0, 21] S512x1
  slices_S28x2048_o21_0_S1x2048 : S28x2048.Slices ![21, 0] S1x2048
  slices_S512x28_o0_22_S512x1 : S512x28.Slices ![0, 22] S512x1
  slices_S28x2048_o22_0_S1x2048 : S28x2048.Slices ![22, 0] S1x2048
  slices_S512x28_o0_23_S512x1 : S512x28.Slices ![0, 23] S512x1
  slices_S28x2048_o23_0_S1x2048 : S28x2048.Slices ![23, 0] S1x2048
  slices_S512x28_o0_24_S512x1 : S512x28.Slices ![0, 24] S512x1
  slices_S28x2048_o24_0_S1x2048 : S28x2048.Slices ![24, 0] S1x2048
  slices_S512x28_o0_25_S512x1 : S512x28.Slices ![0, 25] S512x1
  slices_S28x2048_o25_0_S1x2048 : S28x2048.Slices ![25, 0] S1x2048
  slices_S512x28_o0_26_S512x1 : S512x28.Slices ![0, 26] S512x1
  slices_S28x2048_o26_0_S1x2048 : S28x2048.Slices ![26, 0] S1x2048
  slices_S512x28_o0_27_S512x1 : S512x28.Slices ![0, 27] S512x1
  slices_S28x2048_o27_0_S1x2048 : S28x2048.Slices ![27, 0] S1x2048
  reduces_S512x2048_S512 : S512x2048.Reduces [1] S512
  shapeCasts_S512_S512x1 : S512.ShapeCasts S512x1
  dot_S512x256_S256x2048_S512x2048_1_0_0_1_n_n_wf : DotDims.WF S512x256 S256x2048 S512x2048 [1] [0] [0] [1] [] []
  dot_S512x28_S28x2048_S512x2048_1_0_0_1_n_n_wf : DotDims.WF S512x28 S28x2048 S512x2048 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x256.size a ≤ S2048x256.size a
  k0_off2_inb : ∀ i : grid0.Coords, ∀ a, (k0_off2 i) a + S512x28.size a ≤ S2048x28.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x256.size a
  hwx0_0 : ∀ i : grid0.Coords, EltTy.bits .f32 = 32 ∨ (Rect.block (s := S2048x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x28.size a ≤ S2048x28.size a
  hwx0_2 : ∀ i : grid0.Coords, EltTy.bits .bf16 = 32 ∨ (Rect.block (s := S2048x28) S2048x28.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S28x2048.size a ≤ S28x2048.size a
  hwx0_3 : ∀ i : grid0.Coords, EltTy.bits .bf16 = 32 ∨ (Rect.block (s := S28x2048) S28x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S28x2048.size a ≤ S28x2048.size a
  hwx0_4 : ∀ i : grid0.Coords, EltTy.bits .bf16 = 32 ∨ (Rect.block (s := S28x2048) S28x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S2048.size a
  hwx0_5 : ∀ i : grid0.Coords, EltTy.bits .f32 = 32 ∨ (Rect.block (s := S2048) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S2048.size a
  hwx0_6 : ∀ i : grid0.Coords, EltTy.bits .f32 = 32 ∨ (Rect.block (s := S2048) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S2048.size a
  hwx0_7 : ∀ i : grid0.Coords, EltTy.bits .f32 = 32 ∨ (Rect.block (s := S2048) S512.size (cc0_transform_7 i) (hinb0_7 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x28_S28x2048_S512x2048_1_0_0_1_n_n : DotDims S512x28 S28x2048 S512x2048 where
  lhsContracting := [1]
  rhsContracting := [0]
  lhsNonContracting := [0]
  rhsNonContracting := [1]
  lhsBatch := []
  rhsBatch := []
  wf := dot_S512x28_S28x2048_S512x2048_1_0_0_1_n_n_wf

abbrev win0_0 : Pipeline.Window sig grid0 :=
  Pipeline.Window.ofSpec (Memref.whole main_arg0) S2048x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v41) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v42) S2048x28.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v43) S28x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v40) S28x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v32) S512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v44_0) S512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v44_1) S512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x256 : Shape := ⟨2, ![2048, 256]⟩
abbrev S2048x28 : Shape := ⟨2, ![2048, 28]⟩
abbrev S28x28 : Shape := ⟨2, ![28, 28]⟩
abbrev S_ : Shape := ⟨0, ![]⟩
abbrev S2048 : Shape := ⟨1, ![2048]⟩
abbrev S256x2048 : Shape := ⟨2, ![256, 2048]⟩
abbrev S2048x2048 : Shape := ⟨2, ![2048, 2048]⟩
abbrev S28x2048 : Shape := ⟨2, ![28, 2048]⟩
abbrev S2048x1x28 : Shape := ⟨3, ![2048, 1, 28]⟩
abbrev S1x28x28 : Shape := ⟨3, ![1, 28, 28]⟩
abbrev S2048x28x28 : Shape := ⟨3, ![2048, 28, 28]⟩
abbrev S1x2048x28 : Shape := ⟨3, ![1, 2048, 28]⟩
abbrev S2048x2048x28 : Shape := ⟨3, ![2048, 2048, 28]⟩
abbrev S2048x1 : Shape := ⟨2, ![2048, 1]⟩

abbrev nBuf : Space → Nat
  | .hbm => 149
  | .vmem => 0
  | .smem => 0
  | _ => 0

abbrev hbmTy0_0 (i : Nat) : BufTy := match i % 128 with
  | 0 => ⟨S2048x256, .f32⟩
  | 1 => ⟨S2048x28, .f32⟩
  | 2 => ⟨S2048x28, .f32⟩
  | 3 => ⟨S28x28, .f32⟩
  | 4 => ⟨S2048x28, .f32⟩
  | 5 => ⟨S2048x28, .f32⟩
  | 6 => ⟨S_, .f32⟩
  | 7 => ⟨S2048x28, .f32⟩
  | 8 => ⟨S2048x28, .f32⟩
  | 9 => ⟨S_, .f32⟩
  | 10 => ⟨S2048x28, .f32⟩
  | 11 => ⟨S2048x28, .f32⟩
  | 12 => ⟨S_, .f32⟩
  | 13 => ⟨S2048x28, .f32⟩
  | 14 => ⟨S2048x28, .f32⟩
  | 15 => ⟨S2048x28, .f32⟩
  | 16 => ⟨S2048x28, .f32⟩
  | 17 => ⟨S_, .f32⟩
  | 18 => ⟨S2048x28, .f32⟩
  | 19 => ⟨S2048x28, .f32⟩
  | 20 => ⟨S_, .f32⟩
  | 21 => ⟨S2048x28, .f32⟩
  | 22 => ⟨S2048x28, .f32⟩
  | 23 => ⟨S_, .f32⟩
  | 24 => ⟨S2048x28, .f32⟩
  | 25 => ⟨S2048x28, .f32⟩
  | 26 => ⟨S2048x28, .f32⟩
  | 27 => ⟨S2048x28, .f32⟩
  | 28 => ⟨S2048x28, .f32⟩
  | 29 => ⟨S2048x28, .f32⟩
  | 30 => ⟨S_, .f32⟩
  | 31 => ⟨S2048, .f32⟩
  | 32 => ⟨S2048x28, .f32⟩
  | 33 => ⟨S_, .f32⟩
  | 34 => ⟨S2048, .f32⟩
  | 35 => ⟨S_, .f32⟩
  | 36 => ⟨S2048, .f32⟩
  | 37 => ⟨S2048, .f32⟩
  | 38 => ⟨S2048, .f32⟩
  | 39 => ⟨S_, .f32⟩
  | 40 => ⟨S_, .f32⟩
  | 41 => ⟨S_, .f32⟩
  | 42 => ⟨S2048, .f32⟩
  | 43 => ⟨S2048, .f32⟩
  | 44 => ⟨S_, .f32⟩
  | 45 => ⟨S2048, .f32⟩
  | 46 => ⟨S2048, .f32⟩
  | 47 => ⟨S_, .f32⟩
  | 48 => ⟨S_, .f32⟩
  | 49 => ⟨S_, .f32⟩
  | 50 => ⟨S2048, .f32⟩
  | 51 => ⟨S2048, .f32⟩
  | 52 => ⟨S_, .f32⟩
  | 53 => ⟨S2048, .f32⟩
  | 54 => ⟨S2048, .f32⟩
  | 55 => ⟨S256x2048, .f32⟩
  | 56 => ⟨S2048x2048, .f32⟩
  | 57 => ⟨S_, .f32⟩
  | 58 => ⟨S2048x2048, .f32⟩
  | 59 => ⟨S2048x2048, .f32⟩
  | 60 => ⟨S2048x2048, .i32⟩
  | 61 => ⟨S2048x2048, .i32⟩
  | 62 => ⟨S_, .i32⟩
  | 63 => ⟨S2048x2048, .i32⟩
  | 64 => ⟨S2048x2048, .i32⟩
  | 65 => ⟨S2048x2048, .i1⟩
  | 66 => ⟨S28x2048, .f32⟩
  | 67 => ⟨S2048x2048, .f32⟩
  | 68 => ⟨S_, .f32⟩
  | 69 => ⟨S2048x2048, .f32⟩
  | 70 => ⟨S2048x2048, .i1⟩
  | 71 => ⟨S2048x2048, .i1⟩
  | 72 => ⟨S2048x2048, .i1⟩
  | 73 => ⟨S_, .f32⟩
  | 74 => ⟨S2048x28, .f32⟩
  | 75 => ⟨S2048x28, .i1⟩
  | 76 => ⟨S2048x1x28, .i1⟩
  | 77 => ⟨S1x28x28, .f32⟩
  | 78 => ⟨S_, .f32⟩
  | 79 => ⟨S2048x28x28, .i1⟩
  | 80 => ⟨S2048x28x28, .f32⟩
  | 81 => ⟨S2048x28x28, .f32⟩
  | 82 => ⟨S2048x28x28, .f32⟩
  | 83 => ⟨S_, .f32⟩
  | 84 => ⟨S2048x28, .f32⟩
  | 85 => ⟨S2048x1x28, .i1⟩
  | 86 => ⟨S1x2048x28, .f32⟩
  | 87 => ⟨S_, .f32⟩
  | 88 => ⟨S2048x2048x28, .i1⟩
  | 89 => ⟨S2048x2048x28, .f32⟩
  | 90 => ⟨S2048x2048x28, .f32⟩
  | 91 => ⟨S2048x2048x28, .f32⟩
  | 92 => ⟨S_, .f32⟩
  | 93 => ⟨S2048x2048, .f32⟩
  | 94 => ⟨S_, .f32⟩
  | 95 => ⟨S2048x2048, .f32⟩
  | 96 => ⟨S2048x2048, .f32⟩
  | 97 => ⟨S_, .f32⟩
  | 98 => ⟨S_, .f32⟩
  | 99 => ⟨S2048x2048, .f32⟩
  | 100 => ⟨S2048x2048, .f32⟩
  | 101 => ⟨S_, .f32⟩
  | 102 => ⟨S2048x2048, .f32⟩
  | 103 => ⟨S2048x2048, .f32⟩
  | 104 => ⟨S_, .f32⟩
  | 105 => ⟨S2048, .f32⟩
  | 106 => ⟨S2048x1, .f32⟩
  | 107 => ⟨S2048x2048, .f32⟩
  | 108 => ⟨S2048x2048, .f32⟩
  | 109 => ⟨S2048x2048, .f32⟩
  | 110 => ⟨S_, .f32⟩
  | 111 => ⟨S_, .f32⟩
  | 112 => ⟨S2048x2048, .f32⟩
  | 113 => ⟨S2048x2048, .f32⟩
  | 114 => ⟨S_, .f32⟩
  | 115 => ⟨S2048, .f32⟩
  | 116 => ⟨S2048x2048, .f32⟩
  | 117 => ⟨S_, .f32⟩
  | 118 => ⟨S_, .f32⟩
  | 119 => ⟨S2048x2048, .f32⟩
  | 120 => ⟨S2048x2048, .f32⟩
  | 121 => ⟨S_, .f32⟩
  | 122 => ⟨S2048, .f32⟩
  | 123 => ⟨S_, .i1⟩
  | 124 => ⟨S2048, .i1⟩
  | 125 => ⟨S_, .f32⟩
  | 126 => ⟨S_, .f32⟩
  | 127 => ⟨S2048, .f32⟩
  | _ => ⟨S2048x256, .f32⟩

abbrev hbmTy0_1 (i : Nat) : BufTy := match i % 128 with
  | 0 => ⟨S2048, .f32⟩
  | 1 => ⟨S_, .f32⟩
  | 2 => ⟨S2048, .f32⟩
  | 3 => ⟨S2048, .f32⟩
  | 4 => ⟨S2048, .f32⟩
  | 5 => ⟨S2048, .f32⟩
  | 6 => ⟨S2048, .f32⟩
  | 7 => ⟨S2048, .f32⟩
  | 8 => ⟨S2048, .i32⟩
  | 9 => ⟨S_, .i32⟩
  | 10 => ⟨S_, .i32⟩
  | 11 => ⟨S_, .f32⟩
  | 12 => ⟨S_, .f32⟩
  | 13 => ⟨S_, .f32⟩
  | 14 => ⟨S_, .f32⟩
  | 15 => ⟨S_, .f32⟩
  | 16 => ⟨S2048, .f32⟩
  | 17 => ⟨S2048, .f32⟩
  | 18 => ⟨S_, .f32⟩
  | 19 => ⟨S_, .f32⟩
  | 20 => ⟨S_, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_cst_11 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_13 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_14 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_15 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v52 : Ref sig .tc := ⟨.hbm, 82, rfl⟩
abbrev main_cst_16 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_17 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v56 : Ref sig .tc := ⟨.hbm, 91, rfl⟩
abbrev main_cst_18 : Ref sig .tc := ⟨.hbm, 92, rfl⟩
abbrev main_v57 : Ref sig .tc := ⟨.hbm, 93, rfl⟩
abbrev main_cst_19 : Ref sig .tc := ⟨.hbm, 94, rfl⟩
abbrev main_v58 : Ref sig .tc := ⟨.hbm, 95, rfl⟩
abbrev main_v59 : Ref sig .tc := ⟨.hbm, 96, rfl⟩
abbrev main_cst_20 : Ref sig .tc := ⟨.hbm, 97, rfl⟩
abbrev main_call3_v0 : Ref sig .tc := ⟨.hbm, 98, rfl⟩
abbrev main_call3_v1 : Ref sig .tc := ⟨.hbm, 99, rfl⟩
abbrev main_v60 : Ref sig .tc := ⟨.hbm, 100, rfl⟩
abbrev main_cst_21 : Ref sig .tc := ⟨.hbm, 101, rfl⟩
abbrev main_call4_v0 : Ref sig .tc := ⟨.hbm, 102, rfl⟩
abbrev main_v61 : Ref sig .tc := ⟨.hbm, 103, rfl⟩
abbrev main_cst_22 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_23 : Ref sig .tc := ⟨.hbm, 110, rfl⟩
abbrev main_call5_v0 : Ref sig .tc := ⟨.hbm, 111, rfl⟩
abbrev main_call5_v1 : Ref sig .tc := ⟨.hbm, 112, rfl⟩
abbrev main_v67 : Ref sig .tc := ⟨.hbm, 113, rfl⟩
abbrev main_cst_24 : Ref sig .tc := ⟨.hbm, 114, rfl⟩
abbrev main_v68 : Ref sig .tc := ⟨.hbm, 115, rfl⟩
abbrev main_v69 : Ref sig .tc := ⟨.hbm, 116, rfl⟩
abbrev main_cst_25 : Ref sig .tc := ⟨.hbm, 117, rfl⟩
abbrev main_call6_v0 : Ref sig .tc := ⟨.hbm, 118, rfl⟩
abbrev main_call6_v1 : Ref sig .tc := ⟨.hbm, 119, rfl⟩
abbrev main_v70 : Ref sig .tc := ⟨.hbm, 120, rfl⟩
abbrev main_cst_26 : Ref sig .tc := ⟨.hbm, 121, rfl⟩
abbrev main_v71 : Ref sig .tc := ⟨.hbm, 122, rfl⟩
abbrev main_c_27 : Ref sig .tc := ⟨.hbm, 123, rfl⟩
abbrev main_v72 : Ref sig .tc := ⟨.hbm, 124, rfl⟩
abbrev main_cst_28 : Ref sig .tc := ⟨.hbm, 125, rfl⟩
abbrev main_call7_v0 : Ref sig .tc := ⟨.hbm, 126, rfl⟩
abbrev main_call7_v1 : Ref sig .tc := ⟨.hbm, 127, rfl⟩
abbrev main_v73 : Ref sig .tc := ⟨.hbm, 128, rfl⟩
abbrev main_cst_29 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_c_30 : Ref sig .tc := ⟨.hbm, 137, rfl⟩
abbrev main_v81 : Ref sig .tc := ⟨.hbm, 138, rfl⟩
abbrev main_v82 : Ref sig .tc := ⟨.hbm, 139, rfl⟩
abbrev main_cst_31 : Ref sig .tc := ⟨.hbm, 140, rfl⟩
abbrev main_v83 : Ref sig .tc := ⟨.hbm, 141, rfl⟩
abbrev main_cst_32 : Ref sig .tc := ⟨.hbm, 142, rfl⟩
abbrev main_call8_v0 : Ref sig .tc := ⟨.hbm, 143, rfl⟩
abbrev main_call8_v1 : Ref sig .tc := ⟨.hbm, 144, rfl⟩
abbrev main_v84 : Ref sig .tc := ⟨.hbm, 145, rfl⟩
abbrev main_cst_33 : Ref sig .tc := ⟨.hbm, 146, rfl⟩
abbrev main_v85 : Ref sig .tc := ⟨.hbm, 147, rfl⟩
abbrev main_v86 : Ref sig .tc := ⟨.hbm, 148, rfl⟩

abbrev nD : Nat := 1
abbrev τ : Topo := Topo.v7x

variable {F : FTy → Type} [FloatOps F]

class Facts₀ : Prop where
  bcast_S_S2048x28 : S_.BroadcastsInDim S2048x28 (![] : Fin 0 → Fin S2048x28.rank)
  reducesTo_S2048x28_S2048_d1 : S2048x28.ReducesTo [1] S2048
  h_S_ : 0 < S_.numel
  bcast_S_S2048 : S_.BroadcastsInDim S2048 (![] : Fin 0 → Fin S2048.rank)
  transposes_S2048x256_S256x2048_1_0 : S2048x256.Transposes [1, 0] S256x2048
  bcast_S_S2048x2048 : S_.BroadcastsInDim S2048x2048 (![] : Fin 0 → Fin S2048x2048.rank)
  transposes_S2048x28_S28x2048_1_0 : S2048x28.Transposes [1, 0] S28x2048
  bcast_S2048x28_S2048x1x28_0_2 : S2048x28.BroadcastsInDim S2048x1x28 (![0, 2] : Fin 2 → Fin S2048x1x28.rank)
  bcast_S28x28_S1x28x28_1_2 : S28x28.BroadcastsInDim S1x28x28 (![1, 2] : Fin 2 → Fin S1x28x28.rank)
  bcast_S2048x1x28_S2048x28x28_0_1_2 : S2048x1x28.BroadcastsInDim S2048x28x28 (![0, 1, 2] : Fin 3 → Fin S2048x28x28.rank)
  bcast_S1x28x28_S2048x28x28_0_1_2 : S1x28x28.BroadcastsInDim S2048x28x28 (![0, 1, 2] : Fin 3 → Fin S2048x28x28.rank)
  bcast_S_S2048x28x28 : S_.BroadcastsInDim S2048x28x28 (![] : Fin 0 → Fin S2048x28x28.rank)
  reducesTo_S2048x28x28_S2048x28_d2 : S2048x28x28.ReducesTo [2] S2048x28
  bcast_S2048x28_S1x2048x28_1_2 : S2048x28.BroadcastsInDim S1x2048x28 (![1, 2] : Fin 2 → Fin S1x2048x28.rank)
  bcast_S2048x1x28_S2048x2048x28_0_1_2 : S2048x1x28.BroadcastsInDim S2048x2048x28 (![0, 1, 2] : Fin 3 → Fin S2048x2048x28.rank)
  bcast_S1x2048x28_S2048x2048x28_0_1_2 : S1x2048x28.BroadcastsInDim S2048x2048x28 (![0, 1, 2] : Fin 3 → Fin S2048x2048x28.rank)
  bcast_S_S2048x2048x28 : S_.BroadcastsInDim S2048x2048x28 (![] : Fin 0 → Fin S2048x2048x28.rank)
  reducesTo_S2048x2048x28_S2048x2048_d2 : S2048x2048x28.ReducesTo [2] S2048x2048
  reducesTo_S2048x2048_S2048_d1 : S2048x2048.ReducesTo [1] S2048
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  natLt_1_32 : 1 < 32
  reducesTo_S2048_S_d0 : S2048.ReducesTo [0] S_
  dot_S2048x256_S256x2048_S2048x2048_1_0_0_1_n_n_wf : DotDims.WF S2048x256 S256x2048 S2048x2048 [1] [0] [0] [1] [] []
  dot_S2048x28_S28x2048_S2048x2048_1_0_0_1_n_n_wf : DotDims.WF S2048x28 S28x2048 S2048x2048 [1] [0] [0] [1] [] []

variable [Facts₀]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def dot_S2048x28_S28x2048_S2048x2048_1_0_0_1_n_n : DotDims S2048x28 S28x2048 S2048x2048 where
  lhsContracting := [1]
  rhsContracting := [0]
  lhsNonContracting := [0]
  rhsNonContracting := [1]
  lhsBatch := []
  rhsBatch := []
  wf := dot_S2048x28_S28x2048_S2048x2048_1_0_0_1_n_n_wf

class Facts : Prop extends Facts₀ where

variable [Facts]
-- ==== Proof.ContrastRow.lean ====
/-
  One anchor row of the joint contrastive loss over plain index functions, written twice.

  As the kernel computes it: the similarity row is a row of `A · B` scaled by a PRODUCT with the reciprocal
  temperature; two samples overlap when the count `∑ₐ P i a · Q a j` of shared labels exceeds ONE HALF; the pair
  similarity is a running maximum, FROM ZERO, of the products `P i a · R a j` over the 28 classes, and its weight a
  square root.
  As the reference computes it: the similarity is a QUOTIENT by the temperature; the count is tested against ZERO;
  the pair similarity is the maximum, FROM MINUS INFINITY, of `v j a` over the classes active in row `i`, and its
  weight a power one half.
  Both then do the same with a row: the maximum over the other columns, the exponentials of the shifted row, the sum over
  the positive columns, the weighted sum over the other columns, the logarithm of the quotient, times the entropy weight.
  `lossOf` is that common part; `lossK` / `lossR` instantiate it. The printed float literals stay words
  (`Ideal.ofBits`): only the module of the algebra evaluates one.
-/
import Idealize.ShloMosaic.PureOps.Ideal
import Idealize.ShloMosaic.PureOps.Ideal.Laws

noncomputable section

namespace Cert.ContrastRow

open Idealize.ShloMosaic
open Classical

/-! ## The printed literals -/

abbrev zeroF : EReal := Ideal.ofBits .f32 0x00000000#32
abbrev oneF : EReal := Ideal.ofBits .f32 0x3F800000#32
abbrev halfF : EReal := Ideal.ofBits .f32 0x3F000000#32
abbrev epsF : EReal := Ideal.ofBits .f32 0x322BCC77#32
abbrev negInfF : EReal := Ideal.ofBits .f32 0xFF800000#32
abbrev tempF : EReal := Ideal.ofBits .f32 0x3D8F5C29#32
abbrev zeroH : EReal := Ideal.ofBits .bf16 0x0000#16
/-- The reciprocal of the temperature's printed word, exactly: `0x3D8F5C29` is `9395241 / 2²⁷`. -/
abbrev invTemp : EReal := ((134217728 / 9395241 : ℝ) : EReal)

/-! ## What both programs do with a row -/

section Row

variable (i : Fin 2048) (s : Fin 2048 → EReal) (ov : Fin 2048 → Prop) (w : Fin 2048 → EReal)

/-- The row's maximum over the columns other than the diagonal one, which is replaced by `fill` first. -/
def shift (fill : EReal) : EReal :=
  (Finset.univ : Finset (Fin 2048)).fold max negInfF (fun j => if j = i then fill else s j)

/-- The exponential of the row shifted by that maximum. -/
def expo (fill : EReal) (j : Fin 2048) : EReal := Ideal.exp (s j - shift i s fill)

/-- Column `j` is a positive of anchor `i`: the two samples overlap and `j` is another sample. -/
def pos (j : Fin 2048) : Prop := ov j ∧ j ≠ i

/-- The sum of the exponentials over the positives. -/
def posSum (fill : EReal) : EReal := ∑ j : Fin 2048, if pos i ov j then expo i s fill j else zeroF

/-- The weighted sum of the exponentials over the other samples. -/
def negSum (fill : EReal) : EReal := ∑ j : Fin 2048, if j = i then zeroF else expo i s fill j * w j

/-- The anchor has a positive. -/
def hasPos : Prop := ∃ j, pos i ov j

/-- The row's loss: `flip (log (P / (N + ε))) · e`, `P` the positives' sum where the anchor is valid (`vld`) and one
    otherwise, `N` the weighted sum, `flip` the change of sign as the program spells it. -/
def lossOf (fill : EReal) (vld : Prop) (e : EReal) (flip : EReal → EReal) : EReal :=
  flip (Ideal.log (Ideal.div (if vld then posSum i s ov fill else oneF) (negSum i s w fill + epsF))) * e

end Row

/-! ## The kernel's row -/

section Kernel

variable (A : Fin 2048 → Fin 256 → EReal) (B : Fin 256 → Fin 2048 → EReal) (P : Fin 2048 → Fin 28 → EReal)
  (Q R : Fin 28 → Fin 2048 → EReal)

def simK (i j : Fin 2048) : EReal := (∑ k : Fin 256, A i k * B k j) * invTemp

def ovK (i j : Fin 2048) : Prop := halfF < ∑ a : Fin 28, P i a * Q a j

/-- The running maximum of the 28 products, from the bf16 zero, in the order of the classes. -/
def pairK (i j : Fin 2048) : EReal := (List.finRange 28).foldl (fun acc a => max acc (P i a * R a j)) zeroH

def wK (i j : Fin 2048) : EReal := if ovK P Q i j then oneF else Ideal.sqrt (pairK P R i j)

/-- The kernel's validity bit: the maximum over the row of one-at-a-positive, zero elsewhere, compared with zero. -/
def validBitK (i : Fin 2048) : BitVec 1 :=
  Ideal.cmp .ogt ((Finset.univ : Finset (Fin 2048)).fold max negInfF (fun j => if pos i (ovK P Q i) j then oneF else zeroF)) zeroF

/-- The kernel's loss of row `i` with entropy weight `e`; `fill` is the value its named diagonal fill denotes. -/
def lossK (fill e : EReal) (i : Fin 2048) : EReal :=
  lossOf i (simK A B i) (ovK P Q i) (wK P Q R i) fill (validBitK P Q i = 1#1) e (fun x => zeroF - x)

/-- What the kernel stores as the row's validity: the bit widened and converted to a float. -/
def validK (i : Fin 2048) : EReal := FloatOps.sitofp (F := Ideal) .f32 ((validBitK P Q i).setWidth 32)

end Kernel

/-! ## The reference's row -/

section Reference

variable (E : Fin 2048 → Fin 256 → EReal) (lab : Fin 2048 → Fin 28 → EReal) (va : Fin 28 → Fin 28 → EReal)

def simR (i j : Fin 2048) : EReal := Ideal.div (∑ k : Fin 256, E i k * E j k) tempF

def ovR (i j : Fin 2048) : Prop := zeroF < ∑ a : Fin 28, lab i a * lab j a

/-- Class `a` is active in row `i`. -/
def act (i : Fin 2048) (a : Fin 28) : Prop := zeroF < lab i a

/-- `v j a`: the largest `va a b` over the classes `b` active in row `j`, minus infinity when none is. -/
def vR (j : Fin 2048) (a : Fin 28) : EReal :=
  (Finset.univ : Finset (Fin 28)).fold max negInfF (fun b => if act lab j b then va a b else negInfF)

/-- The largest `v j a` over the classes `a` active in row `i`. -/
def pairR (i j : Fin 2048) : EReal :=
  (Finset.univ : Finset (Fin 28)).fold max negInfF (fun a => if act lab i a then vR lab va j a else negInfF)

def wR (i j : Fin 2048) : EReal := if ovR lab i j then oneF else Ideal.pow (pairR lab va i j) halfF

def lossR (e : EReal) (i : Fin 2048) : EReal :=
  lossOf i (simR E i) (ovR lab i) (wR lab va i) negInfF (hasPos i (ovR lab i)) e (fun x => -x)

end Reference

end Cert.ContrastRow

end
-- ==== Proof.KernelHost.lean ====
/-
  The host operations around the kernel, each stretch composed into one function of its inputs.

  Before the kernel the program computes, from the logits and the labels, each sample's entropy weight (the binary
  entropy of the sigmoid of the logits, weighted by the labels and summed over the classes, averaged over the number
  of the sample's labels, normalized by log 2, subtracted from one and clipped to the unit interval), and, from the
  labels and the class-similarity matrix, the array v: v j a is the largest similarity of class a to a class present
  in sample j, minus infinity when the sample has none. After the kernel it sums the losses of the rows whose stored
  validity exceeds one half and divides by the number of such rows, at least one. Each is written here once, over any
  float structure, as the operations the program applies in the program's order.
-/
import proofs.«427604_j60739427500227_3_alg».proof.Proof.Gen.KernelIdeal

noncomputable section

namespace Cert.KernelIdeal.KVal

open Cert.KernelIdeal Cert.KernelIdeal.Gen Idealize.ShloMosaic

variable {F : FTy → Type} [FloatOps F]

/-- The entropy weights of the 2048 samples, from the logits `x1` and the labels `x2`. -/
def ewHost (x1 x2 : FVec F S2048x28 .f32) : FVec F S2048 .f32 :=
  minimumf (broadcastInDim S2048 ![] bcast_S_S2048 (id (constant S_ .f32 0x3F800000#32)))
    (maximumf (broadcastInDim S2048 ![] bcast_S_S2048 (id (constant S_ .f32 0x00000000#32)))
      (subf (broadcastInDim S2048 ![] bcast_S_S2048 (constant S_ .f32 0x3F800000#32))
        (Host.divf
          (Host.divf
            (Host.reduceAdd
              (mulf
                (Host.negf
                  (addf
                    (mulf
                      (Host.divf (broadcastInDim S2048x28 ![] bcast_S_S2048x28 (constant S_ .f32 0x3F800000#32))
                        (addf (broadcastInDim S2048x28 ![] bcast_S_S2048x28 (constant S_ .f32 0x3F800000#32)) (Host.exp (Host.negf x1))))
                      (Host.log
                        (addf
                          (Host.divf (broadcastInDim S2048x28 ![] bcast_S_S2048x28 (constant S_ .f32 0x3F800000#32))
                            (addf (broadcastInDim S2048x28 ![] bcast_S_S2048x28 (constant S_ .f32 0x3F800000#32)) (Host.exp (Host.negf x1))))
                          (broadcastInDim S2048x28 ![] bcast_S_S2048x28 (constant S_ .f32 0x322BCC77#32)))))
                    (mulf
                      (subf (broadcastInDim S2048x28 ![] bcast_S_S2048x28 (constant S_ .f32 0x3F800000#32))
                        (Host.divf (broadcastInDim S2048x28 ![] bcast_S_S2048x28 (constant S_ .f32 0x3F800000#32))
                          (addf (broadcastInDim S2048x28 ![] bcast_S_S2048x28 (constant S_ .f32 0x3F800000#32)) (Host.exp (Host.negf x1)))))
                      (Host.log
                        (addf
                          (subf (broadcastInDim S2048x28 ![] bcast_S_S2048x28 (constant S_ .f32 0x3F800000#32))
                            (Host.divf (broadcastInDim S2048x28 ![] bcast_S_S2048x28 (constant S_ .f32 0x3F800000#32))
                              (addf (broadcastInDim S2048x28 ![] bcast_S_S2048x28 (constant S_ .f32 0x3F800000#32)) (Host.exp (Host.negf x1)))))
                          (broadcastInDim S2048x28 ![] bcast_S_S2048x28 (constant S_ .f32 0x322BCC77#32)))))))
                x2)
              (constant S_ .f32 0x00000000#32) reducesTo_S2048x28_S2048_d1 h_S_)
            (maximumf (Host.reduceAdd x2 (constant S_ .f32 0x00000000#32) reducesTo_S2048x28_S2048_d1 h_S_)
              (broadcastInDim S2048 ![] bcast_S_S2048 (constant S_ .f32 0x3F800000#32))))
          (broadcastInDim S2048 ![] bcast_S_S2048 (id (Host.log (constant S_ .f32 0x40000000#32)))))))

/-- The array v, from the labels `x2` and the class-similarity matrix `x3`: the masked maximum over the last axis. -/
def vHost (x2 : FVec F S2048x28 .f32) (x3 : FVec F S28x28 .f32) : FVec F S2048x28 .f32 :=
  Host.reduce FloatOps.maximumf
    (select
      (broadcastInDim S2048x28x28 ![0, 1, 2] bcast_S2048x1x28_S2048x28x28_0_1_2
        (broadcastInDim S2048x1x28 ![0, 2] bcast_S2048x28_S2048x1x28_0_2
          (cmpf .ogt x2 (broadcastInDim S2048x28 ![] bcast_S_S2048x28 (constant S_ .f32 0x00000000#32)))))
      (broadcastInDim S2048x28x28 ![0, 1, 2] bcast_S1x28x28_S2048x28x28_0_1_2
        (broadcastInDim S1x28x28 ![1, 2] bcast_S28x28_S1x28x28_1_2 x3))
      (broadcastInDim S2048x28x28 ![] bcast_S_S2048x28x28 (constant S_ .f32 0xFF800000#32)))
    (constant S_ .f32 0xFF800000#32) reducesTo_S2048x28x28_S2048x28_d2 h_S_

/-- The program's result from the kernel's two outputs, the row losses `L` and the stored validities `V`: the sum of
    the losses of the rows whose validity exceeds one half, divided by the number of such rows, at least one. -/
def tailK (L V : FVec F S2048 .f32) : FVec F S_ .f32 :=
  Host.divf
    (Host.reduceAdd
      (select (cmpf .ogt V (broadcastInDim S2048 ![] bcast_S_S2048 (constant S_ .f32 0x3F000000#32))) L
        (broadcastInDim S2048 ![] bcast_S_S2048 (id (constant S_ .f32 0x00000000#32))))
      (constant S_ .f32 0x00000000#32) reducesTo_S2048_S_d0 h_S_)
    (maximumf
      (sitofp .f32
        (Host.reduce IntOp.addi
          (extui 32 (cmpf .ogt V (broadcastInDim S2048 ![] bcast_S_S2048 (constant S_ .f32 0x3F000000#32))) natLt_1_32)
          (constantI S_ 32 0#32) reducesTo_S2048_S_d0 h_S_))
      (constant S_ .f32 0x3F800000#32))

end Cert.KernelIdeal.KVal

end
-- ==== Proof.KernelEntries.lean ====
/-
  The entries of one row tile of the joint contrastive loss: each pure value of the tile's body read at one position
  (y, j), y the row inside the tile and j the column among the 2048 samples.

  The similarity is the row-by-column product of the embeddings scaled by the reciprocal temperature; the overlap bit
  compares the count of shared labels with one half; the diagonal bit says that column j is the tile's row y itself;
  the positive bit is overlap and not diagonal; the pair similarity is a running maximum, class by class, of the
  products of a label with a class similarity, read as a left fold over the classes taken so far.
-/
import proofs.«427604_j60739427500227_3_alg».proof.Proof.Gen.KernelIdeal.Frame
import proofs.«427604_j60739427500227_3_alg».proof.Proof.ContrastRow
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Entries

open Cert.KernelIdeal Cert.KernelIdeal.Gen Idealize.ShloMosaic Idealize.ShloMosaic.ValueIdx

/-! ## The similarity -/

/-- The named reciprocal temperature denotes the rational the row functions scale by. -/
theorem inv_temp_val :
    Named.named (F := Ideal) κ "inv_temp" (φ := .f32) 0x41649249#32 = Cert.ContrastRow.invTemp :=
  IdealRules.named_const.ideal_named_scalar _ _ _ _ rfl

theorem sim_lhs_0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem sim_lhs_1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
theorem sim_rhs_0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
theorem sim_rhs_1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- The embeddings' product at (y, j): the sum over the 256 features. -/
theorem sim_matmul (l : FVec Ideal S512x256 .f32) (r : FVec Ideal S256x2048 .f32) (y : Fin 512) (j : Fin 2048) :
    FloatOps.matmul dot_S512x256_S256x2048_S512x2048_1_0_0_1_n_n (some .fp32) l r (constant S512x2048 .f32 0x00000000#32) (ix2 y j)
      = ∑ k : Fin 256, l (ix2 y k) * r (ix2 k j) := by
  rw [Ideal.matmul_constant_zero_apply, ← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 y j) ((contrEquiv1 dot_S512x256_S256x2048_S512x2048_1_0_0_1_n_n 256 rfl rfl).symm k) = ix2 y k := funext fun a => Fin.ext (by
    match a with
    | ⟨0, _⟩ => exact sim_lhs_0 _ _
    | ⟨1, _⟩ => exact (sim_lhs_1 _ _).trans hk)
  have er : dot_S512x256_S256x2048_S512x2048_1_0_0_1_n_n.rhsIdx (ix2 y j) ((contrEquiv1 dot_S512x256_S256x2048_S512x2048_1_0_0_1_n_n 256 rfl rfl).symm k) = ix2 k j := funext fun a => Fin.ext (by
    match a with
    | ⟨0, _⟩ => exact (sim_rhs_0 _ _).trans hk
    | ⟨1, _⟩ => exact sim_rhs_1 _ _)
  rw [el, er]

/-- (E1) The scaled similarity of tile row y and sample j. -/
theorem sim_entry (v3 : Vec Ideal S512x256 .f32) (v9 : Vec Ideal S256x2048 .f32) (y : Fin 512) (j : Fin 2048) :
    k0_pay6 (F := Ideal) v3 v9 (ix2 y j)
      = (∑ k : Fin 256, v3 (ix2 y k) * v9 (ix2 k j)) * Cert.ContrastRow.invTemp := by
  unfold k0_pay6
  simp only [matmul, shapeCast_self]
  rw [mulf_apply, broadcast_apply, inv_temp_val]
  exact congrArg (· * Cert.ContrastRow.invTemp) (sim_matmul v3 v9 y j)

/-! ## The overlap bit -/

theorem ov_lhs_0 (i : S512x2048.Idx) (q : dot_S512x28_S28x2048_S512x2048_1_0_0_1_n_n.contr.Idx) :
    (dot_S512x28_S28x2048_S512x2048_1_0_0_1_n_n.lhsIdx i q 0).val = (i 0).val := by
  unfold DotDims.lhsIdx
  rw [dif_neg (show ¬(0 : Fin S512x28.rank) ∈ dot_S512x28_S28x2048_S512x2048_1_0_0_1_n_n.lhsBatch by decide), dif_pos (show (0 : Fin S512x28.rank) ∈ dot_S512x28_S28x2048_S512x2048_1_0_0_1_n_n.lhsNonContracting by decide)]
  rfl
theorem ov_lhs_1 (i : S512x2048.Idx) (q : dot_S512x28_S28x2048_S512x2048_1_0_0_1_n_n.contr.Idx) :
    (dot_S512x28_S28x2048_S512x2048_1_0_0_1_n_n.lhsIdx i q 1).val = (q ⟨0, by decide⟩).val :=
  dot_S512x28_S28x2048_S512x2048_1_0_0_1_n_n.lhsIdx_val_of_single rfl i q
theorem ov_rhs_0 (i : S512x2048.Idx) (q : dot_S512x28_S28x2048_S512x2048_1_0_0_1_n_n.contr.Idx) :
    (dot_S512x28_S28x2048_S512x2048_1_0_0_1_n_n.rhsIdx i q 0).val = (q ⟨0, by decide⟩).val :=
  dot_S512x28_S28x2048_S512x2048_1_0_0_1_n_n.rhsIdx_val_of_single rfl i q
theorem ov_rhs_1 (i : S512x2048.Idx) (q : dot_S512x28_S28x2048_S512x2048_1_0_0_1_n_n.contr.Idx) :
    (dot_S512x28_S28x2048_S512x2048_1_0_0_1_n_n.rhsIdx i q 1).val = (i 1).val := by
  unfold DotDims.rhsIdx
  rw [dif_neg (show ¬(1 : Fin S28x2048.rank) ∈ dot_S512x28_S28x2048_S512x2048_1_0_0_1_n_n.rhsBatch by decide), dif_pos (show (1 : Fin S28x2048.rank) ∈ dot_S512x28_S28x2048_S512x2048_1_0_0_1_n_n.rhsNonContracting by decide)]
  rfl

/-- The labels' product at (y, j): the count of the classes the two samples share, a sum over the 28 classes. -/
theorem ov_matmul (l : FVec Ideal S512x28 .bf16) (r : FVec Ideal S28x2048 .bf16) (y : Fin 512) (j : Fin 2048) :
    FloatOps.matmul dot_S512x28_S28x2048_S512x2048_1_0_0_1_n_n none l r (constant S512x2048 .f32 0x00000000#32) (ix2 y j)
      = ∑ a : Fin 28, l (ix2 y a) * r (ix2 a j) := by
  rw [Ideal.matmul_constant_zero_apply, ← Equiv.sum_comp (contrEquiv1 dot_S512x28_S28x2048_S512x2048_1_0_0_1_n_n 28 rfl rfl).symm]
  refine Finset.sum_congr rfl fun k _ => ?_
  have hk := contrEquiv1_symm_val dot_S512x28_S28x2048_S512x2048_1_0_0_1_n_n 28 rfl rfl k
  have el : dot_S512x28_S28x2048_S512x2048_1_0_0_1_n_n.lhsIdx (ix2 y j) ((contrEquiv1 dot_S512x28_S28x2048_S512x2048_1_0_0_1_n_n 28 rfl rfl).symm k) = ix2 y k := funext fun a => Fin.ext (by
    match a with
    | ⟨0, _⟩ => exact ov_lhs_0 _ _
    | ⟨1, _⟩ => exact (ov_lhs_1 _ _).trans hk)
  have er : dot_S512x28_S28x2048_S512x2048_1_0_0_1_n_n.rhsIdx (ix2 y j) ((contrEquiv1 dot_S512x28_S28x2048_S512x2048_1_0_0_1_n_n 28 rfl rfl).symm k) = ix2 k j := funext fun a => Fin.ext (by
    match a with
    | ⟨0, _⟩ => exact (ov_rhs_0 _ _).trans hk
    | ⟨1, _⟩ => exact ov_rhs_1 _ _)
  rw [el, er]

/-- The tile's labels pass through a cast to their own shape. -/
theorem pay4_eq (v5 : Vec Ideal S512x28 .bf16) : k0_pay4 (F := Ideal) v5 = v5 := by
  unfold k0_pay4; exact shapeCast_self _ _

/-- The class similarities pass through a cast to their own shape. -/
theorem pay10_eq (v26 : Vec Ideal S28x2048 .bf16) : k0_pay10 (F := Ideal) v26 = v26 := by
  unfold k0_pay10; exact shapeCast_self _ _

/-- (E2) The overlap bit of tile row y and sample j: the shared-label count against one half. -/
theorem ov_entry (v5 : Vec Ideal S512x28 .bf16) (v14 : Vec Ideal S28x2048 .bf16) (y : Fin 512) (j : Fin 2048) :
    k0_pay7 (F := Ideal) v5 v14 (ix2 y j)
      = Ideal.cmp .ogt (∑ a : Fin 28, v5 (ix2 y a) * v14 (ix2 a j)) Cert.ContrastRow.halfF := by
  unfold k0_pay7
  simp only [matmul, shapeCast_self, pay4_eq]
  rw [cmpf_apply, broadcast_apply, ov_matmul]
  rfl

/-! ## The diagonal bit and the positive bit -/

/-- (E3) The diagonal bit at (y, j) of the tile at grid point i: column j is sample 512·i + y. -/
theorem eye_entry (i : grid0.Coords) (y : Fin 512) (j : Fin 2048) :
    k0_pay8 i (ix2 y j) = 1#1 ↔ 512 * (i 0).val + y.val = j.val := by
  have hi : (i 0).val < 4 := (i 0).isLt
  have hy := y.isLt
  have hj := j.isLt
  unfold k0_pay8
  simp only [cmpi, addi, broadcast_apply]
  rw [StableHlo.Predicate.cmpi_eq_iff, iota_single_apply .tc S512x2048 32 0 iota_S512x2048_d0_w32 (ix2 y j),
    iota_single_apply .tc S512x2048 32 1 iota_S512x2048_d1_w32 (ix2 y j)]
  show IntOp.addi (Scalar.muli (BitVec.ofNat 32 (i 0).val) 512#32) (BitVec.ofNat 32 y.val) = BitVec.ofNat 32 j.val ↔ _
  unfold IntOp.addi Scalar.muli IntOp.muli
  rw [← BitVec.toNat_inj]
  simp only [BitVec.toNat_add, BitVec.toNat_mul, BitVec.toNat_ofNat]
  omega

/-- (E4) The positive bit: the samples overlap and j is not the row's own sample. -/
theorem pos_entry (i : grid0.Coords) (v5 : Vec Ideal S512x28 .bf16) (v14 : Vec Ideal S28x2048 .bf16) (y : Fin 512) (j : Fin 2048) :
    k0_pay9 (F := Ideal) i v5 v14 (ix2 y j) = 1#1
      ↔ (k0_pay7 (F := Ideal) v5 v14 (ix2 y j) = 1#1 ∧ ¬ k0_pay8 i (ix2 y j) = 1#1) := by
  unfold k0_pay9
  show IntOp.andi (k0_pay7 (F := Ideal) v5 v14 (ix2 y j)) (IntOp.xori (k0_pay8 i (ix2 y j)) 1#1) = 1#1 ↔ _
  generalize k0_pay7 (F := Ideal) v5 v14 (ix2 y j) = a
  generalize k0_pay8 i (ix2 y j) = b
  revert a b
  decide

/-- The overlap bit is set exactly when the shared-label count exceeds one half. -/
theorem ov_entry_iff (v5 : Vec Ideal S512x28 .bf16) (v14 : Vec Ideal S28x2048 .bf16) (y : Fin 512) (j : Fin 2048) :
    k0_pay7 (F := Ideal) v5 v14 (ix2 y j) = 1#1
      ↔ Cert.ContrastRow.halfF < ∑ a : Fin 28, v5 (ix2 y a) * v14 (ix2 a j) := by
  rw [ov_entry]
  unfold Ideal.cmp
  exact (StableHlo.Predicate.ofBool_eq_one_iff _).trans decide_eq_true_iff

/-- The diagonal bit, with the column on the left. -/
theorem eye_entry' (i : grid0.Coords) (y : Fin 512) (j : Fin 2048) :
    k0_pay8 i (ix2 y j) = 1#1 ↔ j.val = 512 * (i 0).val + y.val :=
  (eye_entry i y j).trans eq_comm

/-- The positive bit in the row functions' terms: the count exceeds one half and j is another sample. -/
theorem pos_entry_iff (i : grid0.Coords) (v5 : Vec Ideal S512x28 .bf16) (v14 : Vec Ideal S28x2048 .bf16) (y : Fin 512) (j : Fin 2048) :
    k0_pay9 (F := Ideal) i v5 v14 (ix2 y j) = 1#1
      ↔ (Cert.ContrastRow.halfF < ∑ a : Fin 28, v5 (ix2 y a) * v14 (ix2 a j)) ∧ j.val ≠ 512 * (i 0).val + y.val := by
  rw [pos_entry, ov_entry_iff, eye_entry']

/-! ## The pair similarity: one class's step -/

section Step
variable {α : Type}

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Step

/-- Class `a`'s column of the tile's labels, cut out as a `[512, 1]` slice, at row y. -/
theorem label_slice (v6 : FVec Ideal S512x28 .bf16) (o : ℕ) (a : Fin 28) (ha : a.val = o)
    (hs : S512x28.Slices ![0, o] S512x1) (y : Fin 512) :
    extractStridedSlice S512x1 ![0, o] v6 hs (ix2 y (0 : Fin 1)) = v6 (ix2 y a) :=
  slice2_axis1_apply o v6 hs y (0 : Fin 1) a (by rw [ha]; rfl)

/-- Class `a`'s row of the class similarities, cut out as a `[1, 2048]` slice, at column j. -/
theorem value_slice (v27 : FVec Ideal S28x2048 .bf16) (o : ℕ) (a : Fin 28) (ha : a.val = o)
    (hs : S28x2048.Slices ![o, 0] S1x2048) (j : Fin 2048) :
    extractStridedSlice S1x2048 ![o, 0] v27 hs (ix2 (0 : Fin 1) j) = v27 (ix2 a j) :=
  slice2_axis0_apply o v27 hs (0 : Fin 1) j a (by rw [ha]; rfl)

/-- ONE STEP of the running maximum from a column e1 and a row e2 (the row passes through a flattening and back):
    at (y, j) it is the larger of the previous value and the product of the column at y with the row at j. -/
theorem step_col_row (prev : FVec Ideal S512x2048 .bf16) (e1 : FVec Ideal S512x1 .bf16) (e2 : FVec Ideal S1x2048 .bf16)
    (hc1 : S1x2048.ShapeCasts S2048) (hc2 : S2048.ShapeCasts S1x2048)
    (hb1 : S512x1.Broadcasts S512x2048) (hb2 : S1x2048.Broadcasts S512x2048) (y : Fin 512) (j : Fin 2048) :
    maximumf prev (mulf (broadcastTo S512x2048 e1 hb1)
        (broadcastTo S512x2048 (shapeCast S1x2048 (shapeCast S2048 e2 hc1) hc2) hb2)) (ix2 y j)
      = max (prev (ix2 y j)) (e1 (ix2 y (0 : Fin 1)) * e2 (ix2 (0 : Fin 1) j)) := by
  rw [maximumf_apply, mulf_apply, shapeCast_shapeCast, broadcastTo_a1_ab_apply, broadcastTo_1b_ab_apply]

/-- ONE STEP of the running maximum for class `a`, as the body spells it (two slices, the casts, two broadcasts,
    a product, a maximum), whatever the proofs of the shape facts. -/
theorem pair_step (v6 : FVec Ideal S512x28 .bf16) (v27 : FVec Ideal S28x2048 .bf16) (prev : FVec Ideal S512x2048 .bf16)
    (o : ℕ) (a : Fin 28) (ha : a.val = o)
    (hs1 : S512x28.Slices ![0, o] S512x1) (hs2 : S28x2048.Slices ![o, 0] S1x2048)
    (hc1 : S1x2048.ShapeCasts S2048) (hc2 : S2048.ShapeCasts S1x2048)
    (hb1 : S512x1.Broadcasts S512x2048) (hb2 : S1x2048.Broadcasts S512x2048) (y : Fin 512) (j : Fin 2048) :
    maximumf prev (mulf (broadcastTo S512x2048 (extractStridedSlice S512x1 ![0, o] v6 hs1) hb1)
        (broadcastTo S512x2048 (shapeCast S1x2048 (shapeCast S2048 (extractStridedSlice S1x2048 ![o, 0] v27 hs2) hc1) hc2) hb2)) (ix2 y j)
      = max (prev (ix2 y j)) (v6 (ix2 y a) * v27 (ix2 a j)) := by
  rw [step_col_row, label_slice v6 o a ha, value_slice v27 o a ha]

/-! ## The pair similarity: the running maximum after n classes -/

/-- The running maximum at (y, j) after the first n classes, from the bf16 zero: a left fold over the classes in order. -/
def chain (v6 : FVec Ideal S512x28 .bf16) (v27 : FVec Ideal S28x2048 .bf16) (y : Fin 512) (j : Fin 2048) (n : ℕ) : EReal :=
  ((List.finRange 28).take n).foldl (fun acc a => max acc (v6 (ix2 y a) * v27 (ix2 a j))) Cert.ContrastRow.zeroH

theorem chain_zero (v6 : FVec Ideal S512x28 .bf16) (v27 : FVec Ideal S28x2048 .bf16) (y : Fin 512) (j : Fin 2048) :
    chain v6 v27 y j 0 = Cert.ContrastRow.zeroH := rfl

/-- One more class: the larger of the running maximum and that class's product. -/
theorem chain_succ (v6 : FVec Ideal S512x28 .bf16) (v27 : FVec Ideal S28x2048 .bf16) (y : Fin 512) (j : Fin 2048)
    (n : ℕ) (h : n < 28) :
    chain v6 v27 y j (n + 1) = max (chain v6 v27 y j n) (v6 (ix2 y ⟨n, h⟩) * v27 (ix2 ⟨n, h⟩ j)) := by
  unfold chain
  rw [List.take_succ_eq_append_getElem (by rw [List.length_finRange]; exact h), List.foldl_append, List.getElem_finRange]
  rfl

/-- After all 28 classes the running maximum is the fold over every class. -/
theorem chain_full (v6 : FVec Ideal S512x28 .bf16) (v27 : FVec Ideal S28x2048 .bf16) (y : Fin 512) (j : Fin 2048) :
    chain v6 v27 y j 28
      = (List.finRange 28).foldl (fun acc a => max acc (v6 (ix2 y a) * v27 (ix2 a j))) Cert.ContrastRow.zeroH := by
  unfold chain
  rw [List.take_of_length_le (by rw [List.length_finRange])]

/-- `chain_succ` with the count named, so that a literal count rewrites. -/
theorem chain_step (v6 : FVec Ideal S512x28 .bf16) (v27 : FVec Ideal S28x2048 .bf16) (y : Fin 512) (j : Fin 2048)
    (n m : ℕ) (h : n < 28) (hm : m = n + 1) :
    chain v6 v27 y j m = max (chain v6 v27 y j n) (v6 (ix2 y ⟨n, h⟩) * v27 (ix2 ⟨n, h⟩ j)) := by
  subst hm; exact chain_succ v6 v27 y j n h

/-! ## The pair similarity: the body's named values -/

/-- The first step, from the zero splat: the running maximum after class 0. -/
theorem pay11_entry (v5 : Vec Ideal S512x28 .bf16) (v26 : Vec Ideal S28x2048 .bf16) (y : Fin 512) (j : Fin 2048) :
    k0_pay11 (F := Ideal) v5 v26 (ix2 y j) = chain v5 v26 y j 1 := by
  rw [chain_step v5 v26 y j 0 1 (by decide) rfl, chain_zero]
  unfold k0_pay11
  rw [pay4_eq, pay10_eq]
  exact pair_step v5 v26 _ 0 ⟨0, by decide⟩ rfl _ _ _ _ _ _ y j

/-- Class 1's label column, already broadcast over the columns. -/
theorem pay12_entry (v5 : Vec Ideal S512x28 .bf16) (y : Fin 512) (j : Fin 2048) :
    k0_pay12 (F := Ideal) v5 (ix2 y j) = v5 (ix2 y ⟨1, by decide⟩) := by
  unfold k0_pay12
  rw [pay4_eq]
  refine (broadcastTo_a1_ab_apply _ _ y j).trans ?_
  exact label_slice v5 1 ⟨1, by decide⟩ rfl _ y

/-- Class 1's similarity row, already broadcast over the rows. -/
theorem pay13_entry (v26 : Vec Ideal S28x2048 .bf16) (y : Fin 512) (j : Fin 2048) :
    k0_pay13 (F := Ideal) v26 (ix2 y j) = v26 (ix2 ⟨1, by decide⟩ j) := by
  unfold k0_pay13
  rw [pay10_eq]
  refine (broadcastTo_1b_ab_apply _ _ y j).trans ?_
  rw [shapeCast_shapeCast]
  exact value_slice v26 1 ⟨1, by decide⟩ rfl _ j

/-- Classes 1 to 8 on top of the first step: the running maximum after 9 classes. -/
theorem pay14_entry (v6 : FVec Ideal S512x28 .bf16) (v27 : FVec Ideal S28x2048 .bf16) (v36 v41 v42 : FVec Ideal S512x2048 .bf16)
    (y : Fin 512) (j : Fin 2048) (h36 : v36 (ix2 y j) = chain v6 v27 y j 1)
    (h41 : v41 (ix2 y j) = v6 (ix2 y ⟨1, by decide⟩)) (h42 : v42 (ix2 y j) = v27 (ix2 ⟨1, by decide⟩ j)) :
    k0_pay14 (F := Ideal) v6 v27 v36 v41 v42 (ix2 y j) = chain v6 v27 y j 9 := by
  unfold k0_pay14
  rw [pair_step v6 v27 _ 8 ⟨8, by decide⟩ rfl,
    pair_step v6 v27 _ 7 ⟨7, by decide⟩ rfl,
    pair_step v6 v27 _ 6 ⟨6, by decide⟩ rfl,
    pair_step v6 v27 _ 5 ⟨5, by decide⟩ rfl,
    pair_step v6 v27 _ 4 ⟨4, by decide⟩ rfl,
    pair_step v6 v27 _ 3 ⟨3, by decide⟩ rfl,
    pair_step v6 v27 _ 2 ⟨2, by decide⟩ rfl,
    maximumf_apply, mulf_apply, h36, h41, h42]
  rw [chain_step v6 v27 y j 8 9 (by decide) rfl,
    chain_step v6 v27 y j 7 8 (by decide) rfl,
    chain_step v6 v27 y j 6 7 (by decide) rfl,
    chain_step v6 v27 y j 5 6 (by decide) rfl,
    chain_step v6 v27 y j 4 5 (by decide) rfl,
    chain_step v6 v27 y j 3 4 (by decide) rfl,
    chain_step v6 v27 y j 2 3 (by decide) rfl,
    chain_step v6 v27 y j 1 2 (by decide) rfl]

/-- Class 9's label column, as a `[512, 1]` slice. -/
theorem pay15_entry (v6 : FVec Ideal S512x28 .bf16) (y : Fin 512) :
    k0_pay15 (F := Ideal) v6 (ix2 y (0 : Fin 1)) = v6 (ix2 y ⟨9, by decide⟩) := by
  unfold k0_pay15
  exact label_slice v6 9 ⟨9, by decide⟩ rfl _ y

/-- Class 9's similarity row, as a `[1, 2048]` slice. -/
theorem pay16_entry (v27 : FVec Ideal S28x2048 .bf16) (j : Fin 2048) :
    k0_pay16 (F := Ideal) v27 (ix2 (0 : Fin 1) j) = v27 (ix2 ⟨9, by decide⟩ j) := by
  unfold k0_pay16
  exact value_slice v27 9 ⟨9, by decide⟩ rfl _ j

/-- Classes 9 to 15 on top of the first nine: the running maximum after 16 classes. -/
theorem pay17_entry (v6 : FVec Ideal S512x28 .bf16) (v27 : FVec Ideal S28x2048 .bf16) (v100 : FVec Ideal S512x2048 .bf16)
    (v101 : FVec Ideal S512x1 .bf16) (v102 : FVec Ideal S1x2048 .bf16)
    (y : Fin 512) (j : Fin 2048) (h100 : v100 (ix2 y j) = chain v6 v27 y j 9)
    (h101 : v101 (ix2 y (0 : Fin 1)) = v6 (ix2 y ⟨9, by decide⟩)) (h102 : v102 (ix2 (0 : Fin 1) j) = v27 (ix2 ⟨9, by decide⟩ j)) :
    k0_pay17 (F := Ideal) v6 v27 v100 v101 v102 (ix2 y j) = chain v6 v27 y j 16 := by
  unfold k0_pay17
  rw [pair_step v6 v27 _ 15 ⟨15, by decide⟩ rfl,
    pair_step v6 v27 _ 14 ⟨14, by decide⟩ rfl,
    pair_step v6 v27 _ 13 ⟨13, by decide⟩ rfl,
    pair_step v6 v27 _ 12 ⟨12, by decide⟩ rfl,
    pair_step v6 v27 _ 11 ⟨11, by decide⟩ rfl,
    pair_step v6 v27 _ 10 ⟨10, by decide⟩ rfl,
    step_col_row, h100, h101, h102]
  rw [chain_step v6 v27 y j 15 16 (by decide) rfl,
    chain_step v6 v27 y j 14 15 (by decide) rfl,
    chain_step v6 v27 y j 13 14 (by decide) rfl,
    chain_step v6 v27 y j 12 13 (by decide) rfl,
    chain_step v6 v27 y j 11 12 (by decide) rfl,
    chain_step v6 v27 y j 10 11 (by decide) rfl,
    chain_step v6 v27 y j 9 10 (by decide) rfl]

/-- Class 16's label column, already broadcast over the columns. -/
theorem pay18_entry (v6 : FVec Ideal S512x28 .bf16) (y : Fin 512) (j : Fin 2048) :
    k0_pay18 (F := Ideal) v6 (ix2 y j) = v6 (ix2 y ⟨16, by decide⟩) := by
  unfold k0_pay18
  refine (broadcastTo_a1_ab_apply _ _ y j).trans ?_
  exact label_slice v6 16 ⟨16, by decide⟩ rfl _ y

/-- Class 16's similarity row, already broadcast over the rows. -/
theorem pay19_entry (v27 : FVec Ideal S28x2048 .bf16) (y : Fin 512) (j : Fin 2048) :
    k0_pay19 (F := Ideal) v27 (ix2 y j) = v27 (ix2 ⟨16, by decide⟩ j) := by
  unfold k0_pay19
  refine (broadcastTo_1b_ab_apply _ _ y j).trans ?_
  rw [shapeCast_shapeCast]
  exact value_slice v27 16 ⟨16, by decide⟩ rfl _ j

/-- Classes 16 to 23 on top of the first sixteen: the running maximum after 24 classes. -/
theorem pay20_entry (v6 : FVec Ideal S512x28 .bf16) (v27 : FVec Ideal S28x2048 .bf16) (v156 v161 v162 : FVec Ideal S512x2048 .bf16)
    (y : Fin 512) (j : Fin 2048) (h156 : v156 (ix2 y j) = chain v6 v27 y j 16)
    (h161 : v161 (ix2 y j) = v6 (ix2 y ⟨16, by decide⟩)) (h162 : v162 (ix2 y j) = v27 (ix2 ⟨16, by decide⟩ j)) :
    k0_pay20 (F := Ideal) v6 v27 v156 v161 v162 (ix2 y j) = chain v6 v27 y j 24 := by
  unfold k0_pay20
  rw [pair_step v6 v27 _ 23 ⟨23, by decide⟩ rfl,
    pair_step v6 v27 _ 22 ⟨22, by decide⟩ rfl,
    pair_step v6 v27 _ 21 ⟨21, by decide⟩ rfl,
    pair_step v6 v27 _ 20 ⟨20, by decide⟩ rfl,
    pair_step v6 v27 _ 19 ⟨19, by decide⟩ rfl,
    pair_step v6 v27 _ 18 ⟨18, by decide⟩ rfl,
    pair_step v6 v27 _ 17 ⟨17, by decide⟩ rfl,
    maximumf_apply, mulf_apply, h156, h161, h162]
  rw [chain_step v6 v27 y j 23 24 (by decide) rfl,
    chain_step v6 v27 y j 22 23 (by decide) rfl,
    chain_step v6 v27 y j 21 22 (by decide) rfl,
    chain_step v6 v27 y j 20 21 (by decide) rfl,
    chain_step v6 v27 y j 19 20 (by decide) rfl,
    chain_step v6 v27 y j 18 19 (by decide) rfl,
    chain_step v6 v27 y j 17 18 (by decide) rfl,
    chain_step v6 v27 y j 16 17 (by decide) rfl]

/-- Class 24's label column, as a `[512, 1]` slice. -/
theorem pay21_entry (v6 : FVec Ideal S512x28 .bf16) (y : Fin 512) :
    k0_pay21 (F := Ideal) v6 (ix2 y (0 : Fin 1)) = v6 (ix2 y ⟨24, by decide⟩) := by
  unfold k0_pay21
  exact label_slice v6 24 ⟨24, by decide⟩ rfl _ y

/-- Class 24's similarity row, as a `[1, 2048]` slice. -/
theorem pay22_entry (v27 : FVec Ideal S28x2048 .bf16) (j : Fin 2048) :
    k0_pay22 (F := Ideal) v27 (ix2 (0 : Fin 1) j) = v27 (ix2 ⟨24, by decide⟩ j) := by
  unfold k0_pay22
  exact value_slice v27 24 ⟨24, by decide⟩ rfl _ j

/-- The running maximum after 24 classes, composed as the body hands its values from part to part. -/
theorem chain24_entry (v5 : Vec Ideal S512x28 .bf16) (v26 : Vec Ideal S28x2048 .bf16) (y : Fin 512) (j : Fin 2048) :
    k0_pay20 (F := Ideal) (k0_pay4 v5) (k0_pay10 v26)
        (k0_pay17 (k0_pay4 v5) (k0_pay10 v26)
          (k0_pay14 (k0_pay4 v5) (k0_pay10 v26) (k0_pay11 v5 v26) (k0_pay12 v5) (k0_pay13 v26))
          (k0_pay15 (k0_pay4 v5)) (k0_pay16 (k0_pay10 v26)))
        (k0_pay18 (k0_pay4 v5)) (k0_pay19 (k0_pay10 v26)) (ix2 y j)
      = chain v5 v26 y j 24 := by
  rw [pay4_eq, pay10_eq]
  exact pay20_entry v5 v26 _ _ _ y j
    (pay17_entry v5 v26 _ _ _ y j
      (pay14_entry v5 v26 _ _ _ y j (pay11_entry v5 v26 y j) (pay12_entry v5 y j) (pay13_entry v26 y j))
      (pay15_entry v5 y) (pay16_entry v26 j))
    (pay18_entry v5 y j) (pay19_entry v26 y j)

end Cert.KernelIdeal.Entries

end
-- ==== Proof.KernelEntries2.lean ====
/-
  The last four steps of the pair similarity of one row tile: classes 24 to 27 on top of the running maximum after the
  first 24 classes, read at one position (y, j). The result is the left fold of the maximum over all 28 classes from the
  bf16 zero, the form the kernel's row function uses.
-/
import proofs.«427604_j60739427500227_3_alg».proof.Proof.KernelEntries

noncomputable section

namespace Cert.KernelIdeal.Entries

open Cert.KernelIdeal Cert.KernelIdeal.Gen Idealize.ShloMosaic Idealize.ShloMosaic.ValueIdx

/-- The last four steps (classes 24 to 27) on top of the first 24, as the body spells them: the running maximum after
    all 28 classes, which is the fold over every class. -/
theorem tail_entry (v6 : FVec Ideal S512x28 .bf16) (v27 : FVec Ideal S28x2048 .bf16) (v220 : FVec Ideal S512x2048 .bf16)
    (v221 : FVec Ideal S512x1 .bf16) (v222 : FVec Ideal S1x2048 .bf16)
    (y : Fin 512) (j : Fin 2048) (h220 : v220 (ix2 y j) = chain v6 v27 y j 24)
    (h221 : v221 (ix2 y (0 : Fin 1)) = v6 (ix2 y ⟨24, by decide⟩)) (h222 : v222 (ix2 (0 : Fin 1) j) = v27 (ix2 ⟨24, by decide⟩ j)) :
    (maximumf (maximumf (maximumf (maximumf v220
      (mulf (broadcastTo S512x2048 v221 broadcasts_S512x1_S512x2048)
        (broadcastTo S512x2048 (shapeCast S1x2048 (shapeCast S2048 v222 shapeCasts_S1x2048_S2048) shapeCasts_S2048_S1x2048) broadcasts_S1x2048_S512x2048)))
      (mulf (broadcastTo S512x2048 (extractStridedSlice S512x1 ![0, 25] v6 slices_S512x28_o0_25_S512x1) broadcasts_S512x1_S512x2048)
        (broadcastTo S512x2048 (shapeCast S1x2048 (shapeCast S2048 (extractStridedSlice S1x2048 ![25, 0] v27 slices_S28x2048_o25_0_S1x2048) shapeCasts_S1x2048_S2048) shapeCasts_S2048_S1x2048) broadcasts_S1x2048_S512x2048)))
      (mulf (broadcastTo S512x2048 (extractStridedSlice S512x1 ![0, 26] v6 slices_S512x28_o0_26_S512x1) broadcasts_S512x1_S512x2048)
        (broadcastTo S512x2048 (shapeCast S1x2048 (shapeCast S2048 (extractStridedSlice S1x2048 ![26, 0] v27 slices_S28x2048_o26_0_S1x2048) shapeCasts_S1x2048_S2048) shapeCasts_S2048_S1x2048) broadcasts_S1x2048_S512x2048)))
      (mulf (broadcastTo S512x2048 (extractStridedSlice S512x1 ![0, 27] v6 slices_S512x28_o0_27_S512x1) broadcasts_S512x1_S512x2048)
        (broadcastTo S512x2048 (shapeCast S1x2048 (shapeCast S2048 (extractStridedSlice S1x2048 ![27, 0] v27 slices_S28x2048_o27_0_S1x2048) shapeCasts_S1x2048_S2048) shapeCasts_S2048_S1x2048) broadcasts_S1x2048_S512x2048))) (ix2 y j)
      = (List.finRange 28).foldl (fun acc a => max acc (v6 (ix2 y a) * v27 (ix2 a j))) Cert.ContrastRow.zeroH := by
  rw [pair_step v6 v27 _ 27 ⟨27, by decide⟩ rfl,
    pair_step v6 v27 _ 26 ⟨26, by decide⟩ rfl,
    pair_step v6 v27 _ 25 ⟨25, by decide⟩ rfl,
    step_col_row, h220, h221, h222, ← chain_full]
  rw [chain_step v6 v27 y j 27 28 (by decide) rfl,
    chain_step v6 v27 y j 26 27 (by decide) rfl,
    chain_step v6 v27 y j 25 26 (by decide) rfl,
    chain_step v6 v27 y j 24 25 (by decide) rfl]

end Cert.KernelIdeal.Entries

end
-- ==== Proof.KernelRowOps.lean ====
/-
  A row value spread back over its row: a vector of 512 row values, viewed as a column and broadcast over the 2048
  columns, reads at (y, j) the value of row y. The row maximum of the similarity is subtracted from each entry of its
  row in this way.
-/
import proofs.«427604_j60739427500227_3_alg».proof.Proof.KernelEntries

noncomputable section

namespace Cert.KernelIdeal.RowOps

open Cert.KernelIdeal Cert.KernelIdeal.Gen Idealize.ShloMosaic Idealize.ShloMosaic.ValueIdx

variable {α : Type}

/-- A vector of 512 values cast to a `[512, 1]` column reads, at `(y, 0)`, the value at `y`. -/
theorem column_apply (v : S512.Idx → α) (h1 : S512.ShapeCasts S512x1) (y : Fin 512) :
    shapeCast S512x1 v h1 (ix2 y (0 : Fin 1)) = v (ix1 y) :=
  shapeCast_apply v h1 _ _ (by
    rw [Shape.rowMajor_val_two, Shape.rowMajor_val_one]
    show y.val = y.val * 1 + 0
    omega)

/-- (R3) The row value broadcast back over the row: at (y, j) it is the value of row y. -/
theorem row_bcast (v : S512.Idx → α) (h1 : S512.ShapeCasts S512x1) (h2 : S512x1.Broadcasts S512x2048)
    (y : Fin 512) (j : Fin 2048) :
    broadcastTo S512x2048 (shapeCast S512x1 v h1) h2 (ix2 y j) = v (ix1 y) :=
  (Cert.KernelIdeal.Entries.broadcastTo_a1_ab_apply _ h2 y j).trans (column_apply v h1 y)

end Cert.KernelIdeal.RowOps

end
-- ==== Proof.KernelRowOps2.lean ====
/-
  Rows of one tile of the joint contrastive loss: a row's sum and a row's maximum over the 2048 columns, the exponential
  of the similarity shifted by the row's maximum over the other columns, and the row's weighted sum, in which each other
  column's exponential is weighted by one where the two samples overlap and by the square root of their pair similarity
  (the maximum over all 28 classes of label times class similarity) elsewhere.
-/
import proofs.«427604_j60739427500227_3_alg».proof.Proof.KernelEntries2
import proofs.«427604_j60739427500227_3_alg».proof.Proof.KernelRowOps

noncomputable section

namespace Cert.KernelIdeal.RowOps

open Cert.KernelIdeal Cert.KernelIdeal.Gen Idealize.ShloMosaic Idealize.ShloMosaic.ValueIdx

/-! ## The elementwise functions at an index -/

theorem exp_apply {s : Shape} {φ : FTy} (x : FVec Ideal s φ) (i : s.Idx) : exp x i = Ideal.exp (x i) := rfl
theorem sqrt_apply {s : Shape} {φ : FTy} (x : FVec Ideal s φ) (i : s.Idx) : sqrt x i = Ideal.sqrt (x i) := rfl

/-- The named diagonal fill denotes minus infinity. -/
theorem neg_big_val :
    Named.named (F := Ideal) κ "neg_big" (φ := .f32) 0xFF333332#32 = (⊥ : EReal) :=
  IdealRules.named_const.ideal_named_scalar _ _ _ _ rfl

/-! ## A row's sum and a row's maximum -/

/-- The index over row y whose column is k. -/
theorem lift_row (h : S512x2048.Reduces [1] S512) (y : Fin 512) :
    h.lift (ix1 y) = fun k : Fin 2048 => ix2 y k :=
  funext fun k => funext fun c => Fin.ext (by
    match c with
    | ⟨0, _⟩ => rfl
    | ⟨1, _⟩ => rfl)

/-- (R1) The sum along a row of the tile: over the 2048 columns. -/
theorem row_sum (src : FVec Ideal S512x2048 .f32) (h : S512x2048.Reduces [1] S512) (hφ : FKind.Formats .f32)
    (hacc : (0x00000000#32 : BitVec 32) = FKind.add.neutral .f32 hφ) (y : Fin 512) :
    multiReduction .add [1] S512 src 0x00000000#32 h hφ hacc (ix1 y) = ∑ j : Fin 2048, src (ix2 y j) := by
  refine (Ideal.multiReduction_add_single src _ h hφ hacc (ix1 y)).trans ?_
  rw [lift_row h y]
  rfl

/-- (R2) The maximum along a row of the tile: the fold of max from minus infinity over the 2048 columns. -/
theorem row_max (src : FVec Ideal S512x2048 .f32) (h : S512x2048.Reduces [1] S512) (hφ : FKind.Formats .f32)
    (hacc : (0xFF800000#32 : BitVec 32) = FKind.maximumf.neutral .f32 hφ) (y : Fin 512) :
    multiReduction .maximumf [1] S512 src 0xFF800000#32 h hφ hacc (ix1 y)
      = (Finset.univ : Finset (Fin 2048)).fold max Cert.ContrastRow.negInfF (fun j => src (ix2 y j)) := by
  refine (Ideal.multiReduction_maximumf_single src _ h hφ hacc (ix1 y)).trans ?_
  rw [lift_row h y, Ideal.ofBits_def]
  rfl

/-! ## The shifted exponential and the weighted sum -/

/-- (L1) The exponential of the similarity shifted by the row's maximum over the other columns (the diagonal entry
    replaced by minus infinity first). -/
theorem pay23_entry (v13 : FVec Ideal S512x2048 .f32) (v23 : IVec S512x2048 1) (y : Fin 512) (j : Fin 2048) :
    k0_pay23 (F := Ideal) v13 v23 (ix2 y j)
      = Ideal.exp (v13 (ix2 y j) - (Finset.univ : Finset (Fin 2048)).fold max Cert.ContrastRow.negInfF
          (fun k => Scalar.select (v23 (ix2 y k)) (⊥ : EReal) (v13 (ix2 y k)))) := by
  unfold k0_pay23
  rw [exp_apply, subf_apply, row_bcast]
  refine congrArg (fun z => Ideal.exp (v13 (ix2 y j) - z)) ((row_max _ _ _ _ y).trans ?_)
  simp only [select_apply, broadcast_apply, neg_big_val]

/-- (L3) The weighted sum of a row: over the columns other than the diagonal, the shifted exponential times the pair
    weight, one where the samples overlap and the square root of the pair similarity elsewhere. -/
theorem pay25_row (v6 : FVec Ideal S512x28 .bf16) (v13 : FVec Ideal S512x2048 .f32) (v18 v23 : IVec S512x2048 1)
    (v27 : FVec Ideal S28x2048 .bf16) (v220 : FVec Ideal S512x2048 .bf16) (v221 : FVec Ideal S512x1 .bf16)
    (v222 : FVec Ideal S1x2048 .bf16) (y : Fin 512)
    (h220 : ∀ j, v220 (ix2 y j) = Cert.KernelIdeal.Entries.chain v6 v27 y j 24)
    (h221 : v221 (ix2 y (0 : Fin 1)) = v6 (ix2 y ⟨24, by decide⟩))
    (h222 : ∀ j, v222 (ix2 (0 : Fin 1) j) = v27 (ix2 ⟨24, by decide⟩ j)) :
    k0_pay25 (F := Ideal) v6 v13 v18 v23 v27 v220 v221 v222 (ix1 y)
      = ∑ j : Fin 2048, Scalar.select (v23 (ix2 y j)) Cert.ContrastRow.zeroF
          (k0_pay23 (F := Ideal) v13 v23 (ix2 y j) * Scalar.select (v18 (ix2 y j)) Cert.ContrastRow.oneF
            (Ideal.sqrt ((List.finRange 28).foldl (fun acc a => max acc (v6 (ix2 y a) * v27 (ix2 a j))) Cert.ContrastRow.zeroH))) := by
  unfold k0_pay25
  refine (row_sum _ _ _ _ y).trans ?_
  refine Finset.sum_congr rfl fun j _ => ?_
  rw [select_apply, broadcast_apply, mulf_apply, select_apply, broadcast_apply, sqrt_apply, extf_apply,
    Cert.KernelIdeal.Entries.tail_entry v6 v27 v220 v221 v222 y j (h220 j) h221 (h222 j)]
  rfl

end Cert.KernelIdeal.RowOps

end
-- ==== Proof.KernelRows.lean ====
/-
  What the body leaves in its two outputs at a row of the tile. Row `y` of the tile of grid point `i` is row
  `512 · i + y` of the whole arrays; there the stored loss is the kernel's row loss `lossK` of the whole arrays and
  the stored validity is `validK`: the similarity row, the overlap bits and the diagonal bit are read entry by entry,
  the row maximum and the two row sums are the fold and the sums over the 2048 columns, and each select on a bit is
  the `if` on the proposition the bit decides.
-/
import proofs.«427604_j60739427500227_3_alg».proof.Proof.Gen.KernelIdeal.Frame
import proofs.«427604_j60739427500227_3_alg».proof.Proof.ContrastRow
import proofs.«427604_j60739427500227_3_alg».proof.Proof.KernelEntries
import proofs.«427604_j60739427500227_3_alg».proof.Proof.KernelEntries2
import proofs.«427604_j60739427500227_3_alg».proof.Proof.KernelRowOps
import proofs.«427604_j60739427500227_3_alg».proof.Proof.KernelRowOps2
import Idealize.ShloMosaic.Lib.Pipeline.Value
import Idealize.ShloMosaic.Lib.ValueIdx
import Idealize.ShloMosaic.Lib.Tactic
import Idealize.ShloMosaic.PureOps.Ideal.Laws

noncomputable section

namespace Cert.KernelIdeal.Rows

open Cert.KernelIdeal Cert.KernelIdeal.Gen Idealize.ShloMosaic Idealize.ShloMosaic.ValueIdx
open Idealize.ShloMosaic.TcCoe Idealize.SL.Sem
open Classical

/-! ## Rows of the tile, and the two loads at a row offset -/

theorem hz1 : (![0] : Fin 1 → Nat) = fun _ => 0 := funext fun a => by fin_cases a <;> rfl
theorem hz2 : (![0, 0] : Fin 2 → Nat) = fun _ => 0 := funext fun a => by fin_cases a <;> rfl

/-- Row `y` of the tile of grid point `i`, as a row of the whole arrays. -/
def rowOf (i : grid0.Coords) (y : Fin 512) : Fin 2048 :=
  ⟨512 * (i 0).val + y.val, by have h : (i 0).val < 4 := (i 0).isLt; have := y.isLt; omega⟩

theorem rowOf_val (i : grid0.Coords) (y : Fin 512) : (rowOf i y).val = 512 * (i 0).val + y.val := rfl

/-- The row offset the body computes from the grid coordinate is `512 · i`. -/
theorem off1_eq (i : grid0.Coords) : k0_off1 i = ![512 * (i 0).val, 0] := by
  have h : ∀ n : Fin 4, (![BitVec.toNat (Scalar.indexCast (Scalar.muli (BitVec.ofNat 32 n.val) 512#32)), 0] : Fin 2 → Nat)
      = ![512 * n.val, 0] := by decide
  exact h (i 0)

theorem off2_eq (i : grid0.Coords) : k0_off2 i = ![512 * (i 0).val, 0] := by
  have h : ∀ n : Fin 4, (![BitVec.toNat (Scalar.indexCast (Scalar.muli (BitVec.ofNat 32 n.val) 512#32)), 0] : Fin 2 → Nat)
      = ![512 * n.val, 0] := by decide
  exact h (i 0)

/-- A load of `M` rows from row `r0` of an `N × n` array reads, at `(y, k)`, the array at `(r0 + y, k)`. -/
theorem ld_rows {Val : EltTy → Type} {e : EltTy} {N M n : Nat} (X : (⟨2, ![N, n]⟩ : Shape).Idx → Val e) (off : Fin 2 → Nat)
    (inb : ∀ a, off a + (⟨2, ![M, n]⟩ : Shape).size a ≤ (⟨2, ![N, n]⟩ : Shape).size a) (r0 : Nat) (hoff : off = ![r0, 0])
    (y : Fin M) (k : Fin n) (h : r0 + y.val < N) :
    View.ld X (Rect.unit (s := ⟨2, ![N, n]⟩) off (⟨2, ![M, n]⟩ : Shape).size inb) (ix2 y k) = X (ix2 ⟨r0 + y.val, h⟩ k) := by
  subst hoff
  refine congrArg X (funext fun a => Fin.ext ?_)
  match a with
  | ⟨0, _⟩ => show r0 + 1 * y.val = r0 + y.val; omega
  | ⟨1, _⟩ => show 0 + 1 * k.val = k.val; omega

section AnyF
variable {F : FTy → Type} [FloatOps F] [Named F]

/-- The tile's rows of the embeddings, as the body loads them. -/
def blk0 (i : grid0.Coords) (x0 : Vec F S2048x256 .f32) : Vec F S512x256 .f32 :=
  View.ld x0 (Rect.unit (s := S2048x256) (k0_off1 i) S512x256.size (k0_off1_inb i))
/-- The tile's rows of the labels, as the body loads them. -/
def blk2 (i : grid0.Coords) (x2 : Vec F S2048x28 .bf16) : Vec F S512x28 .bf16 :=
  View.ld x2 (Rect.unit (s := S2048x28) (k0_off2 i) S512x28.size (k0_off2_inb i))

theorem blk0_apply (i : grid0.Coords) (x0 : Vec F S2048x256 .f32) (y : Fin 512) (k : Fin 256) :
    blk0 i x0 (ix2 y k) = x0 (ix2 (rowOf i y) k) :=
  ld_rows (Val := Elt F) (N := 2048) (M := 512) (n := 256) x0 (k0_off1 i) (k0_off1_inb i) (512 * (i 0).val) (off1_eq i) y k _

theorem blk2_apply (i : grid0.Coords) (x2 : Vec F S2048x28 .bf16) (y : Fin 512) (a : Fin 28) :
    blk2 i x2 (ix2 y a) = x2 (ix2 (rowOf i y) a) :=
  ld_rows (Val := Elt F) (N := 2048) (M := 512) (n := 28) x2 (k0_off2 i) (k0_off2_inb i) (512 * (i 0).val) (off2_eq i) y a _

/-- The running maximum after the first 24 classes, as the body's parts hand it on. -/
abbrev chain24 (v5 : Vec F S512x28 .bf16) (v26 : Vec F S28x2048 .bf16) : FVec F S512x2048 .bf16 :=
  k0_pay20 (k0_pay4 v5) (k0_pay10 v26)
    (k0_pay17 (k0_pay4 v5) (k0_pay10 v26)
      (k0_pay14 (k0_pay4 v5) (k0_pay10 v26) (k0_pay11 v5 v26) (k0_pay12 v5) (k0_pay13 v26))
      (k0_pay15 (k0_pay4 v5)) (k0_pay16 (k0_pay10 v26)))
    (k0_pay18 (k0_pay4 v5)) (k0_pay19 (k0_pay10 v26))

/-- What the body's one store leaves in the validities' buffer: the stored payload over the loaded blocks. -/
theorem out7_found (c : Dev nD) (i : grid0.Coords) (arg1 : Memref sig .tc .vmem S2048x256 .f32) (harg1 : arg1.IsWhole) (arg2 : Memref sig .tc .vmem S256x2048 .f32) (harg2 : arg2.IsWhole) (arg3 : Memref sig .tc .vmem S2048x28 .bf16) (harg3 : arg3.IsWhole) (arg4 : Memref sig .tc .vmem S28x2048 .bf16) (harg4 : arg4.IsWhole) (arg5 : Memref sig .tc .vmem S28x2048 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole)
    (x0 : Vec F S2048x256 .f32) (x1 : Vec F S256x2048 .f32) (x2 : Vec F S2048x28 .bf16) (x3 : Vec F S28x2048 .bf16) (x4 : Vec F S28x2048 .bf16) (x5 : Vec F S512 .f32) :
    out0_A_7 c i arg1 harg1 arg2 harg2 arg3 harg3 arg4 harg4 arg5 harg5 arg6 harg6 arg7 harg7 arg8 harg8 x0 x1 x2 x3 x4 x5 = k0_pay3 (k0_pay26 (k0_pay9 i (blk2 i x2) x3)) := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz1]
  simp only [View.readAt_eq_ld, harg3.read_unread, harg4.read_unread, View.ld_unit_zero (S := S28x2048) hz2]
  rfl

/-- What the body's one store leaves in the losses' buffer. -/
theorem out6_found (c : Dev nD) (i : grid0.Coords) (arg1 : Memref sig .tc .vmem S2048x256 .f32) (harg1 : arg1.IsWhole) (arg2 : Memref sig .tc .vmem S256x2048 .f32) (harg2 : arg2.IsWhole) (arg3 : Memref sig .tc .vmem S2048x28 .bf16) (harg3 : arg3.IsWhole) (arg4 : Memref sig .tc .vmem S28x2048 .bf16) (harg4 : arg4.IsWhole) (arg5 : Memref sig .tc .vmem S28x2048 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole)
    (x0 : Vec F S2048x256 .f32) (x1 : Vec F S256x2048 .f32) (x2 : Vec F S2048x28 .bf16) (x3 : Vec F S28x2048 .bf16) (x4 : Vec F S28x2048 .bf16) (x5 : Vec F S512 .f32) :
    out0_A_6 c i arg1 harg1 arg2 harg2 arg3 harg3 arg4 harg4 arg5 harg5 arg6 harg6 arg7 harg7 arg8 harg8 x0 x1 x2 x3 x4 x5
      = k0_pay2 (k0_pay5 x5)
          (k0_pay24 (k0_pay6 (blk0 i x0) x1) (k0_pay8 i) (k0_pay9 i (blk2 i x2) x3))
          (k0_pay25 (k0_pay4 (blk2 i x2)) (k0_pay6 (blk0 i x0) x1) (k0_pay7 (blk2 i x2) x3) (k0_pay8 i) (k0_pay10 x4)
            (chain24 (blk2 i x2) x4) (k0_pay21 (k0_pay4 (blk2 i x2))) (k0_pay22 (k0_pay10 x4)))
          (k0_pay26 (k0_pay9 i (blk2 i x2) x3)) := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz1]
  simp only [View.readAt_eq_ld, harg1.read_unread, harg2.read_unread, harg3.read_unread, harg4.read_unread, harg5.read_unread, harg6.read_unread, View.ld_unit_zero (S := S28x2048) hz2, View.ld_unit_zero (S := S256x2048) hz2, View.ld_unit_zero (S := S512) hz1]
  rfl

end AnyF

/-! ## A lane reduction along a row, and a select on a decided bit -/

open Cert.ContrastRow

/-- The index a reduction along the columns lifts `(y)` and a column `k` to is `(y, k)`. -/
theorem lift_row (h : S512x2048.Reduces [1] S512) (y : Fin 512) (k : Fin 2048) : h.lift (ix1 y) k = ix2 y k :=
  funext fun a => Fin.ext (by match a with | ⟨0, _⟩ => rfl | ⟨1, _⟩ => rfl)

/-- A sum along a row of the tile. -/
theorem row_sum (src : FVec Ideal S512x2048 .f32) (h : S512x2048.Reduces [1] S512)
    (hφ : FKind.Formats .f32) (hacc : (0x00000000#32 : BitVec 32) = 0x00000000#32) (y : Fin 512) :
    multiReduction (F := Ideal) .add [1] S512 src 0x00000000#32 h hφ hacc (ix1 y) = ∑ k : Fin 2048, src (ix2 y k) := by
  refine (Ideal.multiReduction_add_single src 0x00000000#32 h hφ hacc (ix1 y)).trans ?_
  exact Finset.sum_congr rfl fun k _ => congrArg src (lift_row h y k)

/-- A maximum along a row of the tile. -/
theorem row_max (src : FVec Ideal S512x2048 .f32) (h : S512x2048.Reduces [1] S512)
    (hφ : FKind.Formats .f32) (hacc : (0xFF800000#32 : BitVec 32) = 0xFF800000#32) (y : Fin 512) :
    multiReduction (F := Ideal) .maximumf [1] S512 src 0xFF800000#32 h hφ hacc (ix1 y)
      = (Finset.univ : Finset (Fin 2048)).fold max negInfF (fun k => src (ix2 y k)) := by
  refine (Ideal.multiReduction_maximumf_single src 0xFF800000#32 h hφ hacc (ix1 y)).trans ?_
  exact Finset.fold_congr fun k _ => congrArg src (lift_row h y k)

/-- A select on a bit that decides a proposition is the `if` on the proposition. -/
theorem select_ite {α : Type} (b : BitVec 1) (p : Prop) [Decidable p] (h : b = 1#1 ↔ p) (x z : α) :
    Scalar.select b x z = if p then x else z := by
  unfold Scalar.select
  exact if_congr h rfl rfl

/-! ## The validity of a row -/

theorem pay26_apply (v25 : IVec S512x2048 1) (y : Fin 512) (j : Fin 2048) :
    k0_pay26 (F := Ideal) v25 (ix2 y j) = Scalar.select (v25 (ix2 y j)) oneF zeroF := by
  unfold k0_pay26
  rw [select_apply, broadcast_apply, broadcast_apply]
  rfl

/-- The validity bit of row `y`: over any bits that mark the row's positives. -/
theorem valid_bit_row (v25 : IVec S512x2048 1) (y : Fin 512) (r : Fin 2048) (ov : Fin 2048 → Prop)
    (hp : ∀ j, v25 (ix2 y j) = 1#1 ↔ pos r ov j) :
    k0_pay1 (F := Ideal) (k0_pay26 v25) (ix1 y)
      = Ideal.cmp .ogt ((Finset.univ : Finset (Fin 2048)).fold max negInfF (fun j => if pos r ov j then oneF else zeroF)) zeroF := by
  unfold k0_pay1
  rw [cmpf_apply, broadcast_apply, Ideal.cmpf_def, Ideal.ofBits_def, row_max]
  refine congrArg (fun t => Ideal.cmp .ogt t zeroF) ?_
  refine Finset.fold_congr fun j _ => ?_
  rw [pay26_apply]
  exact select_ite _ _ (hp j) _ _

/-! ## The entries of a row over the whole arrays -/

section Entries

variable (i : grid0.Coords) (x0 : Vec Ideal S2048x256 .f32) (x1 : Vec Ideal S256x2048 .f32) (x2 : Vec Ideal S2048x28 .bf16)
  (x3 x4 : Vec Ideal S28x2048 .bf16) (y : Fin 512) (j : Fin 2048)

theorem row_iff : j.val = 512 * (i 0).val + y.val ↔ j = rowOf i y :=
  ⟨fun h => Fin.ext h, fun h => congrArg Fin.val h⟩

theorem ov_sum : (∑ a : Fin 28, blk2 i x2 (ix2 y a) * x3 (ix2 a j)) = ∑ a : Fin 28, x2 (ix2 (rowOf i y) a) * x3 (ix2 a j) :=
  Finset.sum_congr rfl fun a _ => by rw [blk2_apply]

/-- The positive bit at `(y, j)` marks the positives of the anchor row. -/
theorem pos_iff : k0_pay9 (F := Ideal) i (blk2 i x2) x3 (ix2 y j) = 1#1
    ↔ pos (rowOf i y) (ovK (fun r a => x2 (ix2 r a)) (fun a j => x3 (ix2 a j)) (rowOf i y)) j := by
  rw [Entries.pos_entry_iff, ov_sum]
  unfold pos ovK
  exact and_congr Iff.rfl (not_congr (row_iff i y j))

end Entries

/-! ## The stored validity -/

theorem valid_piece (c : Dev nD) (i : grid0.Coords) (arg1 : Memref sig .tc .vmem S2048x256 .f32) (harg1 : arg1.IsWhole) (arg2 : Memref sig .tc .vmem S256x2048 .f32) (harg2 : arg2.IsWhole) (arg3 : Memref sig .tc .vmem S2048x28 .bf16) (harg3 : arg3.IsWhole) (arg4 : Memref sig .tc .vmem S28x2048 .bf16) (harg4 : arg4.IsWhole) (arg5 : Memref sig .tc .vmem S28x2048 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole)
    (x0 : Vec Ideal S2048x256 .f32) (x1 : Vec Ideal S256x2048 .f32) (x2 : Vec Ideal S2048x28 .bf16) (x3 : Vec Ideal S28x2048 .bf16) (x4 : Vec Ideal S28x2048 .bf16) (x5 : Vec Ideal S512 .f32) (y : Fin 512) :
    out0_A_7 (F := Ideal) c i arg1 harg1 arg2 harg2 arg3 harg3 arg4 harg4 arg5 harg5 arg6 harg6 arg7 harg7 arg8 harg8 x0 x1 x2 x3 x4 x5 (ix1 y)
      = validK (fun r a => x2 (ix2 r a)) (fun a j => x3 (ix2 a j)) (rowOf i y) := by
  rw [out7_found]
  unfold k0_pay3
  rw [sitofp_apply, extui_apply,
    valid_bit_row _ y (rowOf i y) (ovK (fun r a => x2 (ix2 r a)) (fun a j => x3 (ix2 a j)) (rowOf i y)) (pos_iff i x2 x3 y)]
  rfl

/-! ## The row's loss -/

theorem log_apply {s : Shape} {φ : FTy} (a : FVec Ideal s φ) (i : s.Idx) : log a i = Ideal.log (a i) := rfl

/-- The stored loss at a row, pointwise. -/
theorem pay2_row (v8 v266 v270 : FVec Ideal S512 .f32) (v273 : FVec Ideal S512x2048 .f32) (y : Fin 512) :
    k0_pay2 (F := Ideal) v8 v266 v270 v273 (ix1 y)
      = (zeroF - Ideal.log (Ideal.div (Scalar.select (k0_pay1 (F := Ideal) v273 (ix1 y)) (v266 (ix1 y)) oneF)
          (v270 (ix1 y) + epsF))) * v8 (ix1 y) := by
  unfold k0_pay2
  rw [mulf_apply, subf_apply, broadcast_apply, log_apply, divf_apply, select_apply, broadcast_apply, addf_apply,
    broadcast_apply, Ideal.ofBits_def, Ideal.ofBits_def, Ideal.ofBits_def]

/-- The stored loss at a row is the row's loss, once the validity bit, the two sums and the weight are read. -/
theorem loss_row (v8 v266 v270 : FVec Ideal S512 .f32) (v273 : FVec Ideal S512x2048 .f32) (y : Fin 512) (r : Fin 2048)
    (s : Fin 2048 → EReal) (ov : Fin 2048 → Prop) (w : Fin 2048 → EReal) (vld : Prop) (e : EReal)
    (hb : k0_pay1 (F := Ideal) v273 (ix1 y) = 1#1 ↔ vld) (h266 : v266 (ix1 y) = posSum r s ov ⊥)
    (h270 : v270 (ix1 y) = negSum r s w ⊥) (h8 : v8 (ix1 y) = e) :
    k0_pay2 (F := Ideal) v8 v266 v270 v273 (ix1 y) = lossOf r s ov w ⊥ vld e (fun x => zeroF - x) := by
  unfold lossOf
  rw [pay2_row, h266, h270, h8, select_ite _ vld hb]

/-- The exponential of the shifted row at an entry. -/
theorem expo_entry (v13 : FVec Ideal S512x2048 .f32) (v23 : IVec S512x2048 1) (y : Fin 512) (r : Fin 2048)
    (s : Fin 2048 → EReal) (hs : ∀ j, v13 (ix2 y j) = s j) (hd : ∀ j, v23 (ix2 y j) = 1#1 ↔ j = r) (j : Fin 2048) :
    k0_pay23 (F := Ideal) v13 v23 (ix2 y j) = expo r s ⊥ j := by
  unfold expo shift
  rw [RowOps.pay23_entry, hs j]
  refine congrArg (fun t => Ideal.exp (s j - t)) (Finset.fold_congr fun k _ => ?_)
  rw [hs k]
  exact select_ite _ _ (hd k) _ _

/-- The sum over the positives of a row. -/
theorem pay24_row (v13 : FVec Ideal S512x2048 .f32) (v23 v25 : IVec S512x2048 1) (y : Fin 512) :
    k0_pay24 (F := Ideal) v13 v23 v25 (ix1 y)
      = ∑ j : Fin 2048, Scalar.select (v25 (ix2 y j)) (k0_pay23 (F := Ideal) v13 v23 (ix2 y j)) zeroF := by
  unfold k0_pay24
  rw [row_sum]
  refine Finset.sum_congr rfl fun j _ => ?_
  rw [select_apply, broadcast_apply, Ideal.ofBits_def]

theorem pos_sum_row (v13 : FVec Ideal S512x2048 .f32) (v23 v25 : IVec S512x2048 1) (y : Fin 512) (r : Fin 2048)
    (s : Fin 2048 → EReal) (ov : Fin 2048 → Prop) (hs : ∀ j, v13 (ix2 y j) = s j) (hd : ∀ j, v23 (ix2 y j) = 1#1 ↔ j = r)
    (hp : ∀ j, v25 (ix2 y j) = 1#1 ↔ pos r ov j) :
    k0_pay24 (F := Ideal) v13 v23 v25 (ix1 y) = posSum r s ov ⊥ := by
  unfold posSum
  rw [pay24_row]
  refine Finset.sum_congr rfl fun j _ => ?_
  rw [expo_entry v13 v23 y r s hs hd j]
  exact select_ite _ _ (hp j) _ _

/-- The weighted sum over the other columns of a row. -/
theorem neg_sum_row (v6 : FVec Ideal S512x28 .bf16) (v13 : FVec Ideal S512x2048 .f32) (v18 v23 : IVec S512x2048 1)
    (v27 : FVec Ideal S28x2048 .bf16) (v220 : FVec Ideal S512x2048 .bf16) (v221 : FVec Ideal S512x1 .bf16)
    (v222 : FVec Ideal S1x2048 .bf16) (y : Fin 512) (r : Fin 2048) (s w : Fin 2048 → EReal)
    (h220 : ∀ j, v220 (ix2 y j) = Entries.chain v6 v27 y j 24)
    (h221 : v221 (ix2 y (0 : Fin 1)) = v6 (ix2 y ⟨24, by decide⟩))
    (h222 : ∀ j, v222 (ix2 (0 : Fin 1) j) = v27 (ix2 ⟨24, by decide⟩ j))
    (hs : ∀ j, v13 (ix2 y j) = s j) (hd : ∀ j, v23 (ix2 y j) = 1#1 ↔ j = r)
    (hw : ∀ j, Scalar.select (v18 (ix2 y j)) oneF
        (Ideal.sqrt ((List.finRange 28).foldl (fun acc a => max acc (v6 (ix2 y a) * v27 (ix2 a j))) zeroH)) = w j) :
    k0_pay25 (F := Ideal) v6 v13 v18 v23 v27 v220 v221 v222 (ix1 y) = negSum r s w ⊥ := by
  unfold negSum
  rw [RowOps.pay25_row v6 v13 v18 v23 v27 v220 v221 v222 y h220 h221 h222]
  refine Finset.sum_congr rfl fun j _ => ?_
  rw [expo_entry v13 v23 y r s hs hd j, hw j]
  exact select_ite _ _ (hd j) _ _

/-! ## The entries of the similarity, the diagonal, the overlap and the weight over the whole arrays -/

section Entries2

variable (i : grid0.Coords) (x0 : Vec Ideal S2048x256 .f32) (x1 : Vec Ideal S256x2048 .f32) (x2 : Vec Ideal S2048x28 .bf16)
  (x3 x4 : Vec Ideal S28x2048 .bf16) (y : Fin 512) (j : Fin 2048)

theorem sim_eq : k0_pay6 (F := Ideal) (blk0 i x0) x1 (ix2 y j)
    = simK (fun r k => x0 (ix2 r k)) (fun k j => x1 (ix2 k j)) (rowOf i y) j := by
  rw [Entries.sim_entry]
  unfold simK
  exact congrArg (fun t => t * invTemp) (Finset.sum_congr rfl fun k _ => by rw [blk0_apply])

theorem eye_iff : k0_pay8 i (ix2 y j) = 1#1 ↔ j = rowOf i y :=
  (Entries.eye_entry' i y j).trans (row_iff i y j)

theorem ov_iff : k0_pay7 (F := Ideal) (blk2 i x2) x3 (ix2 y j) = 1#1
    ↔ ovK (fun r a => x2 (ix2 r a)) (fun a j => x3 (ix2 a j)) (rowOf i y) j := by
  rw [Entries.ov_entry_iff, ov_sum]
  unfold ovK
  exact Iff.rfl

/-- The weight at `(y, j)`: one on an overlapping pair, else the square root of the running maximum over the classes. -/
theorem w_eq : Scalar.select (k0_pay7 (F := Ideal) (blk2 i x2) x3 (ix2 y j)) oneF
      (Ideal.sqrt ((List.finRange 28).foldl (fun acc a => max acc (blk2 i x2 (ix2 y a) * x4 (ix2 a j))) zeroH))
    = wK (fun r a => x2 (ix2 r a)) (fun a j => x3 (ix2 a j)) (fun a j => x4 (ix2 a j)) (rowOf i y) j := by
  unfold wK pairK
  rw [select_ite _ _ (ov_iff i x2 x3 y j)]
  have hf : (fun (acc : EReal) (a : Fin 28) => max acc (blk2 i x2 (ix2 y a) * x4 (ix2 a j)))
      = fun (acc : EReal) (a : Fin 28) => max acc (x2 (ix2 (rowOf i y) a) * x4 (ix2 a j)) :=
    funext fun acc => funext fun a => by rw [blk2_apply]
  exact congrArg (fun f => if ovK (fun r a => x2 (ix2 r a)) (fun a j => x3 (ix2 a j)) (rowOf i y) j then oneF
    else Ideal.sqrt (List.foldl f zeroH (List.finRange 28))) hf

end Entries2

/-! ## The stored loss -/

theorem loss_piece (c : Dev nD) (i : grid0.Coords) (arg1 : Memref sig .tc .vmem S2048x256 .f32) (harg1 : arg1.IsWhole) (arg2 : Memref sig .tc .vmem S256x2048 .f32) (harg2 : arg2.IsWhole) (arg3 : Memref sig .tc .vmem S2048x28 .bf16) (harg3 : arg3.IsWhole) (arg4 : Memref sig .tc .vmem S28x2048 .bf16) (harg4 : arg4.IsWhole) (arg5 : Memref sig .tc .vmem S28x2048 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole)
    (x0 : Vec Ideal S2048x256 .f32) (x1 : Vec Ideal S256x2048 .f32) (x2 : Vec Ideal S2048x28 .bf16) (x3 : Vec Ideal S28x2048 .bf16) (x4 : Vec Ideal S28x2048 .bf16) (x5 : Vec Ideal S512 .f32) (y : Fin 512) :
    out0_A_6 (F := Ideal) c i arg1 harg1 arg2 harg2 arg3 harg3 arg4 harg4 arg5 harg5 arg6 harg6 arg7 harg7 arg8 harg8 x0 x1 x2 x3 x4 x5 (ix1 y)
      = lossK (fun r k => x0 (ix2 r k)) (fun k j => x1 (ix2 k j)) (fun r a => x2 (ix2 r a)) (fun a j => x3 (ix2 a j))
          (fun a j => x4 (ix2 a j)) ⊥ (x5 (ix1 y)) (rowOf i y) := by
  rw [out6_found, Entries.pay4_eq, Entries.pay10_eq]
  unfold lossK
  have hb : k0_pay1 (F := Ideal) (k0_pay26 (k0_pay9 i (blk2 i x2) x3)) (ix1 y) = 1#1
      ↔ validBitK (fun r a => x2 (ix2 r a)) (fun a j => x3 (ix2 a j)) (rowOf i y) = 1#1 := by
    unfold validBitK
    rw [valid_bit_row _ y (rowOf i y) (ovK (fun r a => x2 (ix2 r a)) (fun a j => x3 (ix2 a j)) (rowOf i y)) (pos_iff i x2 x3 y)]
  have h8 : k0_pay5 (F := Ideal) x5 (ix1 y) = x5 (ix1 y) := by
    unfold k0_pay5
    rw [shapeCast_self]
  exact loss_row _ _ _ _ y (rowOf i y)
    (simK (fun r k => x0 (ix2 r k)) (fun k j => x1 (ix2 k j)) (rowOf i y))
    (ovK (fun r a => x2 (ix2 r a)) (fun a j => x3 (ix2 a j)) (rowOf i y))
    (wK (fun r a => x2 (ix2 r a)) (fun a j => x3 (ix2 a j)) (fun a j => x4 (ix2 a j)) (rowOf i y))
    _ (x5 (ix1 y)) hb
    (pos_sum_row _ _ _ y (rowOf i y) _ _ (sim_eq i x0 x1 y) (eye_iff i y) (pos_iff i x2 x3 y))
    (neg_sum_row (blk2 i x2) _ _ _ x4 _ _ _ y (rowOf i y) _ _
      (fun j => Entries.chain24_entry (blk2 i x2) x4 y j) (Entries.pay21_entry (blk2 i x2) y) (fun j => Entries.pay22_entry x4 j)
      (sim_eq i x0 x1 y) (eye_iff i y) (w_eq i x2 x3 x4 y))
    h8

end Cert.KernelIdeal.Rows
end
-- ==== Proof.KernelBlocks.lean ====
/-
  The geometry of the kernel's eight windows over its grid of four points. The five whole-array input windows hold
  their arrays at every point; the sixth input window and the two output windows move down a vector of 2048 entries
  in blocks of 512: at point t the block's entry y is entry 512 · t + y of the vector, and the four blocks cover the
  vector.
-/
import proofs.«427604_j60739427500227_3_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The grid and the index maps -/

/-- The grid is a line: a point's one coordinate is its number. -/
theorem coords_val (t : Fin cfg0.N) : (grid0.coords t 0).val = t.val :=
  (by decide +kernel : ∀ t : Fin grid0.N, (grid0.coords t 0).val = t.val) t

/-- The five whole-array windows sit at block (0, 0) at every point. -/
theorem idx_whole : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The three vector windows sit at block t at point t. -/
theorem idx_line : ∀ t : Fin cfg0.N,
    win0_5.index t (0 : Fin 1) = t.val ∧ win0_6.index t (0 : Fin 1) = t.val ∧ win0_7.index t (0 : Fin 1) = t.val :=
  (by decide +kernel : ∀ t : Fin grid0.N, _)

/-- Entry y of the block at point t is entry 512 · t + y of the vector. -/
def rowAt (t : Fin cfg0.N) (y : Fin 512) : Fin 2048 :=
  ⟨512 * t.val + y.val, by have ht : t.val < 4 := lt_of_lt_of_eq t.isLt N_0; have := y.isLt; omega⟩

/-! ## The whole-array input windows -/

/-- The first whole-array window reads its array back. -/
theorem read_blk0 (A : Vec Ideal S2048x256 .f32) (t : Fin cfg0.N) :
    (((cfg0.win 0).blk t).view.read (Elt Ideal) A : Vec Ideal S2048x256 .f32) = A := by
  funext j
  show A (((cfg0.win 0).blk t).view.emb j) = A j
  refine congrArg A (funext fun a => Fin.ext ?_)
  obtain ⟨e0, e1, -⟩ := idx_whole t
  match a with
  | ⟨0, _⟩ => show win0_0.index t (0 : Fin 2) * 2048 + 1 * (j 0).val = (j 0).val; omega
  | ⟨1, _⟩ => show win0_0.index t (1 : Fin 2) * 256 + 1 * (j 1).val = (j 1).val; omega

theorem read_blk1 (A : Vec Ideal S256x2048 .f32) (t : Fin cfg0.N) :
    (((cfg0.win 1).blk t).view.read (Elt Ideal) A : Vec Ideal S256x2048 .f32) = A := by
  funext j
  show A (((cfg0.win 1).blk t).view.emb j) = A j
  refine congrArg A (funext fun a => Fin.ext ?_)
  obtain ⟨-, -, e0, e1, -⟩ := idx_whole t
  match a with
  | ⟨0, _⟩ => show win0_1.index t (0 : Fin 2) * 256 + 1 * (j 0).val = (j 0).val; omega
  | ⟨1, _⟩ => show win0_1.index t (1 : Fin 2) * 2048 + 1 * (j 1).val = (j 1).val; omega

theorem read_blk2 (A : Vec Ideal S2048x28 .bf16) (t : Fin cfg0.N) :
    (((cfg0.win 2).blk t).view.read (Elt Ideal) A : Vec Ideal S2048x28 .bf16) = A := by
  funext j
  show A (((cfg0.win 2).blk t).view.emb j) = A j
  refine congrArg A (funext fun a => Fin.ext ?_)
  obtain ⟨-, -, -, -, e0, e1, -⟩ := idx_whole t
  match a with
  | ⟨0, _⟩ => show win0_2.index t (0 : Fin 2) * 2048 + 1 * (j 0).val = (j 0).val; omega
  | ⟨1, _⟩ => show win0_2.index t (1 : Fin 2) * 28 + 1 * (j 1).val = (j 1).val; omega

theorem read_blk3 (A : Vec Ideal S28x2048 .bf16) (t : Fin cfg0.N) :
    (((cfg0.win 3).blk t).view.read (Elt Ideal) A : Vec Ideal S28x2048 .bf16) = A := by
  funext j
  show A (((cfg0.win 3).blk t).view.emb j) = A j
  refine congrArg A (funext fun a => Fin.ext ?_)
  obtain ⟨-, -, -, -, -, -, e0, e1, -⟩ := idx_whole t
  match a with
  | ⟨0, _⟩ => show win0_3.index t (0 : Fin 2) * 28 + 1 * (j 0).val = (j 0).val; omega
  | ⟨1, _⟩ => show win0_3.index t (1 : Fin 2) * 2048 + 1 * (j 1).val = (j 1).val; omega

theorem read_blk4 (A : Vec Ideal S28x2048 .bf16) (t : Fin cfg0.N) :
    (((cfg0.win 4).blk t).view.read (Elt Ideal) A : Vec Ideal S28x2048 .bf16) = A := by
  funext j
  show A (((cfg0.win 4).blk t).view.emb j) = A j
  refine congrArg A (funext fun a => Fin.ext ?_)
  obtain ⟨-, -, -, -, -, -, -, -, e0, e1⟩ := idx_whole t
  match a with
  | ⟨0, _⟩ => show win0_4.index t (0 : Fin 2) * 28 + 1 * (j 0).val = (j 0).val; omega
  | ⟨1, _⟩ => show win0_4.index t (1 : Fin 2) * 2048 + 1 * (j 1).val = (j 1).val; omega

/-- The vector window of the sixth input reads entry 512 · t + y of its vector at entry y. -/
theorem read_blk5 (A : Vec Ideal S2048 .f32) (t : Fin cfg0.N) (y : Fin 512) :
    (((cfg0.win 5).blk t).view.read (Elt Ideal) A : Vec Ideal S512 .f32) (ix1 y) = A (ix1 (rowAt t y)) := by
  show A (((cfg0.win 5).blk t).view.emb (ix1 y)) = A (ix1 (rowAt t y))
  refine congrArg A (funext fun a => Fin.ext ?_)
  obtain ⟨e5, -, -⟩ := idx_line t
  match a with
  | ⟨0, _⟩ => show win0_5.index t (0 : Fin 1) * 512 + 1 * y.val = 512 * t.val + y.val; omega

/-! The same reads over any valuation of the buffers, and then at the valuation the region finds. -/

section Valuation

variable (c : Dev nD) (W : (b : Ref sig .tc) → Buf (Elt Ideal) ((c : Thread nD τ).loc b))

theorem readW0 (t : Fin cfg0.N) :
    (((cfg0.win 0).blk t).view.read (Elt Ideal) (W (Pipeline.arrRef spec0 0)) : Vec Ideal S2048x256 .f32)
      = (W main_arg0 : Vec Ideal S2048x256 .f32) := read_blk0 _ t
theorem readW1 (t : Fin cfg0.N) :
    (((cfg0.win 1).blk t).view.read (Elt Ideal) (W (Pipeline.arrRef spec0 1)) : Vec Ideal S256x2048 .f32)
      = (W main_call0_v41 : Vec Ideal S256x2048 .f32) := read_blk1 _ t
theorem readW2 (t : Fin cfg0.N) :
    (((cfg0.win 2).blk t).view.read (Elt Ideal) (W (Pipeline.arrRef spec0 2)) : Vec Ideal S2048x28 .bf16)
      = (W main_call0_v42 : Vec Ideal S2048x28 .bf16) := read_blk2 _ t
theorem readW3 (t : Fin cfg0.N) :
    (((cfg0.win 3).blk t).view.read (Elt Ideal) (W (Pipeline.arrRef spec0 3)) : Vec Ideal S28x2048 .bf16)
      = (W main_call0_v43 : Vec Ideal S28x2048 .bf16) := read_blk3 _ t
theorem readW4 (t : Fin cfg0.N) :
    (((cfg0.win 4).blk t).view.read (Elt Ideal) (W (Pipeline.arrRef spec0 4)) : Vec Ideal S28x2048 .bf16)
      = (W main_call0_v40 : Vec Ideal S28x2048 .bf16) := read_blk4 _ t
theorem readW5 (t : Fin cfg0.N) (y : Fin 512) :
    (((cfg0.win 5).blk t).view.read (Elt Ideal) (W (Pipeline.arrRef spec0 5)) : Vec Ideal S512 .f32) (ix1 y)
      = (W main_call0_v32 : Vec Ideal S2048 .f32) (ix1 (rowAt t y)) := read_blk5 _ t y

end Valuation

theorem iblk0 (c : Dev nD) (t : Fin cfg0.N) :
    (iblk m c 0 t : Vec Ideal S2048x256 .f32) = (V m c main_arg0 : Vec Ideal S2048x256 .f32) := readW0 c (V m c) t
theorem iblk1 (c : Dev nD) (t : Fin cfg0.N) :
    (iblk m c 1 t : Vec Ideal S256x2048 .f32) = (V m c main_call0_v41 : Vec Ideal S256x2048 .f32) := readW1 c (V m c) t
theorem iblk2 (c : Dev nD) (t : Fin cfg0.N) :
    (iblk m c 2 t : Vec Ideal S2048x28 .bf16) = (V m c main_call0_v42 : Vec Ideal S2048x28 .bf16) := readW2 c (V m c) t
theorem iblk3 (c : Dev nD) (t : Fin cfg0.N) :
    (iblk m c 3 t : Vec Ideal S28x2048 .bf16) = (V m c main_call0_v43 : Vec Ideal S28x2048 .bf16) := readW3 c (V m c) t
theorem iblk4 (c : Dev nD) (t : Fin cfg0.N) :
    (iblk m c 4 t : Vec Ideal S28x2048 .bf16) = (V m c main_call0_v40 : Vec Ideal S28x2048 .bf16) := readW4 c (V m c) t
theorem iblk5 (c : Dev nD) (t : Fin cfg0.N) (y : Fin 512) :
    (iblk m c 5 t : Vec Ideal S512 .f32) (ix1 y) = (V m c main_call0_v32 : Vec Ideal S2048 .f32) (ix1 (rowAt t y)) :=
  readW5 c (V m c) t y

/-! ## The output windows: blocks of 512 down a vector of 2048 -/

theorem emb6 (t : Fin cfg0.N) (y : Fin 512) :
    (((cfg0.win 6).blk t).view.emb (ix1 y) : S2048.Idx) = ix1 (rowAt t y) := by
  refine funext fun a => Fin.ext ?_
  obtain ⟨-, e6, -⟩ := idx_line t
  match a with
  | ⟨0, _⟩ => show win0_6.index t (0 : Fin 1) * 512 + 1 * y.val = 512 * t.val + y.val; omega

theorem emb7 (t : Fin cfg0.N) (y : Fin 512) :
    (((cfg0.win 7).blk t).view.emb (ix1 y) : S2048.Idx) = ix1 (rowAt t y) := by
  refine funext fun a => Fin.ext ?_
  obtain ⟨-, -, e7⟩ := idx_line t
  match a with
  | ⟨0, _⟩ => show win0_7.index t (0 : Fin 1) * 512 + 1 * y.val = 512 * t.val + y.val; omega

/-- An entry of the vector is in point t's block of the first output exactly when it lies in the block's range. -/
theorem mem_blk6 (t : Fin cfg0.N) (i : S2048.Idx) :
    i ∈ ((cfg0.win 6).blk t).view.set
      ↔ ∀ a : Fin 1, win0_6.index t a * S512.size a ≤ (i a).val ∧ (i a).val < win0_6.index t a * S512.size a + S512.size a := by
  show i ∈ ((View.whole main_call0_v44_0).slice (win0_6.rect t)).set ↔ _
  rw [View.set_slice_whole, Rect.mem_set_unit]
  exact Iff.rfl

theorem mem_blk7 (t : Fin cfg0.N) (i : S2048.Idx) :
    i ∈ ((cfg0.win 7).blk t).view.set
      ↔ ∀ a : Fin 1, win0_7.index t a * S512.size a ≤ (i a).val ∧ (i a).val < win0_7.index t a * S512.size a + S512.size a := by
  show i ∈ ((View.whole main_call0_v44_1).slice (win0_7.rect t)).set ↔ _
  rw [View.set_slice_whole, Rect.mem_set_unit]
  exact Iff.rfl

/-- Every entry of the first output vector is written by the point its quotient by 512 names. -/
theorem cover6 : ∀ i : S2048.Idx, ∃ t : Fin cfg0.N, (cfg0.win 6).flush t = true ∧ i ∈ ((cfg0.win 6).blk t).view.set := by
  intro i
  have hi : (i 0).val < 2048 := (i 0).isLt
  obtain ⟨t, ht⟩ : ∃ t : Fin cfg0.N, t.val = (i 0).val / 512 :=
    ⟨⟨(i 0).val / 512, lt_of_lt_of_eq (by omega : (i 0).val / 512 < 4) N_0.symm⟩, rfl⟩
  refine ⟨t, flush0_6 t, ?_⟩
  rw [mem_blk6]
  intro a
  obtain ⟨-, e6, -⟩ := idx_line t
  match a with
  | ⟨0, _⟩ =>
    show win0_6.index t (0 : Fin 1) * 512 ≤ (i 0).val ∧ (i 0).val < win0_6.index t (0 : Fin 1) * 512 + 512
    omega

/-- Every entry of the second output vector likewise. -/
theorem cover7 : ∀ i : S2048.Idx, ∃ t : Fin cfg0.N, (cfg0.win 7).flush t = true ∧ i ∈ ((cfg0.win 7).blk t).view.set := by
  intro i
  have hi : (i 0).val < 2048 := (i 0).isLt
  obtain ⟨t, ht⟩ : ∃ t : Fin cfg0.N, t.val = (i 0).val / 512 :=
    ⟨⟨(i 0).val / 512, lt_of_lt_of_eq (by omega : (i 0).val / 512 < 4) N_0.symm⟩, rfl⟩
  refine ⟨t, flush0_7 t, ?_⟩
  rw [mem_blk7]
  intro a
  obtain ⟨-, -, e7⟩ := idx_line t
  match a with
  | ⟨0, _⟩ =>
    show win0_7.index t (0 : Fin 1) * 512 ≤ (i 0).val ∧ (i 0).val < win0_7.index t (0 : Fin 1) * 512 + 512
    omega

end Cert.KernelIdeal.Blocks

end
-- ==== Proof.KernelTail.lean ====
/-
  The host operations after the kernel, composed. From the kernel's two output arrays, the row losses and the stored
  validities, the program keeps the losses of the rows whose validity exceeds one half, sums them, and divides by the
  number of such rows, at least one. Here the value the program's result buffer ends with is that one function of the
  two arrays, over any float structure.
-/
import proofs.«427604_j60739427500227_3_alg».proof.Proof.KernelHost
import proofs.«427604_j60739427500227_3_alg».proof.Proof.Gen.KernelIdeal.Frame
import Idealize.ShloMosaic.Lib.StableHlo.Run

noncomputable section

namespace Cert.KernelIdeal.KVal

open Cert.KernelIdeal Cert.KernelIdeal.Gen Idealize.ShloMosaic Idealize.ShloMosaic.TcCoe Idealize.ShloMosaic.StableHlo
open Idealize.SL.Sem

variable {F : FTy → Type} [FloatOps F] [Named F] (m : (ℓ : Loc nD τ sig) → Buf (Elt F) ℓ)

/-- Contents moved to a typed reference's buffer type and back are unchanged. -/
theorem ofBuf_toBuf {sig : RefSig} {Val : EltTy → Type} {T : BufTy} (x : StableHlo.TRef sig T) (v : T.Contents Val) :
    x.ofBuf (x.toBuf v) = v := by
  obtain ⟨r, rfl, _, _⟩ := x; rfl

set_option backward.isDefEq.respectTransparency.types false in
set_option maxHeartbeats 2000000 in
/-- The program's result after the kernel: the mean, over the valid rows, of the row losses, as one function of the
    kernel's two output arrays. -/
theorem tail_eq (c : Dev nD) :
    Pipeline.afterTail₀ cfgs (dats m) 0 (V0 m) [hostOps1] c main_v0
      = tailK ((dats m 0 c).arrAt 6 cfg0.N) ((dats m 0 c).arrAt 7 cfg0.N) := by
  have h6 := Pipeline.withArrays_arr spec0 launch0.win.arr_inj c (V0 m c) (fun w => (dats m 0 c).arrAt w cfg0.N) 6
  have h7 := Pipeline.withArrays_arr spec0 launch0.win.arr_inj c (V0 m c) (fun w => (dats m 0 c).arrAt w cfg0.N) 7
  unfold Pipeline.afterTail₀
  show StableHlo.after hostOps1 _ (Proc.devRef .tc main_v0) = _
  generalize Pipeline.withArrays (cfgs 0).spec c (V0 m c) (fun w => (dats m 0 c).arrAt w (cfgs 0).N) = W at h6 h7 ⊢
  generalize (dats m 0 c).arrAt 6 cfg0.N = L at h6 ⊢
  generalize (dats m 0 c).arrAt 7 cfg0.N = Vd at h7 ⊢
  after_results
  simp only [ofBuf_toBuf]
  have h6' : W (Proc.devRef .tc main_call0_v44_0) = L := h6
  have h7' : W (Proc.devRef .tc main_call0_v44_1) = Vd := h7
  rw [h6', h7']
  rfl

end Cert.KernelIdeal.KVal

end
-- ==== Proof.KernelLaunch.lean ====
/-
  From the kernel body's rows to the program's result.

  The kernel's run leaves, in each of its two output arrays, the tiles the four grid points wrote back. Row `y` of the
  tile of point `t` is row `512 · t + y` of the array; there the body stored the kernel's row loss `lossK` (respectively
  its validity `validK`) of the arrays the kernel finds in its windows. Those arrays are what the host operations
  before the kernel left: the embeddings and their transpose, the labels in the narrow format (on extended reals the
  change of format is the identity) and their transpose, the array v in the narrow format transposed, and the
  entropy weights. So each output array, after the run, is one function of the program's four arguments, entry by
  entry; the four tiles cover the 2048 rows. The host operations after the kernel then make the result of the two
  arrays, and the arguments end as they began.
-/
import proofs.«427604_j60739427500227_3_alg».proof.Proof.Gen.KernelIdeal.Frame
import proofs.«427604_j60739427500227_3_alg».proof.Proof.ContrastRow
import proofs.«427604_j60739427500227_3_alg».proof.Proof.KernelHost
import proofs.«427604_j60739427500227_3_alg».proof.Proof.KernelRows
import proofs.«427604_j60739427500227_3_alg».proof.Proof.KernelBlocks
import proofs.«427604_j60739427500227_3_alg».proof.Proof.KernelTail
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KVal

open Cert.KernelIdeal Cert.KernelIdeal.Gen Idealize.ShloMosaic Idealize.ShloMosaic.ValueIdx
open Idealize.ShloMosaic.TcCoe Idealize.SL.Sem Idealize.ShloMosaic.StableHlo
open Idealize.ShloMosaic.Pipeline (Dat)

/-- Contents carried to a buffer's own type and back are the contents. -/
theorem tref_ofBuf_toBuf {sig : RefSig} {Val : EltTy → Type} {T : BufTy} (x : TRef sig T) (v : T.Contents Val) :
    x.ofBuf (x.toBuf v) = v := by
  obtain ⟨r, rfl, _, _⟩ := x; rfl

/-! ## The arrays the kernel finds, over any float structure -/

section Reads

variable {F : FTy → Type} [FloatOps F] [Named F]
variable (m : (ℓ : Loc nD τ sig) → Buf (Elt F) ℓ)

/-- The four arguments on core `c`, at their literal types. -/
abbrev X0 (c : Dev nD) : Vec F S2048x256 .f32 := m ((c.tc : Thread nD τ).loc main_arg0)
abbrev X1 (c : Dev nD) : Vec F S2048x28 .f32 := m ((c.tc : Thread nD τ).loc main_arg1)
abbrev X2 (c : Dev nD) : Vec F S2048x28 .f32 := m ((c.tc : Thread nD τ).loc main_arg2)
abbrev X3 (c : Dev nD) : Vec F S28x28 .f32 := m ((c.tc : Thread nD τ).loc main_arg3)

set_option maxHeartbeats 4000000 in
/-- The entropy weights' array, as the kernel finds it. -/
theorem V_ew (c : Dev nD) : (V m c main_call0_v32 : Vec F S2048 .f32) = ewHost (X1 m c) (X2 m c) := by
  show StableHlo.after hostOps0 (fun b => m (c, b)) (Proc.devRef .tc main_call0_v32) = _
  after_results_simp
  simp only [tref_ofBuf_toBuf]
  rfl

set_option maxHeartbeats 4000000 in
/-- The transposed embeddings. -/
theorem V_w1 (c : Dev nD) : (V m c main_call0_v41 : Vec F S256x2048 .f32) = transpose S256x2048 [1, 0] (X0 m c) transposes_S2048x256_S256x2048_1_0 := by
  show StableHlo.after hostOps0 (fun b => m (c, b)) (Proc.devRef .tc main_call0_v41) = _
  after_results_simp
  rfl

set_option maxHeartbeats 4000000 in
/-- The labels in the narrow format. -/
theorem V_w2 (c : Dev nD) : (V m c main_call0_v42 : Vec F S2048x28 .bf16) = truncf .bf16 (X2 m c) bitsLt_bf16_f32 := by
  show StableHlo.after hostOps0 (fun b => m (c, b)) (Proc.devRef .tc main_call0_v42) = _
  after_results_simp
  rfl

set_option maxHeartbeats 4000000 in
/-- The same transposed. -/
theorem V_w3 (c : Dev nD) : (V m c main_call0_v43 : Vec F S28x2048 .bf16) = transpose S28x2048 [1, 0] (truncf .bf16 (X2 m c) bitsLt_bf16_f32) transposes_S2048x28_S28x2048_1_0 := by
  show StableHlo.after hostOps0 (fun b => m (c, b)) (Proc.devRef .tc main_call0_v43) = _
  after_results_simp
  simp only [tref_ofBuf_toBuf]
  rfl

set_option maxHeartbeats 4000000 in
/-- The array v in the narrow format, transposed. -/
theorem V_w4 (c : Dev nD) : (V m c main_call0_v40 : Vec F S28x2048 .bf16) = transpose S28x2048 [1, 0] (truncf .bf16 (vHost (X2 m c) (X3 m c)) bitsLt_bf16_f32) transposes_S2048x28_S28x2048_1_0 := by
  show StableHlo.after hostOps0 (fun b => m (c, b)) (Proc.devRef .tc main_call0_v40) = _
  after_results_simp
  simp only [tref_ofBuf_toBuf]
  rfl

end Reads

/-! ## At the ideal instance: the windows' arrays entry by entry -/

section AtIdeal

variable (m : (ℓ : Loc nD τ sig) → Buf (Elt Ideal) ℓ) (ρ : Dev nD → PrngReg)

open Cert.ContrastRow Cert.KernelIdeal.Rows Cert.KernelIdeal.Blocks

/-- Window 0 holds the embeddings. -/
theorem W0_apply (c : Dev nD) (r : Fin 2048) (k : Fin 256) :
    (V m c main_arg0 : Vec Ideal S2048x256 .f32) (ix2 r k) = X0 m c (ix2 r k) :=
  congrFun (V_main_arg0 m c) (ix2 r k)

/-- Window 1 holds them transposed. -/
theorem W1_apply (c : Dev nD) (k : Fin 256) (j : Fin 2048) :
    (V m c main_call0_v41 : Vec Ideal S256x2048 .f32) (ix2 k j) = X0 m c (ix2 j k) :=
  (congrFun (V_w1 m c) (ix2 k j)).trans (transpose_ix2_apply (X0 m c) transposes_S2048x256_S256x2048_1_0 k j)

/-- Window 2 holds the labels: the change of format is the identity on extended reals. -/
theorem W2_apply (c : Dev nD) (r : Fin 2048) (a : Fin 28) :
    (V m c main_call0_v42 : Vec Ideal S2048x28 .bf16) (ix2 r a) = X2 m c (ix2 r a) :=
  congrFun (V_w2 m c) (ix2 r a)

/-- An array changed to the narrow format and transposed reads, at `(a, j)`, the array at `(j, a)`. -/
theorem transpose_truncf_apply (v : Vec Ideal S2048x28 .f32) (a : Fin 28) (j : Fin 2048) :
    transpose S28x2048 [1, 0] (truncf (F := Ideal) .bf16 v bitsLt_bf16_f32) transposes_S2048x28_S28x2048_1_0 (ix2 a j) = v (ix2 j a) :=
  transpose_ix2_apply (truncf (F := Ideal) .bf16 v bitsLt_bf16_f32) transposes_S2048x28_S28x2048_1_0 a j

/-- Window 3 holds the labels transposed. -/
theorem W3_apply (c : Dev nD) (a : Fin 28) (j : Fin 2048) :
    (V m c main_call0_v43 : Vec Ideal S28x2048 .bf16) (ix2 a j) = X2 m c (ix2 j a) :=
  (congrFun (V_w3 m c) (ix2 a j)).trans (transpose_truncf_apply (X2 m c) a j)

/-- Window 4 holds the array v transposed. -/
theorem W4_apply (c : Dev nD) (a : Fin 28) (j : Fin 2048) :
    (V m c main_call0_v40 : Vec Ideal S28x2048 .bf16) (ix2 a j) = vHost (X2 m c) (X3 m c) (ix2 j a) :=
  (congrFun (V_w4 m c) (ix2 a j)).trans (transpose_truncf_apply (vHost (X2 m c) (X3 m c)) a j)

/-! ## The two output arrays after the run -/

/-- The row losses: entry `i` is the kernel's loss of anchor row `i`, of the argument arrays. -/
abbrev lossArr (c : Dev nD) : Vec Ideal S2048 .f32 := fun i =>
  lossK (fun r k => X0 m c (ix2 r k)) (fun k j => X0 m c (ix2 j k)) (fun r a => X2 m c (ix2 r a)) (fun a j => X2 m c (ix2 j a))
    (fun a j => vHost (X2 m c) (X3 m c) (ix2 j a)) ⊥ (ewHost (X1 m c) (X2 m c) i) (i 0)

/-- The stored validities. -/
abbrev validArr (c : Dev nD) : Vec Ideal S2048 .f32 := fun i =>
  validK (fun r a => X2 m c (ix2 r a)) (fun a j => X2 m c (ix2 j a)) (i 0)

/-- The kernel's row loss depends on its arrays entry by entry. -/
theorem lossK_ext {A A' : Fin 2048 → Fin 256 → EReal} {B B' : Fin 256 → Fin 2048 → EReal} {P P' : Fin 2048 → Fin 28 → EReal}
    {Q Q' R R' : Fin 28 → Fin 2048 → EReal} {e e' : EReal} {i i' : Fin 2048} (fill : EReal)
    (hA : ∀ r k, A r k = A' r k) (hB : ∀ k j, B k j = B' k j) (hP : ∀ r a, P r a = P' r a) (hQ : ∀ a j, Q a j = Q' a j)
    (hR : ∀ a j, R a j = R' a j) (he : e = e') (hi : i = i') :
    lossK A B P Q R fill e i = lossK A' B' P' Q' R' fill e' i' := by
  obtain rfl : A = A' := funext fun r => funext fun k => hA r k
  obtain rfl : B = B' := funext fun k => funext fun j => hB k j
  obtain rfl : P = P' := funext fun r => funext fun a => hP r a
  obtain rfl : Q = Q' := funext fun a => funext fun j => hQ a j
  obtain rfl : R = R' := funext fun a => funext fun j => hR a j
  rw [he, hi]

theorem validK_ext {P P' : Fin 2048 → Fin 28 → EReal} {Q Q' : Fin 28 → Fin 2048 → EReal} {i i' : Fin 2048}
    (hP : ∀ r a, P r a = P' r a) (hQ : ∀ a j, Q a j = Q' a j) (hi : i = i') : validK P Q i = validK P' Q' i' := by
  obtain rfl : P = P' := funext fun r => funext fun a => hP r a
  obtain rfl : Q = Q' := funext fun a => funext fun j => hQ a j
  rw [hi]

/-- The row of the array that entry `y` of point `t`'s tile is. -/
theorem rowOf_coords (t : Fin cfg0.N) (y : Fin 512) : rowOf (grid0.coords t) y = rowAt t y :=
  Fin.ext (by show 512 * (grid0.coords t 0).val + y.val = 512 * t.val + y.val; rw [coords_val])

/-- WHAT POINT `t` WRITES BACK to the losses' array is tile `t` of `lossArr`. -/
theorem flushed6 (c : Dev nD) (t : Fin cfg0.N) :
    (dats m 0 c).flushed 6 t = ((cfg0.win 6).blk t).view.read (Elt Ideal) (lossArr m c) := by
  show (cfg0.win 6).cut (grid0.coords t) ((dats m 0 c).after 6 t) = _
  rw [after0_6]
  funext y
  obtain ⟨y0, rfl⟩ : ∃ y0 : Fin 512, y = ix1 y0 := ⟨y 0, eq_ix1 y⟩
  show (outsAt0 m c t).1 (ix1 y0) = lossArr m c (((cfg0.win 6).blk t).view.emb (ix1 y0))
  rw [emb6]
  unfold outsAt0
  dsimp only
  refine (loss_piece c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) y0).trans ?_
  refine lossK_ext ⊥ (fun r k => ?_) (fun k j => ?_) (fun r a => ?_) (fun a j => ?_) (fun a j => ?_) ?_ ?_
  · exact (congrFun (iblk0 m c t) (ix2 r k)).trans (W0_apply m c r k)
  · exact (congrFun (iblk1 m c t) (ix2 k j)).trans (W1_apply m c k j)
  · exact (congrFun (iblk2 m c t) (ix2 r a)).trans (W2_apply m c r a)
  · exact (congrFun (iblk3 m c t) (ix2 a j)).trans (W3_apply m c a j)
  · exact (congrFun (iblk4 m c t) (ix2 a j)).trans (W4_apply m c a j)
  · exact (iblk5 m c t y0).trans (congrFun (V_ew m c) (ix1 (rowAt t y0)))
  · exact rowOf_coords t y0

/-- WHAT POINT `t` WRITES BACK to the validities' array is tile `t` of `validArr`. -/
theorem flushed7 (c : Dev nD) (t : Fin cfg0.N) :
    (dats m 0 c).flushed 7 t = ((cfg0.win 7).blk t).view.read (Elt Ideal) (validArr m c) := by
  show (cfg0.win 7).cut (grid0.coords t) ((dats m 0 c).after 7 t) = _
  rw [after0_7]
  funext y
  obtain ⟨y0, rfl⟩ : ∃ y0 : Fin 512, y = ix1 y0 := ⟨y 0, eq_ix1 y⟩
  show (outsAt0 m c t).2 (ix1 y0) = validArr m c (((cfg0.win 7).blk t).view.emb (ix1 y0))
  rw [emb7]
  unfold outsAt0
  dsimp only
  refine (valid_piece c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) y0).trans ?_
  refine validK_ext (fun r a => ?_) (fun a j => ?_) ?_
  · exact (congrFun (iblk2 m c t) (ix2 r a)).trans (W2_apply m c r a)
  · exact (congrFun (iblk3 m c t) (ix2 a j)).trans (W3_apply m c a j)
  · exact rowOf_coords t y0

/-- The losses' array after the run. -/
theorem final6 (c : Dev nD) : (dats m 0 c).arrAt 6 cfg0.N = lossArr m c :=
  (dats m 0 c).arrAt_eq_of_cover 6 (lossArr m c) (fun t _ => flushed6 m c t) cover6

/-- The validities' array after the run. -/
theorem final7 (c : Dev nD) : (dats m 0 c).arrAt 7 cfg0.N = validArr m c :=
  (dats m 0 c).arrAt_eq_of_cover 7 (validArr m c) (fun t _ => flushed7 m c t) cover7

end AtIdeal

section Run

variable (m : (ℓ : Loc nD τ sig) → Buf (Elt Ideal) ℓ) (ρ : Dev nD → PrngReg)

/-- THE KERNEL PROGRAM'S RUN: it terminates with its result at the mean, over the valid rows, of the kernel's row losses
    of the argument arrays, and the arguments unchanged. -/
theorem run : θ_run defs (onTc (τ := τ) (main (F := Ideal))) ⟨m, fun _ => 0, ρ⟩ (fun r => ∀ c : Dev nD,
      r.2.mem ((c.tc : Thread nD τ).loc main_v0) = tailK (F := Ideal)
          (fun i => Cert.ContrastRow.lossK (fun r k => m ((c.tc : Thread nD τ).loc main_arg0) (ix2 r k)) (fun k j => m ((c.tc : Thread nD τ).loc main_arg0) (ix2 j k))
            (fun r a => m ((c.tc : Thread nD τ).loc main_arg2) (ix2 r a)) (fun a j => m ((c.tc : Thread nD τ).loc main_arg2) (ix2 j a))
            (fun a j => vHost (F := Ideal) (m ((c.tc : Thread nD τ).loc main_arg2)) (m ((c.tc : Thread nD τ).loc main_arg3)) (ix2 j a)) ⊥
            (ewHost (F := Ideal) (m ((c.tc : Thread nD τ).loc main_arg1)) (m ((c.tc : Thread nD τ).loc main_arg2)) i) (i 0))
          (fun i => Cert.ContrastRow.validK (fun r a => m ((c.tc : Thread nD τ).loc main_arg2) (ix2 r a)) (fun a j => m ((c.tc : Thread nD τ).loc main_arg2) (ix2 j a)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v0 (Pipeline.mem_restRefs_of main_v0 (by decide) (by decide))).trans
        ((tail_eq m c).trans (by rw [final6, final7])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Run

end Cert.KernelIdeal.KVal

end
-- ==== Proof.RefRun.lean ====
/-
  The reference program's run, stated over its stages: every weakly fair execution of @main terminates with the
  result buffer at the last stage's value of the arguments' launch contents, and the arguments unchanged.

  The 145 operations are cut into 18 consecutive stretches. At each cut an invariant says which stage every buffer
  still to be read holds (module RefRunChunks: stretches 1 to 17, each with its invariant and the lemma that the stretch
  carries the invariant before it to the invariant after it). Here: the last stretch, with its invariant and its
  lemma; the operation list as the stretches joined in order (there an inlined callee's operation, spelt over typed
  references in the list, meets its spelling with the plain builder: the transport along a reference's type equation is
  the identity, and the two are compared once, on bound variables); the invariants threaded from the launch contents
  to the end; and the run.
-/
import proofs.«427604_j60739427500227_3_alg».proof.Proof.RefRunChunks

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers after two stretches run one after the other. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-! ## Stretch 18: operations 136 to 144 -/

/-- The stretch's operations, in order. -/
abbrev chunk18 : List (HloOp τ sig (Elt F)) :=
  [ nullary main_cst_31 (constant S_ .f32 0x3F800000#32),
    binary main_v82 main_cst_31 main_v83 (maximumf : (⟨S_, .f32⟩ : BufTy).Contents (Elt F) → (⟨S_, .f32⟩ : BufTy).Contents (Elt F) → (⟨S_, .f32⟩ : BufTy).Contents (Elt F)),
    nullary main_cst_32 (constant S_ .f32 0x00000000#32),
    unary main_cst_32 main_call8_v0 (id : (⟨S_, .f32⟩ : BufTy).Contents (Elt F) → (⟨S_, .f32⟩ : BufTy).Contents (Elt F)),
    unary main_call8_v0 main_call8_v1 (broadcastInDim S2048 ![] bcast_S_S2048 : (⟨S_, .f32⟩ : BufTy).Contents (Elt F) → (⟨S2048, .f32⟩ : BufTy).Contents (Elt F)),
    ternary main_v72 main_v79 main_call8_v1 main_v84 (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)),
    nullary main_cst_33 (constant S_ .f32 0x00000000#32),
    binary main_v84 main_cst_33 main_v85 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    binary main_v85 main_v83 main_v86 (Host.divf : (⟨S_, .f32⟩ : BufTy).Contents (Elt F) → (⟨S_, .f32⟩ : BufTy).Contents (Elt F) → (⟨S_, .f32⟩ : BufTy).Contents (Elt F)) ]

/-- Which stage each buffer still to be read holds after stretch 18: the arguments, and the result. -/
def Inv18 (V : Valuation τ sig (Elt F)) (x0 : (⟨S2048x256, .f32⟩ : BufTy).Contents (Elt F)) (x1 x2 : (⟨S2048x28, .f32⟩ : BufTy).Contents (Elt F)) (x3 : (⟨S28x28, .f32⟩ : BufTy).Contents (Elt F)) : Prop :=
  V (Proc.devRef .tc main_arg0) = x0 ∧
  V (Proc.devRef .tc main_arg1) = x1 ∧
  V (Proc.devRef .tc main_arg2) = x2 ∧
  V (Proc.devRef .tc main_arg3) = x3 ∧
  V (Proc.devRef .tc main_v86) = ReadP.val_main_v86 (F := F) x0 x1 x2 x3

/-- Stretch 18 carries the invariant before it to the invariant after it. -/
theorem step18 (V : Valuation τ sig (Elt F)) (x0 : (⟨S2048x256, .f32⟩ : BufTy).Contents (Elt F)) (x1 x2 : (⟨S2048x28, .f32⟩ : BufTy).Contents (Elt F)) (x3 : (⟨S28x28, .f32⟩ : BufTy).Contents (Elt F))
    (h : Inv17 V x0 x1 x2 x3) : Inv18 (after (chunk18 (F := F)) V) x0 x1 x2 x3 := by
  unfold Inv17 at h
  obtain ⟨h_main_arg0, h_main_arg1, h_main_arg2, h_main_arg3, h_main_v72, h_main_v79, h_main_v82⟩ := h
  unfold Inv18
  refine ⟨?_, ?_, ?_, ?_, ?_⟩
  · after_results
    exact h_main_arg0
  · after_results
    exact h_main_arg1
  · after_results
    exact h_main_arg2
  · after_results
    exact h_main_arg3
  · after_results
    rw [h_main_v72, h_main_v79, h_main_v82]
    rfl

/-! ## The stretches in order are the program -/

theorem ops_eq : (RunP.ops (F := F)) = chunk1 ++ (chunk2 ++ (chunk3 ++ (chunk4 ++ (chunk5 ++ (chunk6 ++ (chunk7 ++ (chunk8 ++ (chunk9
    ++ (chunk10 ++ (chunk11 ++ (chunk12 ++ (chunk13 ++ (chunk14 ++ (chunk15 ++ (chunk16 ++ (chunk17 ++ chunk18)))))))))))))))) := rfl

/-- After the whole program the last invariant holds of the launch contents. -/
theorem inv_final (m : (ℓ : Loc nD τ sig) → Buf (Elt F) ℓ) (c : Dev nD) :
    Inv18 (after (RunP.ops (F := F)) (launchContents m c)) (m ((c.tc : Thread nD τ).loc main_arg0))
      (m ((c.tc : Thread nD τ).loc main_arg1)) (m ((c.tc : Thread nD τ).loc main_arg2)) (m ((c.tc : Thread nD τ).loc main_arg3)) := by
  rw [ops_eq]
  simp only [after_append']
  exact step18 _ _ _ _ _ (step17 _ _ _ _ _ (step16 _ _ _ _ _ (step15 _ _ _ _ _ (step14 _ _ _ _ _ (step13 _ _ _ _ _
    (step12 _ _ _ _ _ (step11 _ _ _ _ _ (step10 _ _ _ _ _ (step9 _ _ _ _ _ (step8 _ _ _ _ _ (step7 _ _ _ _ _
    (step6 _ _ _ _ _ (step5 _ _ _ _ _ (step4 _ _ _ _ _ (step3 _ _ _ _ _ (step2 _ _ _ _ _ (step1 _ _ _ _ _
    ⟨rfl, rfl, rfl, rfl⟩)))))))))))))))))

/-- On every device, for any float values, from any memory with zero counters: every weakly fair execution of
    @main terminates with the result at the last stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = ReadP.val_main_v86 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      have hv := inv_final (F := F) m c
      unfold Inv18 at hv
      obtain ⟨h_main_arg0, h_main_arg1, h_main_arg2, h_main_arg3, h_main_v86⟩ := hv
      exact ⟨(h c main_v86).trans h_main_v86, (h c main_arg0).trans h_main_arg0, (h c main_arg1).trans h_main_arg1,
        (h c main_arg2).trans h_main_arg2, (h c main_arg3).trans h_main_arg3⟩)
    (run_seq RunP.scopedRefs_eq RunP.scopedSems_eq defs main (fun _ => RunP.ops) RunP.main_eq (fun _ => RunP.ops_sub) m ρ)

end Cert.ReferenceIdeal.RefRun

end
-- ==== Proof.RefRows.lean ====
/-
  The reference program's stages, read at an index, are the reference's row functions of the joint contrastive loss.
  For an anchor row i and a column j: the similarity stage is the quotient of the embeddings' inner product by the
  temperature; the diagonal bit is one exactly when i = j; the overlap bit is one exactly when the label rows of i and j
  share a class; the masked maximum over the last axis of the class matrix is the largest entry over the classes active
  in a row; the pair similarity is the largest of those over the classes active in the anchor; the weight is one on
  overlapping pairs and the power one half of the pair similarity elsewhere; the row maximum, the exponentials of the
  shifted row, the sum over the positives, the weighted sum over the other samples, the any-positive bit and finally
  the row's loss are the functions of the same names over plain index functions.
-/
import proofs.«427604_j60739427500227_3_alg».proof.Proof.RefReadP
import proofs.«427604_j60739427500227_3_alg».proof.Proof.ContrastRow
import Idealize.ShloMosaic.PureOps.Reduce
import Idealize.ShloMosaic.Lib.Affine

noncomputable section

namespace Cert.ReferenceIdeal.RefRows

open Cert.ReferenceIdeal Cert.ReferenceIdeal.Gen Idealize.ShloMosaic Idealize.ShloMosaic.ValueIdx
open Cert.ContrastRow

/-! ## Bits, selects and folds -/

/-- A select on a bit that is one exactly when `p` holds is the conditional on `p`. -/
theorem select_eq_ite {α : Type} (b : BitVec 1) (p : Prop) [Decidable p] (h : b = 1#1 ↔ p) (u v : α) :
    Scalar.select b u v = if p then u else v := by
  by_cases hp : p
  · rw [if_pos hp, h.mpr hp, select_one]
  · rw [if_neg hp, eq_zero_of_ne_one (fun hb => hp (h.mp hb)), select_zero]

/-- The ordered greater-than compare of two extended reals is one exactly when the order says so. -/
theorem cmp_ogt_iff (x y : EReal) : Ideal.cmp .ogt x y = 1#1 ↔ y < x := by
  unfold Ideal.cmp
  by_cases h : y < x
  · simp [h]
  · simp [h]

/-- A fold by `or` from the zero bit is one exactly when some element is one. -/
theorem fold_ori_eq_one {ι : Type} [DecidableEq ι] (s : Finset ι) (f : ι → BitVec 1) :
    s.fold IntOp.ori 0#1 f = 1#1 ↔ ∃ k ∈ s, f k = 1#1 := by
  induction s using Finset.induction_on with
  | empty => simp
  | insert a s ha ih =>
    rw [Finset.fold_insert ha, IntOp.ori_eq_one, ih]
    constructor
    · rintro (h | ⟨k, hk, hk1⟩)
      · exact ⟨a, Finset.mem_insert_self _ _, h⟩
      · exact ⟨k, Finset.mem_insert_of_mem hk, hk1⟩
    · rintro ⟨k, hk, hk1⟩
      rcases Finset.mem_insert.1 hk with rfl | hk
      · exact Or.inl hk1
      · exact Or.inr ⟨k, hk, hk1⟩

theorem fold_ori_univ_eq_one {ι : Type} [Fintype ι] [DecidableEq ι] (f : ι → BitVec 1) :
    (Finset.univ : Finset ι).fold IntOp.ori 0#1 f = 1#1 ↔ ∃ k, f k = 1#1 := by
  rw [fold_ori_eq_one]
  exact ⟨fun ⟨k, _, h⟩ => ⟨k, h⟩, fun ⟨k, h⟩ => ⟨k, Finset.mem_univ _, h⟩⟩

/-- Two row numbers below 2048, as 32-bit words, the first plus the zero word, are equal words exactly when they are
    equal numbers: nothing wraps. -/
theorem diag_bit (a b : Fin 2048) :
    IntOp.cmpi .eq (IntOp.addi (BitVec.ofNat 32 a.val) 0#32) (BitVec.ofNat 32 b.val) = 1#1 ↔ a = b := by
  rw [IntOp.cmpi_eq]
  have ha := a.isLt
  have hb := b.isLt
  constructor
  · intro h
    have h' := congrArg BitVec.toNat h
    simp only [IntOp.addi, BitVec.add_zero, BitVec.toNat_ofNat] at h'
    apply Fin.ext
    omega
  · rintro rfl
    simp [IntOp.addi]

theorem andi_not_eq_one (c d : BitVec 1) : IntOp.andi c (~~~d) = 1#1 ↔ c = 1#1 ∧ ¬ d = 1#1 := by
  revert c d; decide

/-! ## The reductions the stages do not read, at an index -/

theorem red_v : S2048x28x28.Reduces [2] S2048x28 := by decide
theorem red_pair : S2048x2048x28.Reduces [2] S2048x2048 := by decide
theorem red_row : S2048x2048.Reduces [1] S2048 := by decide

/-- A maximum-reduce of a [2048, 28, 28] array over its last axis, read at (j, a). -/
theorem reduceMax_v (x : S2048x28x28.Idx → EReal) (init : S_.Idx → EReal) (j : Fin 2048) (a : Fin 28) :
    Host.reduce (FloatOps.maximumf (F := Ideal) (φ := .f32)) x init reducesTo_S2048x28x28_S2048x28_d2 h_S_ (ix2 j a)
      = (Finset.univ : Finset (Fin 28)).fold max (init (Shape.Idx.first h_S_)) (fun k => x (ix3 j a k)) := by
  rw [Host.reduce_eq_fold_single _ x init reducesTo_S2048x28x28_S2048x28_d2 red_v h_S_ (ix2 j a)]
  show (Finset.univ : Finset (Fin 28)).fold max _ _ = _
  refine Finset.fold_congr fun k _ => ?_
  exact congrArg x (funext fun c => Fin.ext (by match c with | ⟨0, _⟩ => rfl | ⟨1, _⟩ => rfl | ⟨2, _⟩ => rfl))

/-- A maximum-reduce of a [2048, 2048, 28] array over its last axis, read at (i, j). -/
theorem reduceMax_pair (x : S2048x2048x28.Idx → EReal) (init : S_.Idx → EReal) (i j : Fin 2048) :
    Host.reduce (FloatOps.maximumf (F := Ideal) (φ := .f32)) x init reducesTo_S2048x2048x28_S2048x2048_d2 h_S_ (ix2 i j)
      = (Finset.univ : Finset (Fin 28)).fold max (init (Shape.Idx.first h_S_)) (fun a => x (ix3 i j a)) := by
  rw [Host.reduce_eq_fold_single _ x init reducesTo_S2048x2048x28_S2048x2048_d2 red_pair h_S_ (ix2 i j)]
  show (Finset.univ : Finset (Fin 28)).fold max _ _ = _
  refine Finset.fold_congr fun k _ => ?_
  exact congrArg x (funext fun c => Fin.ext (by match c with | ⟨0, _⟩ => rfl | ⟨1, _⟩ => rfl | ⟨2, _⟩ => rfl))

/-- A maximum-reduce of a [2048, 2048] array over its columns, read at row i. -/
theorem reduceMax_row (x : S2048x2048.Idx → EReal) (init : S_.Idx → EReal) (i : Fin 2048) :
    Host.reduce (FloatOps.maximumf (F := Ideal) (φ := .f32)) x init reducesTo_S2048x2048_S2048_d1 h_S_ (ix1 i)
      = (Finset.univ : Finset (Fin 2048)).fold max (init (Shape.Idx.first h_S_)) (fun j => x (ix2 i j)) := by
  rw [Host.reduce_eq_fold_single _ x init reducesTo_S2048x2048_S2048_d1 red_row h_S_ (ix1 i)]
  show (Finset.univ : Finset (Fin 2048)).fold max _ _ = _
  refine Finset.fold_congr fun k _ => ?_
  exact congrArg x (funext fun c => Fin.ext (by match c with | ⟨0, _⟩ => rfl | ⟨1, _⟩ => rfl))

/-- An or-reduce of a [2048, 2048] array of bits over its columns, read at row i. -/
theorem reduceOr_row (x : S2048x2048.Idx → BitVec 1) (init : S_.Idx → BitVec 1) (i : Fin 2048) :
    Host.reduce IntOp.ori x init reducesTo_S2048x2048_S2048_d1 h_S_ (ix1 i)
      = (Finset.univ : Finset (Fin 2048)).fold IntOp.ori (init (Shape.Idx.first h_S_)) (fun j => x (ix2 i j)) := by
  rw [Host.reduce_eq_fold_single _ x init reducesTo_S2048x2048_S2048_d1 red_row h_S_ (ix1 i)]
  show (Finset.univ : Finset (Fin 2048)).fold IntOp.ori _ _ = _
  refine Finset.fold_congr fun k _ => ?_
  exact congrArg x (funext fun c => Fin.ext (by match c with | ⟨0, _⟩ => rfl | ⟨1, _⟩ => rfl))

/-! ## The stages at an index -/

section Stages

variable (x0 : FVec Ideal S2048x256 .f32) (x1 x2 : FVec Ideal S2048x28 .f32) (x3 : FVec Ideal S28x28 .f32)

local notation "emb" => (fun (r : Fin 2048) (k : Fin 256) => x0 (ix2 r k))
local notation "lab" => (fun (r : Fin 2048) (a : Fin 28) => x2 (ix2 r a))
local notation "cls" => (fun (a b : Fin 28) => x3 (ix2 a b))

local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))

/-- The similarity of samples i and j: the inner product of their embeddings over the temperature. -/
theorem sim_entry (i j : Fin 2048) :
    ReadP.val_main_v36 (F := Ideal) x0 (ix2 i j) = simR emb i j := by
  rw [ReadP.val_main_v36_apply, ReadP.val_main_v34_apply, ReadP.val_main_v35_apply, ReadP.val_main_cst_12_apply]
  have hs : (∑ k : Fin 256, x0 (ReadP.lidx_main_v34 (ix2 i j) k) * ReadP.val_main_v33 (F := Ideal) x0 (ReadP.ridx_main_v34 (ix2 i j) k))
      = ∑ k : Fin 256, x0 (ix2 i k) * x0 (ix2 j k) :=
    Finset.sum_congr rfl fun k _ => by
      rw [ReadP.val_main_v33_apply, show ReadP.lidx_main_v34 (ix2 i j) k = ix2 i k from by idx2,
        show ReadP.idx_main_v33 (ReadP.ridx_main_v34 (ix2 i j) k) = ix2 j k from by idx2]
  rw [hs]
  rfl

/-- The diagonal bit is one exactly on the diagonal. -/
theorem diag_entry (i j : Fin 2048) : ReadP.val_main_v41 (F := Ideal) (ix2 i j) = 1#1 ↔ i = j := by
  rw [ReadP.val_main_v41_apply, ReadP.val_main_v40_apply, ReadP.val_main_v37_apply, ReadP.val_main_v38_apply,
    ReadP.val_main_v39_apply, ReadP.val_main_c_apply]
  exact diag_bit i j

/-- The overlap bit of samples i and j. -/
theorem ov_bit (i j : Fin 2048) :
    ReadP.val_main_v45 (F := Ideal) x2 (ix2 i j) = 1#1 ↔ ovR lab i j := by
  rw [ReadP.val_main_v45_apply, ReadP.val_main_v44_apply, ReadP.val_main_cst_13_apply, ReadP.val_main_v43_apply]
  have hs : (∑ k : Fin 28, x2 (ReadP.lidx_main_v43 (ix2 i j) k) * ReadP.val_main_v42 (F := Ideal) x2 (ReadP.ridx_main_v43 (ix2 i j) k))
      = ∑ a : Fin 28, x2 (ix2 i a) * x2 (ix2 j a) :=
    Finset.sum_congr rfl fun k _ => by
      rw [ReadP.val_main_v42_apply, show ReadP.lidx_main_v43 (ix2 i j) k = ix2 i k from by idx2,
        show ReadP.idx_main_v42 (ReadP.ridx_main_v43 (ix2 i j) k) = ix2 j k from by idx2]
  rw [hs]
  exact cmp_ogt_iff _ _

/-- Column j is a positive of anchor i: the samples overlap and j is off the diagonal. -/
theorem pos_bit (i j : Fin 2048) :
    ReadP.val_main_v47 (F := Ideal) x2 (ix2 i j) = 1#1 ↔ ContrastRow.pos i (ovR lab i) j := by
  rw [ReadP.val_main_v47_apply, ReadP.val_main_v46_apply, andi_not_eq_one, ov_bit, diag_entry]
  unfold ContrastRow.pos
  exact and_congr_right fun _ => not_congr eq_comm

/-- Class a is active in row i. -/
theorem act_bit (i : Fin 2048) (a : Fin 28) :
    ReadP.val_main_v49 (F := Ideal) x2 (ix2 i a) = 1#1 ↔ act lab i a := by
  rw [ReadP.val_main_v49_apply, ReadP.val_main_v48_apply, ReadP.val_main_cst_14_apply]
  exact cmp_ogt_iff _ _

/-- The largest entry of row a of the class matrix over the classes active in sample j. -/
theorem v_entry (j : Fin 2048) (a : Fin 28) :
    ReadP.val_main_v53 (F := Ideal) x2 x3 (ix2 j a) = vR lab cls j a := by
  refine (reduceMax_v (ReadP.val_main_v52 (F := Ideal) x2 x3) (ReadP.val_main_cst_16 (F := Ideal)) j a).trans ?_
  unfold vR
  refine Finset.fold_congr fun b _ => ?_
  show ReadP.val_main_v52 (F := Ideal) x2 x3 (ix3 j a b) = _
  rw [ReadP.val_main_v52_apply, ReadP.val_main_call1_v0_apply, ReadP.val_main_v50_apply, ReadP.val_main_call1_v1_apply,
    ReadP.val_main_v51_apply, ReadP.val_main_call1_v2_apply, ReadP.val_main_cst_15_apply,
    show ReadP.idx_main_v50 (ReadP.idx_main_call1_v0 (ix3 j a b)) = ix2 j b from by idx2,
    show ReadP.idx_main_v51 (ReadP.idx_main_call1_v1 (ix3 j a b)) = ix2 a b from by idx2]
  exact @select_eq_ite _ _ _ (Classical.propDecidable _) (act_bit x2 j b) _ _

/-- The pair similarity of samples i and j. -/
theorem pair_entry (i j : Fin 2048) :
    ReadP.val_main_v57 (F := Ideal) x2 x3 (ix2 i j) = pairR lab cls i j := by
  refine (reduceMax_pair (ReadP.val_main_v56 (F := Ideal) x2 x3) (ReadP.val_main_cst_18 (F := Ideal)) i j).trans ?_
  unfold pairR
  refine Finset.fold_congr fun a _ => ?_
  show ReadP.val_main_v56 (F := Ideal) x2 x3 (ix3 i j a) = _
  rw [ReadP.val_main_v56_apply, ReadP.val_main_call2_v0_apply, ReadP.val_main_v54_apply, ReadP.val_main_call2_v1_apply,
    ReadP.val_main_v55_apply, ReadP.val_main_call2_v2_apply, ReadP.val_main_cst_17_apply,
    show ReadP.idx_main_v54 (ReadP.idx_main_call2_v0 (ix3 i j a)) = ix2 i a from by idx2,
    show ReadP.idx_main_v55 (ReadP.idx_main_call2_v1 (ix3 i j a)) = ix2 j a from by idx2,
    v_entry]
  exact @select_eq_ite _ _ _ (Classical.propDecidable _) (act_bit x2 i a) _ _

/-- The weight of the pair (i, j). -/
theorem w_entry (i j : Fin 2048) :
    ReadP.val_main_v60 (F := Ideal) x2 x3 (ix2 i j) = wR lab cls i j := by
  rw [ReadP.val_main_v60_apply, ReadP.val_main_call3_v1_apply, ReadP.val_main_call3_v0_apply, ReadP.val_main_cst_20_apply,
    ReadP.val_main_v59_apply, ReadP.val_main_v58_apply, ReadP.val_main_cst_19_apply, pair_entry]
  unfold wR
  exact @select_eq_ite _ _ _ (Classical.propDecidable _) (ov_bit x2 i j) _ _

/-- The maximum of row i of the similarity over the columns off the diagonal. -/
theorem shift_row (i : Fin 2048) :
    ReadP.val_main_v62 (F := Ideal) x0 (ix1 i) = shift i (simR emb i) negInfF := by
  refine (reduceMax_row (ReadP.val_main_v61 (F := Ideal) x0) (ReadP.val_main_cst_22 (F := Ideal)) i).trans ?_
  unfold shift
  refine Finset.fold_congr fun j _ => ?_
  show ReadP.val_main_v61 (F := Ideal) x0 (ix2 i j) = _
  rw [ReadP.val_main_v61_apply, ReadP.val_main_call4_v0_apply, ReadP.val_main_cst_21_apply, sim_entry]
  exact select_eq_ite _ _ ((diag_entry i j).trans eq_comm) _ _

/-- The exponential of the shifted row. -/
theorem expo_entry (i j : Fin 2048) :
    ReadP.val_main_v66 (F := Ideal) x0 (ix2 i j) = expo i (simR emb i) negInfF j := by
  rw [ReadP.val_main_v66_apply, ReadP.val_main_v65_apply, ReadP.val_main_v64_apply, ReadP.val_main_v63_apply,
    show ReadP.idx_main_v63 (ReadP.idx_main_v64 (ix2 i j)) = ix1 i from by idx1, shift_row, sim_entry]
  rfl

/-- The sum of the exponentials over the positives of anchor i. -/
theorem posSum_row (i : Fin 2048) :
    ReadP.val_main_v68 (F := Ideal) x0 x2 (ix1 i) = posSum i (simR emb i) (ovR lab i) negInfF := by
  rw [ReadP.val_main_v68_apply, ReadP.val_main_cst_24_apply]
  unfold posSum
  rw [show (FloatOps.ofBits (F := Ideal) .f32 0x00000000#32 : EReal) = 0 from Ideal.ofBits_zero_f32, zero_add]
  refine Finset.sum_congr rfl fun j _ => ?_
  rw [show ReadP.idx_main_v68 (ix1 i) j = ix2 i j from by idx2, ReadP.val_main_v67_apply, ReadP.val_main_call5_v1_apply,
    ReadP.val_main_call5_v0_apply, ReadP.val_main_cst_23_apply, expo_entry]
  exact @select_eq_ite _ _ _ (Classical.propDecidable _) (pos_bit x2 i j) _ _

/-- The weighted sum of the exponentials over the samples other than the anchor. -/
theorem negSum_row (i : Fin 2048) :
    ReadP.val_main_v71 (F := Ideal) x0 x2 x3 (ix1 i) = negSum i (simR emb i) (wR lab cls i) negInfF := by
  rw [ReadP.val_main_v71_apply, ReadP.val_main_cst_26_apply]
  unfold negSum
  rw [show (FloatOps.ofBits (F := Ideal) .f32 0x00000000#32 : EReal) = 0 from Ideal.ofBits_zero_f32, zero_add]
  refine Finset.sum_congr rfl fun j _ => ?_
  rw [show ReadP.idx_main_v71 (ix1 i) j = ix2 i j from by idx2, ReadP.val_main_v70_apply, ReadP.val_main_call6_v1_apply,
    ReadP.val_main_call6_v0_apply, ReadP.val_main_cst_25_apply, ReadP.val_main_v69_apply, expo_entry, w_entry]
  exact select_eq_ite _ _ ((diag_entry i j).trans eq_comm) _ _

/-- The anchor has a positive. -/
theorem valid_row (i : Fin 2048) :
    ReadP.val_main_v72 (F := Ideal) x2 (ix1 i) = 1#1 ↔ hasPos i (ovR lab i) := by
  refine (iff_of_eq (congrArg (· = 1#1)
    (reduceOr_row (ReadP.val_main_v47 (F := Ideal) x2) (ReadP.val_main_c_27 (F := Ideal)) i))).trans ?_
  rw [show ReadP.val_main_c_27 (F := Ideal) (Shape.Idx.first h_S_) = 0#1 from rfl, fold_ori_univ_eq_one]
  unfold hasPos
  exact exists_congr fun j => pos_bit x2 i j

/-- The loss of row i, the entropy weight left as the program computes it. -/
theorem loss_row (i : Fin 2048) :
    ReadP.val_main_v79 (F := Ideal) x0 x1 x2 x3 (ix1 i)
      = lossR emb lab cls (ReadP.val_main_v32 (F := Ideal) x1 x2 (ix1 i)) i := by
  rw [ReadP.val_main_v79_apply, ReadP.val_main_v78_apply, ReadP.val_main_v77_apply, ReadP.val_main_v76_apply,
    ReadP.val_main_v75_apply, ReadP.val_main_v74_apply, ReadP.val_main_cst_29_apply, ReadP.val_main_v73_apply,
    ReadP.val_main_call7_v1_apply, ReadP.val_main_call7_v0_apply, ReadP.val_main_cst_28_apply, posSum_row, negSum_row,
    @select_eq_ite _ _ _ (Classical.propDecidable _) (valid_row x2 i)]
  rfl

end Stages

end Cert.ReferenceIdeal.RefRows

end
-- ==== Proof.Consts.lean ====
/-
  The printed float words this certificate evaluates, once: one, one half, minus infinity, the temperature
  `0x3D8F5C29 = 9395241 / 2²⁷`, and the bf16 zero.
-/
import Idealize.ShloMosaic.PureOps.Ideal
import Idealize.ShloMosaic.PureOps.Ideal.Laws

noncomputable section

namespace Cert.Consts

open Idealize.ShloMosaic

theorem ofBits_one : Ideal.ofBits .f32 0x3F800000#32 = 1 := by
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

theorem ofBits_negInf : Ideal.ofBits .f32 0xFF800000#32 = ⊥ := by
  simp [Ideal.ofBits, Ideal.ieee]

theorem ofBits_temp : Ideal.ofBits .f32 0x3D8F5C29#32 = ((9395241 / 134217728 : ℝ) : EReal) := by
  simp [Ideal.ofBits, Ideal.ieee, -EReal.coe_mul]
  norm_num

theorem ofBits_zero_bf16 : Ideal.ofBits .bf16 0x0000#16 = 0 := by
  simp [Ideal.ofBits, Ideal.ieee]

end Cert.Consts

end
-- ==== Proof.LibIdealReal.lean ====
/-
  General lemmas: the extended-real operations of the ideal float instance on REAL operands give the real result.
  A finite sum of real numbers embedded in the extended reals is the embedded sum; the ideal quotient of two reals with
  a nonzero divisor is the real quotient; the ideal logarithm of a positive real is the real logarithm; an ordered
  compare of two reals is the bit of the real order; a one-bit word widened to 32 bits and converted to a float is the
  real 1 or 0; a maximum over a nonempty finite family of reals starting from minus infinity is the real maximum.
-/
import Idealize.ShloMosaic.PureOps.Ideal
import Idealize.ShloMosaic.PureOps.Ideal.Laws

noncomputable section

namespace Idealize.ShloMosaic.IdealReal

open Idealize.ShloMosaic

/-- A finite sum of embedded reals is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, the divisor nonzero, is the real quotient. -/
theorem div_coe_coe (x y : ℝ) (hy : y ≠ 0) : Ideal.div (x : EReal) (y : EReal) = ((x / y : ℝ) : EReal) := by
  rw [Ideal.div_coe hy, ← EReal.coe_mul]
  congr 1
  field_simp

/-- The ideal logarithm of a positive real is the real logarithm. -/
theorem log_coe_pos {x : ℝ} (hx : 0 < x) : Ideal.log (x : EReal) = ((Real.log x : ℝ) : EReal) := by
  rw [Ideal.log_coe, if_neg (not_le.mpr hx)]

/-- The ideal exponential of a real is the real exponential. -/
theorem exp_coe' (x : ℝ) : Ideal.exp (x : EReal) = ((Real.exp x : ℝ) : EReal) := Ideal.exp_coe x

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

theorem cmp_oge_coe (x y : ℝ) : Ideal.cmp .oge (x : EReal) (y : EReal) = if y ≤ x then 1#1 else 0#1 := by
  unfold Ideal.cmp
  by_cases h : y ≤ x
  · simp [h, EReal.coe_le_coe_iff]
  · simp [h, EReal.coe_le_coe_iff]

/-- A one-bit word widened to 32 bits and converted (signed) to a float is the real 1 or 0. -/
theorem sitofp_setWidth_bit (b : BitVec 1) :
    (FloatOps.sitofp (F := Ideal) .f32 (b.setWidth 32) : EReal) = if b = 1#1 then ((1 : ℝ) : EReal) else ((0 : ℝ) : EReal) := by
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · show ((((0#1 : BitVec 1).setWidth 32).toInt : ℝ) : EReal) = _
    simp
  · show ((((1#1 : BitVec 1).setWidth 32).toInt : ℝ) : EReal) = _
    norm_num [BitVec.toInt]

/-- The maximum of embedded reals is the embedded maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A product with an embedded 1-or-0 selects. -/
theorem coe_ite {p : Prop} [Decidable p] (a b : ℝ) :
    (if p then ((a : ℝ) : EReal) else ((b : ℝ) : EReal)) = (((if p then a else b) : ℝ) : EReal) := by
  split <;> rfl

end Idealize.ShloMosaic.IdealReal

end
-- ==== Proof.RowAlgebra.lean ====
/-
  The kernel's row is the reference's row when the labels are zero or one, every row has a label, and the
  valence-arousal matrix is finite.
-/
import proofs.«427604_j60739427500227_3_alg».proof.Proof.ContrastRow
import proofs.«427604_j60739427500227_3_alg».proof.Proof.Consts
import proofs.«427604_j60739427500227_3_alg».proof.Proof.LibIdealReal
import Mathlib.Data.Finset.Fold
import Mathlib.Algebra.Order.BigOperators.Group.Finset
import Mathlib.Analysis.SpecialFunctions.Pow.Real
import Mathlib.Analysis.SpecialFunctions.Trigonometric.Basic

noncomputable section

namespace Cert.ContrastRow

open Idealize.ShloMosaic
open Classical

/-! ## The literals' values -/

theorem zeroF_eq : zeroF = 0 := Ideal.ofBits_zero_f32
theorem oneF_eq : oneF = 1 := Consts.ofBits_one
theorem halfF_eq : halfF = ((1 / 2 : ℝ) : EReal) := Consts.ofBits_half
theorem negInfF_eq : negInfF = ⊥ := Consts.ofBits_negInf
theorem tempF_eq : tempF = ((9395241 / 134217728 : ℝ) : EReal) := Consts.ofBits_temp
theorem zeroH_eq : zeroH = 0 := Consts.ofBits_zero_bf16

/-! ## A running maximum along a list is bounded exactly when its start and every term are -/

theorem foldl_max_le {α : Type*} (f : α → EReal) (l : List α) (b c : EReal) :
    l.foldl (fun acc a => max acc (f a)) b ≤ c ↔ b ≤ c ∧ ∀ a ∈ l, f a ≤ c := by
  induction l generalizing b with
  | nil => simp
  | cons a l ih =>
    rw [List.foldl_cons, ih, max_le_iff]
    simp only [List.mem_cons, forall_eq_or_imp, and_assoc]

/-- An ordered compare "greater than" answers one exactly when the order holds. -/
theorem cmp_ogt_eq_one (x y : EReal) : Ideal.cmp .ogt x y = 1#1 ↔ y < x := by
  unfold Ideal.cmp
  by_cases h : y < x <;> simp [h]

variable (E : Fin 2048 → Fin 256 → EReal) (lab : Fin 2048 → Fin 28 → EReal) (va : Fin 28 → Fin 28 → EReal)

/-! ## The similarity: a product with the reciprocal is the quotient -/

theorem sim_eq (i j : Fin 2048) : simK (fun r k => E r k) (fun k j => E j k) i j = simR E i j := by
  unfold simK simR
  rw [tempF_eq, Ideal.div_coe (by norm_num)]
  congr 2
  norm_num

/-! ## The overlap: a count of zero-or-one terms exceeds one half exactly when it exceeds zero -/

theorem prod_bin (hbin : ∀ i a, lab i a = 0 ∨ lab i a = 1) (i j : Fin 2048) (a : Fin 28) :
    lab i a * lab j a = 0 ∨ lab i a * lab j a = 1 := by
  rcases hbin i a with h | h <;> rcases hbin j a with h' | h' <;> simp [h, h']

theorem ov_iff (hbin : ∀ i a, lab i a = 0 ∨ lab i a = 1) (i j : Fin 2048) :
    ovK lab (fun a j => lab j a) i j ↔ ovR lab i j := by
  unfold ovK ovR
  rw [halfF_eq, zeroF_eq]
  constructor
  · intro h
    exact lt_trans (EReal.coe_pos.mpr (by norm_num)) h
  · intro h
    obtain ⟨a, -, ha⟩ := Finset.exists_ne_zero_of_sum_ne_zero (ne_of_gt h)
    have h1 : lab i a * lab j a = 1 := (prod_bin lab hbin i j a).resolve_left ha
    have h2 : (1 : EReal) ≤ ∑ a : Fin 28, lab i a * lab j a := by
      rw [← h1]
      refine Finset.single_le_sum (f := fun a => lab i a * lab j a) (fun b _ => ?_) (Finset.mem_univ a)
      rcases prod_bin lab hbin i j b with h | h <;> simp [h]
    refine lt_of_lt_of_le ?_ h2
    rw [← EReal.coe_one]
    exact EReal.coe_lt_coe_iff.mpr (by norm_num)

/-! ## The pair similarity and its weight -/

theorem act_iff (hbin : ∀ i a, lab i a = 0 ∨ lab i a = 1) (i : Fin 2048) (a : Fin 28) :
    act lab i a ↔ lab i a = 1 := by
  unfold act
  rw [zeroF_eq]
  rcases hbin i a with h | h <;> simp [h]

/-- The running maximum from zero of the products label · v is the larger of zero and the masked maximum of v. -/
theorem pairK_eq (hbin : ∀ i a, lab i a = 0 ∨ lab i a = 1) (v : Fin 2048 → Fin 28 → EReal) (i j : Fin 2048) :
    pairK lab (fun a j => v j a) i j
      = max 0 ((Finset.univ : Finset (Fin 28)).fold max negInfF (fun a => if act lab i a then v j a else negInfF)) := by
  apply eq_of_forall_ge_iff
  intro c
  unfold pairK
  rw [foldl_max_le, max_le_iff, Finset.fold_max_le, zeroH_eq, negInfF_eq]
  constructor
  · rintro ⟨h0, h⟩
    refine ⟨h0, bot_le, fun a _ => ?_⟩
    by_cases ha : act lab i a
    · rw [if_pos ha]
      have := h a (List.mem_finRange a)
      rwa [(act_iff lab hbin i a).mp ha, one_mul] at this
    · rw [if_neg ha]; exact bot_le
  · rintro ⟨h0, -, h⟩
    refine ⟨h0, fun a _ => ?_⟩
    rcases hbin i a with h' | h'
    · rw [h', zero_mul]; exact h0
    · rw [h', one_mul]
      have := h a (Finset.mem_univ a)
      rwa [if_pos ((act_iff lab hbin i a).mpr h')] at this

theorem bot_lt_vR (hbin : ∀ i a, lab i a = 0 ∨ lab i a = 1) (hrow : ∀ i, ∃ a, lab i a = 1)
    (hva : ∀ a b, ∃ r : ℝ, va a b = (r : EReal)) (j : Fin 2048) (a : Fin 28) : ⊥ < vR lab va j a := by
  unfold vR
  rw [Finset.lt_fold_max]
  right
  obtain ⟨b, hb⟩ := hrow j
  obtain ⟨r, hr⟩ := hva a b
  refine ⟨b, Finset.mem_univ _, ?_⟩
  rw [if_pos ((act_iff lab hbin j b).mpr hb), hr]
  exact EReal.bot_lt_coe r

theorem bot_lt_pairR (hbin : ∀ i a, lab i a = 0 ∨ lab i a = 1) (hrow : ∀ i, ∃ a, lab i a = 1)
    (hva : ∀ a b, ∃ r : ℝ, va a b = (r : EReal)) (i j : Fin 2048) : ⊥ < pairR lab va i j := by
  unfold pairR
  rw [Finset.lt_fold_max]
  right
  obtain ⟨a, ha⟩ := hrow i
  refine ⟨a, Finset.mem_univ _, ?_⟩
  rw [if_pos ((act_iff lab hbin i a).mpr ha)]
  exact bot_lt_vR lab va hbin hrow hva j a

/-- The square root of the larger of zero and p is p to the power one half, for every p above minus infinity. -/
theorem sqrt_max_zero (p : EReal) (hp : ⊥ < p) : Ideal.sqrt (max 0 p) = Ideal.pow p halfF := by
  rw [halfF_eq]
  induction p using EReal.rec with
  | bot => exact absurd hp (lt_irrefl _)
  | top =>
    rw [max_eq_right le_top, Ideal.sqrt_top, Ideal.pow_top, if_pos (EReal.coe_pos.mpr (by norm_num))]
  | coe r =>
    rw [← EReal.coe_zero, IdealReal.max_coe, Ideal.sqrt_coe, Ideal.pow_coe_coe,
      if_neg (not_lt.mpr (le_max_left 0 r))]
    congr 1
    show Real.sqrt (max 0 r) = r ^ ((1 / 2 : ℝ))
    rcases le_or_gt 0 r with h | h
    · rw [max_eq_right h, Real.sqrt_eq_rpow]
    · rw [max_eq_left h.le, Real.sqrt_zero, Real.rpow_def_of_neg h,
        show (1 / 2 : ℝ) * Real.pi = Real.pi / 2 by ring, Real.cos_pi_div_two, mul_zero]

theorem w_eq (hbin : ∀ i a, lab i a = 0 ∨ lab i a = 1) (hrow : ∀ i, ∃ a, lab i a = 1)
    (hva : ∀ a b, ∃ r : ℝ, va a b = (r : EReal)) (i j : Fin 2048) :
    wK lab (fun a j => lab j a) (fun a j => vR lab va j a) i j = wR lab va i j := by
  unfold wK wR
  by_cases h : ovR lab i j
  · rw [if_pos h, if_pos ((ov_iff lab hbin i j).mpr h)]
  · rw [if_neg h, if_neg (mt (ov_iff lab hbin i j).mp h), pairK_eq lab hbin (vR lab va) i j]
    exact sqrt_max_zero _ (bot_lt_pairR lab va hbin hrow hva i j)

/-! ## The three statements -/

/-- The kernel's validity bit is set exactly when the anchor has a positive in the reference's sense. -/
theorem validBitK_iff (hbin : ∀ i a, lab i a = 0 ∨ lab i a = 1) (i : Fin 2048) :
    validBitK lab (fun a j => lab j a) i = 1#1 ↔ hasPos i (ovR lab i) := by
  unfold validBitK hasPos
  rw [cmp_ogt_eq_one, Finset.lt_fold_max]
  constructor
  · rintro (h | ⟨j, -, hj⟩)
    · rw [negInfF_eq] at h
      exact absurd h not_lt_bot
    · by_cases hp : pos i (ovK lab (fun a j => lab j a) i) j
      · exact ⟨j, (ov_iff lab hbin i j).mp hp.1, hp.2⟩
      · rw [if_neg hp] at hj
        exact absurd hj (lt_irrefl _)
  · rintro ⟨j, hov, hne⟩
    right
    refine ⟨j, Finset.mem_univ _, ?_⟩
    rw [if_pos ⟨(ov_iff lab hbin i j).mpr hov, hne⟩, zeroF_eq, oneF_eq]
    exact zero_lt_one

/-- The stored validity, compared with one half, gives the bit back. -/
theorem validK_round (P : Fin 2048 → Fin 28 → EReal) (Q : Fin 28 → Fin 2048 → EReal) (i : Fin 2048) :
    Ideal.cmp .ogt (validK P Q i) halfF = validBitK P Q i := by
  unfold validK
  rw [IdealReal.sitofp_setWidth_bit, halfF_eq]
  generalize validBitK P Q i = b
  by_cases hb : b = 1#1
  · rw [if_pos hb, IdealReal.cmp_ogt_coe, if_pos (by norm_num), hb]
  · rw [if_neg hb, IdealReal.cmp_ogt_coe, if_neg (by norm_num)]
    have := b.isLt
    apply BitVec.eq_of_toNat_eq
    have h1 : b.toNat ≠ 1 := fun h => hb (BitVec.eq_of_toNat_eq (by simpa using h))
    simp
    omega

/-- The kernel's row loss, on the transposed operands the host hands it, is the reference's. -/
theorem lossK_eq_lossR (hbin : ∀ i a, lab i a = 0 ∨ lab i a = 1) (hrow : ∀ i, ∃ a, lab i a = 1)
    (hva : ∀ a b, ∃ r : ℝ, va a b = (r : EReal)) (e : EReal) (i : Fin 2048) :
    lossK (fun r k => E r k) (fun k j => E j k) lab (fun a j => lab j a) (fun a j => vR lab va j a) ⊥ e i
      = lossR E lab va e i := by
  have hs : simK (fun r k => E r k) (fun k j => E j k) i = simR E i := funext fun j => sim_eq E i j
  have hov : ovK lab (fun a j => lab j a) i = ovR lab i := funext fun j => propext (ov_iff lab hbin i j)
  have hw : wK lab (fun a j => lab j a) (fun a j => vR lab va j a) i = wR lab va i :=
    funext fun j => w_eq lab va hbin hrow hva i j
  have hv : (validBitK lab (fun a j => lab j a) i = 1#1) = hasPos i (ovR lab i) :=
    propext (validBitK_iff lab hbin i)
  have hf : (fun x : EReal => zeroF - x) = fun x => -x := funext fun x => by rw [zeroF_eq, zero_sub]
  unfold lossK lossR
  rw [hs, hw, hv, hov, hf, ← negInfF_eq]

end Cert.ContrastRow

end
-- ==== Proof.PreFacts.lean ====
/-
  What the precondition says of the inputs, at the ideal values: every label is zero or one, every row of labels has a
  one, and every entry of the valence-arousal matrix is a real number.
-/
import proofs.«427604_j60739427500227_3_alg».proof.Pre_finite_inputs
import proofs.«427604_j60739427500227_3_alg».proof.Proof.Gen.Pre_finite_inputs
import proofs.«427604_j60739427500227_3_alg».proof.Proof.Consts
import Idealize.ShloMosaic.PureOps.Ideal.Laws
import Idealize.ShloMosaic.Lib.ValueIdx
import Idealize.ShloMosaic.Lib.ReduceAll

noncomputable section

namespace Cert.PreFacts

open Idealize.ShloMosaic Idealize.ShloMosaic.ValueIdx Cert.Pre_finite_inputs

variable [Cert.Pre_finite_inputs.Facts]
variable (x0 : FVec Ideal S2048x256 .f32) (x1 x2 : FVec Ideal S2048x28 .f32) (x3 : FVec Ideal S28x28 .f32)

/-- A one-bit word made from a boolean is one exactly when the boolean holds. -/
private theorem ofBool_one {b : Bool} (h : BitVec.ofBool b = 1#1) : b = true := by
  cases b
  · exact absurd h (by decide)
  · rfl

private theorem cmp_oeq {x y : EReal} (h : Ideal.cmp .oeq x y = 1#1) : x = y := of_decide_eq_true (ofBool_one h)

private theorem cmp_olt {x y : EReal} (h : Ideal.cmp .olt x y = 1#1) : x < y := of_decide_eq_true (ofBool_one h)

private theorem cmp_oge {x y : EReal} (h : Ideal.cmp .oge x y = 1#1) : y ≤ x := of_decide_eq_true (ofBool_one h)

/-- The word of plus infinity is the top of the extended reals. -/
private theorem ofBits_inf : Ideal.ofBits .f32 0x7F800000#32 = ⊤ := by simp [Ideal.ofBits, Ideal.ieee]

/-- The three conjuncts of the predicate this module reads, each at one element: the absolute value of a
    valence-arousal entry is below plus infinity; a label equals the word of zero or the word of one; a row's sum of
    labels, taken from the word of zero, is at least the word of one. -/
private theorem parts (h : Cert.Pre_finite_inputs.fn (F := Ideal) x0 x1 x2 x3 = fun _ => 1#1) :
    (∀ a b : Fin 28, max (x3 (ix2 a b)) (-(x3 (ix2 a b))) < Ideal.ofBits .f32 0x7F800000#32)
    ∧ (∀ (i : Fin 2048) (a : Fin 28),
        x2 (ix2 i a) = Ideal.ofBits .f32 0x00000000#32 ∨ x2 (ix2 i a) = Ideal.ofBits .f32 0x3F800000#32)
    ∧ (∀ i : Fin 2048, Ideal.ofBits .f32 0x3F800000#32
        ≤ Ideal.hostReduceAdd Facts.reducesTo_S2048x28_S2048_d1 x2 (Ideal.ofBits .f32 0x00000000#32) (ix1 i)) := by
  haveI : Subsingleton S_.Idx := ⟨fun a b => funext fun d => d.elim0⟩
  have h0 := congrFun h ix0
  dsimp only [fn, fn_part1, andi] at h0
  simp only [IntOp.andi_eq_one] at h0
  obtain ⟨⟨⟨⟨⟨_, _⟩, _⟩, h4⟩, h5⟩, h6⟩ := h0
  refine ⟨fun a b => ?_, fun i a => ?_, fun i => ?_⟩
  · exact cmp_olt (Host.reduce_andi_all _ _ _ _ _ h4 (ix2 a b))
  · have e : IntOp.ori (Ideal.cmp .oeq (x2 (ix2 i a)) (Ideal.ofBits .f32 0x00000000#32))
        (Ideal.cmp .oeq (x2 (ix2 i a)) (Ideal.ofBits .f32 0x3F800000#32)) = 1#1 :=
      Host.reduce_andi_all _ _ _ _ _ h5 (ix2 i a)
    exact (IntOp.ori_eq_one.1 e).imp cmp_oeq cmp_oeq
  · exact cmp_oge (Host.reduce_andi_all _ _ _ _ _ h6 (ix1 i))

theorem labels_binary (h : Cert.Pre_finite_inputs.fn (F := Ideal) x0 x1 x2 x3 = fun _ => 1#1) (i : Fin 2048) (a : Fin 28) :
    x2 (ix2 i a) = 0 ∨ x2 (ix2 i a) = 1 := by
  obtain ⟨_, hb, _⟩ := parts x0 x1 x2 x3 h
  have e := hb i a
  rwa [Ideal.ofBits_zero_f32, Cert.Consts.ofBits_one] at e

theorem labels_row (h : Cert.Pre_finite_inputs.fn (F := Ideal) x0 x1 x2 x3 = fun _ => 1#1) (i : Fin 2048) :
    ∃ a : Fin 28, x2 (ix2 i a) = 1 := by
  obtain ⟨_, _, hs⟩ := parts x0 x1 x2 x3 h
  by_contra hne
  have hz : ∀ a : Fin 28, x2 (ix2 i a) = 0 := fun a =>
    (labels_binary x0 x1 x2 x3 h i a).resolve_right fun e => hne ⟨a, e⟩
  have hR : S2048x28.Reduces [1] S2048 := by decide
  have hl : ∀ k : Fin 28, hR.lift (ix1 i) k = ix2 i k := fun k => by
    funext d
    match d with
    | ⟨0, _⟩ => exact Fin.ext rfl
    | ⟨1, _⟩ => exact Fin.ext rfl
  have hsum := hs i
  rw [Ideal.hostReduceAdd_single Facts.reducesTo_S2048x28_S2048_d1 hR, Ideal.ofBits_zero_f32,
    Cert.Consts.ofBits_one, zero_add] at hsum
  refine absurd (hsum.trans_eq ?_) (not_le.2 zero_lt_one)
  exact Finset.sum_eq_zero fun k _ => (congrArg x2 (hl k)).trans (hz k)

theorem va_real (h : Cert.Pre_finite_inputs.fn (F := Ideal) x0 x1 x2 x3 = fun _ => 1#1) (a b : Fin 28) :
    ∃ r : ℝ, x3 (ix2 a b) = (r : EReal) := by
  obtain ⟨hv, _, _⟩ := parts x0 x1 x2 x3 h
  have hlt := hv a b
  rw [ofBits_inf] at hlt
  have h1 : x3 (ix2 a b) < ⊤ := lt_of_le_of_lt (le_max_left _ _) hlt
  have h2 : -(x3 (ix2 a b)) < ⊤ := lt_of_le_of_lt (le_max_right _ _) hlt
  generalize x3 (ix2 a b) = v at h1 h2
  induction v using EReal.rec with
  | bot => exact absurd h2 (by simp)
  | coe r => exact ⟨r, rfl⟩
  | top => exact absurd h1 (lt_irrefl _)

end Cert.PreFacts

end
-- ==== Proof.RowsJoined.lean ====
/-
  One row, both programs: under the precondition, the kernel's row loss taken on the reference's own stages (the entropy
  weight, and `v` read transposed) is the reference's loss stage at that row, and the kernel's stored validity, compared
  with one half as the host does, is the reference's validity bit. The three facts of the precondition (labels zero or one,
  a one in every row, a finite matrix) meet the row algebra here.
-/
import proofs.«427604_j60739427500227_3_alg».proof.Proof.RefRows
import proofs.«427604_j60739427500227_3_alg».proof.Proof.RowAlgebra
import proofs.«427604_j60739427500227_3_alg».proof.Proof.PreFacts

noncomputable section

namespace Cert.RowsJoined

open Idealize.ShloMosaic Idealize.ShloMosaic.ValueIdx Cert.ContrastRow
open Cert.ReferenceIdeal

attribute [local instance] Cert.Pre_finite_inputs.Gen.facts Cert.ReferenceIdeal.Gen.facts

variable (x0 : FVec Ideal S2048x256 .f32) (x1 x2 : FVec Ideal S2048x28 .f32) (x3 : FVec Ideal S28x28 .f32)

/-- Two one-bit words that are set together are equal. -/
theorem bit_eq_of_iff {a b : BitVec 1} (h : a = 1#1 ↔ b = 1#1) : a = b := by
  by_cases ha : a = 1#1
  · rw [ha, h.mp ha]
  · have hb : ¬ b = 1#1 := fun hb => ha (h.mpr hb)
    rw [eq_zero_of_ne_one ha, eq_zero_of_ne_one hb]

/-- The kernel's row loss on the reference's stages is the reference's row loss. -/
theorem loss_eq (h : Cert.Pre_finite_inputs.fn (F := Ideal) x0 x1 x2 x3 = fun _ => 1#1) (i : Fin 2048) :
    lossK (fun r k => x0 (ix2 r k)) (fun k j => x0 (ix2 j k)) (fun r a => x2 (ix2 r a)) (fun a j => x2 (ix2 j a))
        (fun a j => ReadP.val_main_v53 (F := Ideal) x2 x3 (ix2 j a)) ⊥ (ReadP.val_main_v32 (F := Ideal) x1 x2 (ix1 i)) i
      = ReadP.val_main_v79 (F := Ideal) x0 x1 x2 x3 (ix1 i) := by
  rw [RefRows.loss_row x0 x1 x2 x3 i]
  have hv : (fun (a : Fin 28) (j : Fin 2048) => ReadP.val_main_v53 (F := Ideal) x2 x3 (ix2 j a))
      = fun a j => vR (fun r a => x2 (ix2 r a)) (fun a b => x3 (ix2 a b)) j a := by
    funext a j; exact RefRows.v_entry x2 x3 j a
  rw [hv]
  exact lossK_eq_lossR (fun r k => x0 (ix2 r k)) (fun r a => x2 (ix2 r a)) (fun a b => x3 (ix2 a b))
    (fun r a => Cert.PreFacts.labels_binary x0 x1 x2 x3 h r a) (fun r => Cert.PreFacts.labels_row x0 x1 x2 x3 h r)
    (fun a b => Cert.PreFacts.va_real x0 x1 x2 x3 h a b) _ i

/-- The kernel's stored validity, compared with one half, is the reference's validity bit. -/
theorem valid_eq (h : Cert.Pre_finite_inputs.fn (F := Ideal) x0 x1 x2 x3 = fun _ => 1#1) (i : Fin 2048) :
    Ideal.cmp .ogt (validK (fun r a => x2 (ix2 r a)) (fun a j => x2 (ix2 j a)) i) halfF
      = ReadP.val_main_v72 (F := Ideal) x2 (ix1 i) := by
  rw [validK_round]
  exact bit_eq_of_iff ((validBitK_iff (fun r a => x2 (ix2 r a))
    (fun r a => Cert.PreFacts.labels_binary x0 x1 x2 x3 h r a) i).trans (RefRows.valid_row x2 i).symm)

end Cert.RowsJoined

end
-- ==== Proof.ResultJoined.lean ====
/-
  The two programs' results are one value. The kernel's host stretches before the pallas_call compute the entropy
  weights and the array `v` by the reference's own operations in the reference's order, so those arrays ARE the
  reference's stages; row by row the kernel's losses are then the reference's and its stored validities, compared with one
  half, the reference's validity bits (the rows joined); and the host stretch after the pallas_call is the reference's last
  operations: the masked sum of the losses over the count of valid rows, at least one.
-/
import proofs.«427604_j60739427500227_3_alg».proof.Proof.KernelHost
import proofs.«427604_j60739427500227_3_alg».proof.Proof.RowsJoined

noncomputable section

namespace Cert.ResultJoined

open Idealize.ShloMosaic Idealize.ShloMosaic.ValueIdx Cert.ContrastRow
open Cert.ReferenceIdeal

attribute [local instance] Cert.Pre_finite_inputs.Gen.facts Cert.ReferenceIdeal.Gen.facts Cert.KernelIdeal.Gen.facts

section Chains

variable {F : FTy → Type} [FloatOps F]

/-- The kernel program's entropy weights are the reference's stage: the same operations in the same order. -/
theorem ewHost_eq (x1 x2 : FVec F S2048x28 .f32) :
    Cert.KernelIdeal.KVal.ewHost x1 x2 = ReadP.val_main_v32 (F := F) x1 x2 := rfl

/-- The kernel program's `v` is the reference's stage. -/
theorem vHost_eq (x2 : FVec F S2048x28 .f32) (x3 : FVec F S28x28 .f32) :
    Cert.KernelIdeal.KVal.vHost x2 x3 = ReadP.val_main_v53 (F := F) x2 x3 := rfl

/-- The host stretch after the pallas_call, on the reference's loss stage and validity bits, is the reference's result. -/
theorem tail_eq (x0 : FVec F S2048x256 .f32) (x1 x2 : FVec F S2048x28 .f32) (x3 : FVec F S28x28 .f32)
    (L V : FVec F S2048 .f32) (hL : L = ReadP.val_main_v79 (F := F) x0 x1 x2 x3)
    (hV : cmpf .ogt V (broadcastInDim S2048 ![] Cert.KernelIdeal.Gen.bcast_S_S2048 (constant S_ .f32 0x3F000000#32))
        = ReadP.val_main_v72 (F := F) x2) :
    Cert.KernelIdeal.KVal.tailK L V = ReadP.val_main_v86 (F := F) x0 x1 x2 x3 := by
  unfold Cert.KernelIdeal.KVal.tailK
  rw [hV, hL]
  rfl

end Chains

variable (x0 : FVec Ideal S2048x256 .f32) (x1 x2 : FVec Ideal S2048x28 .f32) (x3 : FVec Ideal S28x28 .f32)

/-- Under the precondition the kernel's result — its host tail on the row losses and stored validities in the kernel's
    form — is the reference's result stage. -/
theorem result_eq (h : Cert.Pre_finite_inputs.fn (F := Ideal) x0 x1 x2 x3 = fun _ => 1#1) :
    Cert.KernelIdeal.KVal.tailK (F := Ideal)
        (fun i => lossK (fun r k => x0 (ix2 r k)) (fun k j => x0 (ix2 j k)) (fun r a => x2 (ix2 r a)) (fun a j => x2 (ix2 j a))
          (fun a j => Cert.KernelIdeal.KVal.vHost x2 x3 (ix2 j a)) ⊥ (Cert.KernelIdeal.KVal.ewHost x1 x2 i) (i 0))
        (fun i => validK (fun r a => x2 (ix2 r a)) (fun a j => x2 (ix2 j a)) (i 0))
      = ReadP.val_main_v86 (F := Ideal) x0 x1 x2 x3 := by
  refine tail_eq x0 x1 x2 x3 _ _ ?_ ?_
  · funext i
    rw [eq_ix1 i, ewHost_eq, vHost_eq]
    exact Cert.RowsJoined.loss_eq x0 x1 x2 x3 h (i 0)
  · funext i
    rw [eq_ix1 i]
    refine Eq.trans ?_ (Cert.RowsJoined.valid_eq x0 x1 x2 x3 h (i 0))
    show Ideal.cmp .ogt _ _ = Ideal.cmp .ogt _ _
    congr 1

end Cert.ResultJoined

end
-- ==== Proof.lean ====
/-
  A joint contrastive classification loss over 2048 samples with 28 multi-hot labels and 256-dimensional embeddings:
  the tiled kernel against its whole-array reference, equal as extended reals.

  For an anchor row i both programs take the similarities s(i,j) = ⟨eᵢ, eⱼ⟩ / T, shift them by their maximum over j ≠ i,
  and form  -log( P(i) / (N(i) + ε) ) · w(i):  P(i) the sum of exp(s − max) over the samples j ≠ i that share a label
  with i (one when there is none), N(i) the sum over j ≠ i of exp(s − max) times a pair weight — one for samples that share
  a label, else the square root of the largest class similarity between a label of i and a label of j —, w(i) the row's
  entropy weight; the result is the mean of these over the anchors that have a positive. The kernel does this for four tiles
  of 512 rows; the host code around it computes the entropy weights and the per-sample class maxima before, and the mean after.

  Read at the exact values the two differ in three places, and agree in each under the precondition:
  the kernel multiplies by the reciprocal of the temperature's float (a named constant, exactly 1 over the reference's
  divisor) where the reference divides; it tests the count of shared labels against one half where the reference tests
  against zero (the count of zero-one labels is a natural number); and its pair similarity is a running maximum from ZERO
  of products label · v followed by a square root, the reference's a masked maximum from MINUS INFINITY followed by a power
  one half: with zero-one labels the kernel's is max(0, p) for the reference's p, p is a real number when every row has a
  label, and √max(0,p) = p^(1/2) for every real p (both vanish for p < 0). The kernel's diagonal fill is named minus
  infinity, the reference's own.

  The frames of the two kernel programs are the generated ones; the reference's run is proved over its operations' stages;
  the kernel's value is read off its frame run row by row; `preserves` restates the two named constants.
-/
import proofs.«427604_j60739427500227_3_alg».proof.Defs
import proofs.«427604_j60739427500227_3_alg».proof.Proof.Gen.Kernel
import proofs.«427604_j60739427500227_3_alg».proof.Proof.Gen.Kernel.Skeleton
import proofs.«427604_j60739427500227_3_alg».proof.Proof.Gen.Kernel.Launch
import proofs.«427604_j60739427500227_3_alg».proof.Proof.Gen.Kernel.Points
import proofs.«427604_j60739427500227_3_alg».proof.Proof.Gen.Kernel.Frame
import proofs.«427604_j60739427500227_3_alg».proof.Proof.Gen.KernelIdeal
import proofs.«427604_j60739427500227_3_alg».proof.Proof.Gen.KernelIdeal.Skeleton
import proofs.«427604_j60739427500227_3_alg».proof.Proof.Gen.KernelIdeal.Launch
import proofs.«427604_j60739427500227_3_alg».proof.Proof.Gen.KernelIdeal.Points
import proofs.«427604_j60739427500227_3_alg».proof.Proof.Gen.KernelIdeal.Frame
import proofs.«427604_j60739427500227_3_alg».proof.Proof.Gen.ReferenceIdeal
import proofs.«427604_j60739427500227_3_alg».proof.Proof.Gen.Pre_finite_inputs
import proofs.«427604_j60739427500227_3_alg».proof.Proof.KernelLaunch
import proofs.«427604_j60739427500227_3_alg».proof.Proof.RefRun
import proofs.«427604_j60739427500227_3_alg».proof.Proof.ResultJoined
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts
  Cert.Pre_finite_inputs.Gen.facts

/-- The word-level kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The two named constants denote, at the exact values, what the table gives them: the reciprocal of the temperature's
    float, and minus infinity for the diagonal's fill. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "neg_big" .f32 0xFF333332#32 ⊥ rfl⟩

/-- From memories that agree on the arguments the two idealized programs end with one result: the kernel's host tail
    on its row losses and validities, which under the precondition is the reference's last stage. -/
theorem algebraic : Cert.algebraic_KernelIdeal_ReferenceIdeal := by
  intro m ρ m' ρ' hpre hagree
  refine ⟨_, Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact (Cert.ResultJoined.result_eq _ _ _ _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
